-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v30)) (v2 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_v31) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S512x32 : Shape := ⟨2, ![512, 32]⟩
abbrev S32x16 : Shape := ⟨2, ![32, 16]⟩
abbrev S320000 : Shape := ⟨1, ![320000]⟩
abbrev S10000x16 : Shape := ⟨2, ![10000, 16]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S32x16 : S_.BroadcastsInDim S32x16 (![] : Fin 0 → Fin S32x16.rank)
  reducesTo_S32x16_S_d0_1 : S32x16.ReducesTo [0, 1] S_
  bcast_S_S320000 : S_.BroadcastsInDim S320000 (![] : Fin 0 → Fin S320000.rank)
  reducesTo_S320000_S_d0 : S320000.ReducesTo [0] S_
  bcast_S_S10000x16 : S_.BroadcastsInDim S10000x16 (![] : Fin 0 → Fin S10000x16.rank)
  reducesTo_S10000x16_S_d0_1 : S10000x16.ReducesTo [0, 1] S_

variable [Facts]

def fn_part1 {F : FTy → Type} [FloatOps F] (main_arg4 : FVec F S320000 .f32) (main_arg5 : FVec F S10000x16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S320000 .f32 := Host.absf main_arg4
  let main_cst_6 : FVec F S_ .f32 := constant S_ .f32 0x7F800000#32
  let main_v20 : FVec F S320000 .f32 := broadcastInDim S320000 ![] bcast_S_S320000 main_cst_6
  let main_v21 : IVec S320000 1 := cmpf .olt main_v19 main_v20
  let main_c_7 : IVec S_ 1 := constantI S_ 1 1#1
  let main_v22 : IVec S_ 1 := (fun x v => Host.reduce IntOp.andi x v reducesTo_S320000_S_d0 h_S_) main_v21 main_c_7
  let main_v23 : IVec S_ 1 := andi main_v18 main_v22
  let main_v24 : FVec F S10000x16 .f32 := Host.absf main_arg5
  let main_cst_8 : FVec F S_ .f32 := constant S_ .f32 0x7F800000#32
  let main_v25 : FVec F S10000x16 .f32 := broadcastInDim S10000x16 ![] bcast_S_S10000x16 main_cst_8
  let main_v26 : IVec S10000x16 1 := cmpf .olt main_v24 main_v25
  let main_c_9 : IVec S_ 1 := constantI S_ 1 1#1
  let main_v27 : IVec S_ 1 := (fun x v => Host.reduce IntOp.andi x v reducesTo_S10000x16_S_d0_1 h_S_) main_v26 main_c_9
  let main_v28 : IVec S_ 1 := andi main_v23 main_v27
  main_v28

def fn {F : FTy → Type} [FloatOps F] (main_arg0 : FVec F S10000x512 .f32) (main_arg1 : FVec F S512x32 .f32) (main_arg2 : FVec F S32x16 .f32) (main_arg3 : FVec F S32x16 .f32) (main_arg4 : FVec F S320000 .f32) (main_arg5 : FVec F S10000x16 .f32) (main_arg6 : IVec S320000 32) (main_arg7 : IVec S320000 32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S32x16 .f32 := Host.absf main_arg2
  let main_cst_2 : FVec F S_ .f32 := constant S_ .f32 0x7F800000#32
  let main_v10 : FVec F S32x16 .f32 := broadcastInDim S32x16 ![] bcast_S_S32x16 main_cst_2
  let main_v11 : IVec S32x16 1 := cmpf .olt main_v9 main_v10
  let main_c_3 : IVec S_ 1 := constantI S_ 1 1#1
  let main_v12 : IVec S_ 1 := (fun x v => Host.reduce IntOp.andi x v reducesTo_S32x16_S_d0_1 h_S_) main_v11 main_c_3
  let main_v13 : IVec S_ 1 := andi main_v8 main_v12
  let main_v14 : FVec F S32x16 .f32 := Host.absf main_arg3
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg4 main_arg5 main_v13 main_v16
-- ==== Kernel.lean ====
abbrev S10000x512 : Shape := ⟨2, ![10000, 512]⟩
abbrev S512x32 : Shape := ⟨2, ![512, 32]⟩
abbrev S32x16 : Shape := ⟨2, ![32, 16]⟩
abbrev S320000 : Shape := ⟨1, ![320000]⟩
abbrev S10000x16 : Shape := ⟨2, ![10000, 16]⟩
abbrev S10000x32 : Shape := ⟨2, ![10000, 32]⟩
abbrev S1000x512 : Shape := ⟨2, ![1000, 512]⟩
abbrev S1000x32 : Shape := ⟨2, ![1000, 32]⟩
abbrev S320000x1 : Shape := ⟨2, ![320000, 1]⟩
abbrev S_ : Shape := ⟨0, ![]⟩
abbrev S320000x32 : Shape := ⟨2, ![320000, 32]⟩
abbrev S32x32 : Shape := ⟨2, ![32, 32]⟩
abbrev S2000x32 : Shape := ⟨2, ![2000, 32]⟩
abbrev S10240x16 : Shape := ⟨2, ![10240, 16]⟩
abbrev S10240x10240 : Shape := ⟨2, ![10240, 10240]⟩
abbrev S1024x16 : Shape := ⟨2, ![1024, 16]⟩
abbrev S1024x1024 : Shape := ⟨2, ![1024, 1024]⟩
abbrev S16x1024 : Shape := ⟨2, ![16, 1024]⟩
abbrev S10000x10000 : Shape := ⟨2, ![10000, 10000]⟩
abbrev S100000000 : Shape := ⟨1, ![100000000]⟩

abbrev nBuf : Space → Nat
  | .hbm => 57
  | .vmem => 16
  | .smem => 0
  | _ => 0

abbrev bufTy : (tb : Table) → Fin (tcTables nBuf tb) → BufTy
  | .hbm, ⟨0, _⟩ => ⟨S10000x512, .f32⟩
  | .hbm, ⟨1, _⟩ => ⟨S512x32, .f32⟩
  | .hbm, ⟨2, _⟩ => ⟨S32x16, .f32⟩
  | .hbm, ⟨3, _⟩ => ⟨S32x16, .f32⟩
  | .hbm, ⟨4, _⟩ => ⟨S320000, .f32⟩
  | .hbm, ⟨5, _⟩ => ⟨S10000x16, .f32⟩
  | .hbm, ⟨6, _⟩ => ⟨S320000, .i32⟩
  | .hbm, ⟨7, _⟩ => ⟨S320000, .i32⟩
  | .hbm, ⟨8, _⟩ => ⟨S10000x32, .f32⟩
  | .hbm, ⟨9, _⟩ => ⟨S320000x1, .f32⟩
  | .hbm, ⟨10, _⟩ => ⟨S_, .i32⟩
  | .hbm, ⟨11, _⟩ => ⟨S320000, .i32⟩
  | .hbm, ⟨12, _⟩ => ⟨S320000, .i1⟩
  | .hbm, ⟨13, _⟩ => ⟨S_, .i32⟩
  | .hbm, ⟨14, _⟩ => ⟨S320000, .i32⟩
  | .hbm, ⟨15, _⟩ => ⟨S320000, .i32⟩
  | .hbm, ⟨16, _⟩ => ⟨S320000, .i32⟩
  | .hbm, ⟨17, _⟩ => ⟨S320000x1, .i32⟩
  | .hbm, ⟨18, _⟩ => ⟨S320000x32, .f32⟩
  | .hbm, ⟨19, _⟩ => ⟨S320000x32, .f32⟩
  | .hbm, ⟨20, _⟩ => ⟨S320000x32, .f32⟩
  | .hbm, ⟨21, _⟩ => ⟨S_, .f32⟩
  | .hbm, ⟨22, _⟩ => ⟨S10000x32, .f32⟩
  | .hbm, ⟨23, _⟩ => ⟨S320000x1, .i32⟩
  | .hbm, ⟨24, _⟩ => ⟨S10000x32, .f32⟩
  | .hbm, ⟨25, _⟩ => ⟨S_, .f32⟩
  | .hbm, ⟨26, _⟩ => ⟨S10000x32, .f32⟩
  | .hbm, ⟨27, _⟩ => ⟨S10000x32, .f32⟩
  | .hbm, ⟨28, _⟩ => ⟨S32x32, .f32⟩
  | .hbm, ⟨29, _⟩ => ⟨S10000x32, .f32⟩
  | .hbm, ⟨30, _⟩ => ⟨S320000x1, .f32⟩
  | .hbm, ⟨31, _⟩ => ⟨S_, .i32⟩
  | .hbm, ⟨32, _⟩ => ⟨S320000, .i32⟩
  | .hbm, ⟨33, _⟩ => ⟨S320000, .i1⟩
  | .hbm, ⟨34, _⟩ => ⟨S_, .i32⟩
  | .hbm, ⟨35, _⟩ => ⟨S320000, .i32⟩
  | .hbm, ⟨36, _⟩ => ⟨S320000, .i32⟩
  | .hbm, ⟨37, _⟩ => ⟨S320000, .i32⟩
  | .hbm, ⟨38, _⟩ => ⟨S320000x1, .i32⟩
  | .hbm, ⟨39, _⟩ => ⟨S320000x32, .f32⟩
  | .hbm, ⟨40, _⟩ => ⟨S320000x32, .f32⟩
  | .hbm, ⟨41, _⟩ => ⟨S320000x32, .f32⟩
  | .hbm, ⟨42, _⟩ => ⟨S_, .f32⟩
  | .hbm, ⟨43, _⟩ => ⟨S10000x32, .f32⟩
  | .hbm, ⟨44, _⟩ => ⟨S320000x1, .i32⟩
  | .hbm, ⟨45, _⟩ => ⟨S10000x32, .f32⟩
  | .hbm, ⟨46, _⟩ => ⟨S10000x16, .f32⟩
  | .hbm, ⟨47, _⟩ => ⟨S10000x16, .f32⟩
  | .hbm, ⟨48, _⟩ => ⟨S10000x16, .f32⟩
  | .hbm, ⟨49, _⟩ => ⟨S10000x16, .f32⟩
  | .hbm, ⟨50, _⟩ => ⟨S10000x16, .f32⟩
  | .hbm, ⟨51, _⟩ => ⟨S_, .i32⟩
  | .hbm, ⟨52, _⟩ => ⟨S_, .f32⟩
  | .hbm, ⟨53, _⟩ => ⟨S10240x16, .f32⟩
  | .hbm, ⟨54, _⟩ => ⟨S10240x10240, .f32⟩
  | .hbm, ⟨55, _⟩ => ⟨S10000x10000, .f32⟩
  | .hbm, ⟨56, _⟩ => ⟨S100000000, .f32⟩
  | .local _ .vmem, ⟨0, _⟩ => ⟨S1000x512, .f32⟩
  | .local _ .vmem, ⟨1, _⟩ => ⟨S1000x512, .f32⟩
  | .local _ .vmem, ⟨2, _⟩ => ⟨S512x32, .f32⟩
  | .local _ .vmem, ⟨3, _⟩ => ⟨S1000x32, .f32⟩
  | .local _ .vmem, ⟨4, _⟩ => ⟨S1000x32, .f32⟩
  | .local _ .vmem, ⟨5, _⟩ => ⟨S2000x32, .f32⟩
  | .local _ .vmem, ⟨6, _⟩ => ⟨S2000x32, .f32⟩
  | .local _ .vmem, ⟨7, _⟩ => ⟨S32x32, .f32⟩
  | .local _ .vmem, ⟨8, _⟩ => ⟨S2000x32, .f32⟩
  | .local _ .vmem, ⟨9, _⟩ => ⟨S2000x32, .f32⟩
  | .local _ .vmem, ⟨10, _⟩ => ⟨S1024x16, .f32⟩
  | .local _ .vmem, ⟨11, _⟩ => ⟨S1024x16, .f32⟩
  | .local _ .vmem, ⟨12, _⟩ => ⟨S1024x16, .f32⟩
  | .local _ .vmem, ⟨13, _⟩ => ⟨S1024x16, .f32⟩
  | .local _ .vmem, ⟨14, _⟩ => ⟨S1024x1024, .f32⟩
  | .local _ .vmem, ⟨15, _⟩ => ⟨S1024x1024, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_cst : Ref sig .tc := ⟨.hbm, 25, rfl⟩
abbrev main_call0_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_4 : Ref sig .tc := ⟨.hbm, 51, rfl⟩
abbrev main_call1_v0 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![10, 10], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x32_S512x32_0_0 : ∀ a, (![0, 0] : Fin 2 → Nat) a + S512x32.size a ≤ S512x32.size a
  h_S512x32 : 0 < S512x32.numel
  inb_S1000x32_S1000x32_0_0 : ∀ a, (![0, 0] : Fin 2 → Nat) a + S1000x32.size a ≤ S1000x32.size a
  h_S1000x32 : 0 < S1000x32.numel
  bcast_S320000_S320000x1_0 : S320000.BroadcastsInDim S320000x1 (![0] : Fin 1 → Fin S320000x1.rank)
  bcast_S_S320000 : S_.BroadcastsInDim S320000 (![] : Fin 0 → Fin S320000.rank)
  bcast_S320000x1_S320000x32_0_1 : S320000x1.BroadcastsInDim S320000x32 (![0, 1] : Fin 2 → Fin S320000x32.rank)
  bcast_S_S10000x32 : S_.BroadcastsInDim S10000x32 (![] : Fin 0 → Fin S10000x32.rank)
  concatenates_S32x16_S32x16_S32x32_d1 : Shape.Concatenates [S32x16, S32x16] S32x32 1
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  slices_S10000x32_S10000x16_0_0 : S10000x32.Slices ![0, 0] S10000x16
  slices_S10000x32_S10000x16_0_16 : S10000x32.Slices ![0, 16] S10000x16
  pads_S10000x16_S10240x16_02400_000 : S10000x16.Pads (![0, 0] : Fin 2 → Nat) ![240, 0] ![0, 0] S10240x16
  h_S_ : 0 < S_.numel
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  transposes_S1024x16_p1_0_S16x1024 : S1024x16.Transposes [1, 0] S16x1024
  inb_S1024x1024_S1024x1024_0_0 : ∀ a, (![0, 0] : Fin 2 → Nat) a + S1024x1024.size a ≤ S1024x1024.size a
  h_S1024x1024 : 0 < S1024x1024.numel
  slices_S10240x10240_S10000x10000_0_0 : S10240x10240.Slices ![0, 0] S10000x10000
  shapeCasts_S10000x10000_S100000000 : S10000x10000.ShapeCasts S100000000
  dot_S1000x512_S512x32_S1000x32_1_0_0_1_n_n_wf : DotDims.WF S1000x512 S512x32 S1000x32 [1] [0] [0] [1] [] []
  gather_S10000x32_S320000x1_S320000x32_1_0_n_n_0_1_132_wf : GatherDims.WF S10000x32 S320000x1 S320000x32 [1] [0] [] [0] [] 1 ![1, 32]
  scatter_S10000x32_S320000x1_S320000x32_1_0_0_1_wf : ScatterDims.WF S10000x32 S320000x1 S320000x32 [1] [0] [0] 1
  dot_S2000x32_S32x32_S2000x32_1_0_0_1_n_n_wf : DotDims.WF S2000x32 S32x32 S2000x32 [1] [0] [0] [1] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x32.size a ≤ S10000x32.size a
  hwx0_2 : ∀ i : grid0.Coords, EltTy.bits .f32 = 32 ∨ (Rect.block (s := S10000x32) S1000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S10000x32.size a
  hwx1_0 : ∀ i : grid1.Coords, EltTy.bits .f32 = 32 ∨ (Rect.block (s := S10000x32) S2000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x32.size a ≤ S10000x32.size a
  hwx1_2 : ∀ i : grid1.Coords, EltTy.bits .f32 = 32 ∨ (Rect.block (s := S10000x32) S2000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x16.size a ≤ S10240x16.size a
  hwx2_0 : ∀ i : grid2.Coords, EltTy.bits .f32 = 32 ∨ (Rect.block (s := S10240x16) S1024x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x16.size a ≤ S10240x16.size a
  hwx2_1 : ∀ i : grid2.Coords, EltTy.bits .f32 = 32 ∨ (Rect.block (s := S10240x16) S1024x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S10240x10240.size a
  hwx2_2 : ∀ i : grid2.Coords, EltTy.bits .f32 = 32 ∨ (Rect.block (s := S10240x10240) S1024x1024.size (cc2_transform_2 i) (hinb2_2 i)).WholeWords (EltTy.packing .f32)

variable [Facts₀]

def dot_S1000x512_S512x32_S1000x32_1_0_0_1_n_n : DotDims S1000x512 S512x32 S1000x32 where
  lhsContracting := [1]
  rhsContracting := [0]
  lhsNonContracting := [0]
  rhsNonContracting := [1]
  lhsBatch := []
  rhsBatch := []
  wf := dot_S1000x512_S512x32_S1000x32_1_0_0_1_n_n_wf
def gather_S10000x32_S320000x1_S320000x32_1_0_n_n_0_1_132 : GatherDims S10000x32 S320000x1 S320000x32 where
  offsetDims := [1]
  collapsedSliceDims := [0]
  operandBatchingDims := []
  startIndicesBatchingDims := []
  startIndexMap := [0]
  indexVectorDim := 1
  sliceSizes := ![1, 32]
  wf := gather_S10000x32_S320000x1_S320000x32_1_0_n_n_0_1_132_wf
def scatter_S10000x32_S320000x1_S320000x32_1_0_0_1 : ScatterDims S10000x32 S320000x1 S320000x32 where
  updateWindowDims := [1]
  insertedWindowDims := [0]
  scatterDimsToOperandDims := [0]
  indexVectorDim := 1
  wf := scatter_S10000x32_S320000x1_S320000x32_1_0_0_1_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S2000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v35) S1024x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S1024x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x512 : Shape := ⟨2, ![10000, 512]⟩
abbrev S512x32 : Shape := ⟨2, ![512, 32]⟩
abbrev S32x16 : Shape := ⟨2, ![32, 16]⟩
abbrev S320000 : Shape := ⟨1, ![320000]⟩
abbrev S10000x16 : Shape := ⟨2, ![10000, 16]⟩
abbrev S10000x32 : Shape := ⟨2, ![10000, 32]⟩
abbrev S320000x1 : Shape := ⟨2, ![320000, 1]⟩
abbrev S_ : Shape := ⟨0, ![]⟩
abbrev S320000x32 : Shape := ⟨2, ![320000, 32]⟩
abbrev S320000x16 : Shape := ⟨2, ![320000, 16]⟩
abbrev S16x10000 : Shape := ⟨2, ![16, 10000]⟩
abbrev S10000x10000 : Shape := ⟨2, ![10000, 10000]⟩
abbrev S100000000 : Shape := ⟨1, ![100000000]⟩

abbrev nBuf : Space → Nat
  | .hbm => 68
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S512x32, .f32⟩
  | .hbm, ⟨2, _⟩ => ⟨S32x16, .f32⟩
  | .hbm, ⟨3, _⟩ => ⟨S32x16, .f32⟩
  | .hbm, ⟨4, _⟩ => ⟨S320000, .f32⟩
  | .hbm, ⟨5, _⟩ => ⟨S10000x16, .f32⟩
  | .hbm, ⟨6, _⟩ => ⟨S320000, .i32⟩
  | .hbm, ⟨7, _⟩ => ⟨S320000, .i32⟩
  | .hbm, ⟨8, _⟩ => ⟨S10000x32, .f32⟩
  | .hbm, ⟨9, _⟩ => ⟨S320000x1, .f32⟩
  | .hbm, ⟨10, _⟩ => ⟨S_, .i32⟩
  | .hbm, ⟨11, _⟩ => ⟨S320000, .i32⟩
  | .hbm, ⟨12, _⟩ => ⟨S320000, .i1⟩
  | .hbm, ⟨13, _⟩ => ⟨S_, .i32⟩
  | .hbm, ⟨14, _⟩ => ⟨S320000, .i32⟩
  | .hbm, ⟨15, _⟩ => ⟨S320000, .i32⟩
  | .hbm, ⟨16, _⟩ => ⟨S320000, .i32⟩
  | .hbm, ⟨17, _⟩ => ⟨S320000x1, .i32⟩
  | .hbm, ⟨18, _⟩ => ⟨S320000x32, .f32⟩
  | .hbm, ⟨19, _⟩ => ⟨S320000x32, .f32⟩
  | .hbm, ⟨20, _⟩ => ⟨S320000x32, .f32⟩
  | .hbm, ⟨21, _⟩ => ⟨S_, .f32⟩
  | .hbm, ⟨22, _⟩ => ⟨S10000x32, .f32⟩
  | .hbm, ⟨23, _⟩ => ⟨S320000x1, .i32⟩
  | .hbm, ⟨24, _⟩ => ⟨S10000x32, .f32⟩
  | .hbm, ⟨25, _⟩ => ⟨S_, .f32⟩
  | .hbm, ⟨26, _⟩ => ⟨S10000x32, .f32⟩
  | .hbm, ⟨27, _⟩ => ⟨S10000x32, .f32⟩
  | .hbm, ⟨28, _⟩ => ⟨S10000x16, .f32⟩
  | .hbm, ⟨29, _⟩ => ⟨S320000x1, .f32⟩
  | .hbm, ⟨30, _⟩ => ⟨S_, .i32⟩
  | .hbm, ⟨31, _⟩ => ⟨S320000, .i32⟩
  | .hbm, ⟨32, _⟩ => ⟨S320000, .i1⟩
  | .hbm, ⟨33, _⟩ => ⟨S_, .i32⟩
  | .hbm, ⟨34, _⟩ => ⟨S320000, .i32⟩
  | .hbm, ⟨35, _⟩ => ⟨S320000, .i32⟩
  | .hbm, ⟨36, _⟩ => ⟨S320000, .i32⟩
  | .hbm, ⟨37, _⟩ => ⟨S320000x1, .i32⟩
  | .hbm, ⟨38, _⟩ => ⟨S320000x16, .f32⟩
  | .hbm, ⟨39, _⟩ => ⟨S320000x16, .f32⟩
  | .hbm, ⟨40, _⟩ => ⟨S320000x16, .f32⟩
  | .hbm, ⟨41, _⟩ => ⟨S_, .f32⟩
  | .hbm, ⟨42, _⟩ => ⟨S10000x16, .f32⟩
  | .hbm, ⟨43, _⟩ => ⟨S320000x1, .i32⟩
  | .hbm, ⟨44, _⟩ => ⟨S10000x16, .f32⟩
  | .hbm, ⟨45, _⟩ => ⟨S10000x16, .f32⟩
  | .hbm, ⟨46, _⟩ => ⟨S320000x1, .f32⟩
  | .hbm, ⟨47, _⟩ => ⟨S_, .i32⟩
  | .hbm, ⟨48, _⟩ => ⟨S320000, .i32⟩
  | .hbm, ⟨49, _⟩ => ⟨S320000, .i1⟩
  | .hbm, ⟨50, _⟩ => ⟨S_, .i32⟩
  | .hbm, ⟨51, _⟩ => ⟨S320000, .i32⟩
  | .hbm, ⟨52, _⟩ => ⟨S320000, .i32⟩
  | .hbm, ⟨53, _⟩ => ⟨S320000, .i32⟩
  | .hbm, ⟨54, _⟩ => ⟨S320000x1, .i32⟩
  | .hbm, ⟨55, _⟩ => ⟨S320000x16, .f32⟩
  | .hbm, ⟨56, _⟩ => ⟨S320000x16, .f32⟩
  | .hbm, ⟨57, _⟩ => ⟨S320000x16, .f32⟩
  | .hbm, ⟨58, _⟩ => ⟨S_, .f32⟩
  | .hbm, ⟨59, _⟩ => ⟨S10000x16, .f32⟩
  | .hbm, ⟨60, _⟩ => ⟨S320000x1, .i32⟩
  | .hbm, ⟨61, _⟩ => ⟨S10000x16, .f32⟩
  | .hbm, ⟨62, _⟩ => ⟨S10000x16, .f32⟩
  | .hbm, ⟨63, _⟩ => ⟨S10000x16, .f32⟩
  | .hbm, ⟨64, _⟩ => ⟨S10000x16, .f32⟩
  | .hbm, ⟨65, _⟩ => ⟨S16x10000, .f32⟩
  | .hbm, ⟨66, _⟩ => ⟨S10000x10000, .f32⟩
  | .hbm, ⟨67, _⟩ => ⟨S100000000, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_cst : Ref sig .tc := ⟨.hbm, 25, rfl⟩
abbrev main_call0_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]

class Facts₀ : Prop where
  bcast_S320000_S320000x1_0 : S320000.BroadcastsInDim S320000x1 (![0] : Fin 1 → Fin S320000x1.rank)
  bcast_S_S320000 : S_.BroadcastsInDim S320000 (![] : Fin 0 → Fin S320000.rank)
  bcast_S320000x1_S320000x32_0_1 : S320000x1.BroadcastsInDim S320000x32 (![0, 1] : Fin 2 → Fin S320000x32.rank)
  bcast_S_S10000x32 : S_.BroadcastsInDim S10000x32 (![] : Fin 0 → Fin S10000x32.rank)
  bcast_S320000x1_S320000x16_0_1 : S320000x1.BroadcastsInDim S320000x16 (![0, 1] : Fin 2 → Fin S320000x16.rank)
  bcast_S_S10000x16 : S_.BroadcastsInDim S10000x16 (![] : Fin 0 → Fin S10000x16.rank)
  transposes_S10000x16_S16x10000_1_0 : S10000x16.Transposes [1, 0] S16x10000
  shapeCasts_S10000x10000_S100000000 : S10000x10000.ShapeCasts S100000000
  dot_S10000x512_S512x32_S10000x32_1_0_0_1_n_n_wf : DotDims.WF S10000x512 S512x32 S10000x32 [1] [0] [0] [1] [] []
  gather_S10000x32_S320000x1_S320000x32_1_0_n_n_0_1_132_wf : GatherDims.WF S10000x32 S320000x1 S320000x32 [1] [0] [] [0] [] 1 ![1, 32]
  scatter_S10000x32_S320000x1_S320000x32_1_0_0_1_wf : ScatterDims.WF S10000x32 S320000x1 S320000x32 [1] [0] [0] 1
  dot_S10000x32_S32x16_S10000x16_1_0_0_1_n_n_wf : DotDims.WF S10000x32 S32x16 S10000x16 [1] [0] [0] [1] [] []
  gather_S10000x16_S320000x1_S320000x16_1_0_n_n_0_1_116_wf : GatherDims.WF S10000x16 S320000x1 S320000x16 [1] [0] [] [0] [] 1 ![1, 16]
  scatter_S10000x16_S320000x1_S320000x16_1_0_0_1_wf : ScatterDims.WF S10000x16 S320000x1 S320000x16 [1] [0] [0] 1
  dot_S10000x16_S16x10000_S10000x10000_1_0_0_1_n_n_wf : DotDims.WF S10000x16 S16x10000 S10000x10000 [1] [0] [0] [1] [] []

variable [Facts₀]

def dot_S10000x512_S512x32_S10000x32_1_0_0_1_n_n : DotDims S10000x512 S512x32 S10000x32 where
  lhsContracting := [1]
  rhsContracting := [0]
  lhsNonContracting := [0]
  rhsNonContracting := [1]
  lhsBatch := []
  rhsBatch := []
  wf := dot_S10000x512_S512x32_S10000x32_1_0_0_1_n_n_wf
def gather_S10000x32_S320000x1_S320000x32_1_0_n_n_0_1_132 : GatherDims S10000x32 S320000x1 S320000x32 where
  offsetDims := [1]
  collapsedSliceDims := [0]
  operandBatchingDims := []
  startIndicesBatchingDims := []
  startIndexMap := [0]
  indexVectorDim := 1
  sliceSizes := ![1, 32]
  wf := gather_S10000x32_S320000x1_S320000x32_1_0_n_n_0_1_132_wf
def scatter_S10000x32_S320000x1_S320000x32_1_0_0_1 : ScatterDims S10000x32 S320000x1 S320000x32 where
  updateWindowDims := [1]
  insertedWindowDims := [0]
  scatterDimsToOperandDims := [0]
  indexVectorDim := 1
  wf := scatter_S10000x32_S320000x1_S320000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S10000x16_S320000x1_S320000x16_1_0_n_n_0_1_116 : GatherDims S10000x16 S320000x1 S320000x16 where
  offsetDims := [1]
  collapsedSliceDims := [0]
  operandBatchingDims := []
  startIndicesBatchingDims := []
  startIndexMap := [0]
  indexVectorDim := 1
  sliceSizes := ![1, 16]
  wf := gather_S10000x16_S320000x1_S320000x16_1_0_n_n_0_1_116_wf
def scatter_S10000x16_S320000x1_S320000x16_1_0_0_1 : ScatterDims S10000x16 S320000x1 S320000x16 where
  updateWindowDims := [1]
  insertedWindowDims := [0]
  scatterDimsToOperandDims := [0]
  indexVectorDim := 1
  wf := scatter_S10000x16_S320000x1_S320000x16_1_0_0_1_wf
def dot_S10000x16_S16x10000_S10000x10000_1_0_0_1_n_n : DotDims S10000x16 S16x10000 S10000x10000 where
  lhsContracting := [1]
  rhsContracting := [0]
  lhsNonContracting := [0]
  rhsNonContracting := [1]
  lhsBatch := []
  rhsBatch := []
  wf := dot_S10000x16_S16x10000_S10000x10000_1_0_0_1_n_n_wf

class Facts : Prop extends Facts₀ where

variable [Facts]
-- ==== Proof.KbReg0.lean ====
/-
  The first projection, row block by row block. The grid has 10 points; at point t the body is handed rows
  1000·t … 1000·t + 999 of the left matrix (all 512 columns), the whole 512 × 32 right matrix (brought in once, at
  the first point, and left in place afterwards), and writes the 1000 × 32 product of the two into the matching rows
  of the result. Everything here is stated at a PARAMETER V, the contents of the core's buffers when the region is
  entered: what each window's block is at a point, what the body leaves in the result's buffer as a function of the
  two input blocks, the body's Hoare triple, and the pipeline's proof data with its obligation at every point.
-/
import proofs.«419466_j70042326663889_1_alg».proof.Proof.Gen.Kernel.Launch
import proofs.«419466_j70042326663889_1_alg».proof.Proof.Gen.Kernel.Skeleton
import proofs.«419466_j70042326663889_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left matrix's buffer holds its row block at every point: it is fetched at every point, and a body that
    leaves the block in place changes nothing. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right matrix's buffer holds the whole matrix at every point: fetched at the first point only, its block
    index never moves, so what a fetch would bring is what is already there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body reads and writes each of its three buffers whole. -/
abbrev r0_0 : Rect S1000x512 := Rect.unit (s := S1000x512) ![0, 0] S1000x512.size inb_S1000x512_S1000x512_0_0
abbrev r0_1 : Rect S512x32 := Rect.unit (s := S512x32) ![0, 0] S512x32.size inb_S512x32_S512x32_0_0
abbrev r0_2 : Rect S1000x32 := Rect.unit (s := S1000x32) ![0, 0] S1000x32.size inb_S1000x32_S1000x32_0_0

/-- What the body leaves in the result's buffer: the one whole-buffer store of the product of the two blocks. -/
def out0_2 (x0 : Vec F S1000x512 .f32) (x1 : Vec F S512x32 .f32) : Vec F S1000x32 .f32 :=
  View.canon [⟨r0_2, k0_pay1 (View.ld x0 r0_0) (View.ld x1 r0_1)⟩]

/-- That store covers the buffer. -/
theorem cover0_2 (p0 : Vec F S1000x32 .f32) (y : S1000x32.Idx) :
    ∃ pc ∈ ([⟨r0_2, p0⟩] : List (View.Piece (Elt F) S1000x32 .f32)), y ∈ pc.1.set :=
  View.cover_of_tiled [⟨r0_2, p0⟩] S1000x32.size (by rfl) y

set_option maxHeartbeats 1000000 in
/-- The body on whole buffers: with the two inputs at x0 and x1 and the result's buffer at anything, it ends with the
    inputs as they were and the result's buffer at `out0_2 x0 x1`. (It also loads the result's buffer before the
    store; that value is not used.) -/
theorem sound_kernel0 (c : Dev nD) (E : Set ℕ) (i : grid0.Coords)
    (arg1 : Memref sig .tc .vmem S1000x512 .f32) (harg1 : arg1.IsWhole) (arg2 : Memref sig .tc .vmem S512x32 .f32) (harg2 : arg2.IsWhole)
    (arg3 : Memref sig .tc .vmem S1000x32 .f32) (harg3 : arg3.IsWhole)
    (x0 : Vec F S1000x512 .f32) (x1 : Vec F S512x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this pipeline on core c: the arrays as the region finds them; after the body at point t each
    input's buffer still at its block and the result's at the product of the two blocks; the invariant is the scoped
    buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KbReg1.lean ====
/-
  The second projection, one row block per grid point. There are 5 points. At point t the body sees rows
  2000·t … 2000·t + 1999 of the 10000 × 32 activation matrix (all 32 columns), together with the whole 32 × 32
  weight matrix made of the two 32 × 16 weight blocks set side by side (the first in columns 0 … 15, the second in
  columns 16 … 31); that small matrix is brought in at the first point and never moves afterwards. The body stores the 2000 × 32
  product of the row block with the weight matrix into rows 2000·t … 2000·t + 1999 of the result. All statements
  below are made relative to a PARAMETER V, what the core's buffers contain on entry to the region: the block each
  window shows at a point, the contents of the result's buffer after the body as a function of the two input blocks,
  the Hoare triple of the body, and the pipeline's proof data with its obligation at each of the 5 points.
-/
import proofs.«419466_j70042326663889_1_alg».proof.Proof.Gen.Kernel.Launch
import proofs.«419466_j70042326663889_1_alg».proof.Proof.Gen.Kernel.Skeleton
import proofs.«419466_j70042326663889_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block window w shows at point t, read off its array's contents on entry to the region. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- At every point the activations' buffer holds rows 2000·t … 2000·t + 1999: the window is refetched at each
    point, and the body hands the block back unchanged. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- At every point the weights' buffer holds the whole 32 × 32 matrix: it is fetched only at the first point, but
    its block index is the same at all 5 points, so a fetch at any of them would bring exactly what already sits
    there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Each of the three buffers is read, and the third written, over its full extent. -/
abbrev r1_0 : Rect S2000x32 := Rect.unit (s := S2000x32) ![0, 0] S2000x32.size inb_S2000x32_S2000x32_0_0
abbrev r1_1 : Rect S32x32 := Rect.unit (s := S32x32) ![0, 0] S32x32.size inb_S32x32_S32x32_0_0
abbrev r1_2 : Rect S2000x32 := Rect.unit (s := S2000x32) ![0, 0] S2000x32.size inb_S2000x32_S2000x32_0_0

/-- The contents of the result's buffer after the body: a single full-extent store of the row block times the
    weight matrix. -/
def out1_2 (x0 : Vec F S2000x32 .f32) (x1 : Vec F S32x32 .f32) : Vec F S2000x32 .f32 :=
  View.canon [⟨r1_2, k1_pay1 (View.ld x0 r1_0) (View.ld x1 r1_1)⟩]

/-- The single store reaches every index of the 2000 × 32 buffer. -/
theorem cover1_2 (p0 : Vec F S2000x32 .f32) (y : S2000x32.Idx) :
    ∃ pc ∈ ([⟨r1_2, p0⟩] : List (View.Piece (Elt F) S2000x32 .f32)), y ∈ pc.1.set :=
  View.cover_of_tiled [⟨r1_2, p0⟩] S2000x32.size (by rfl) y

set_option maxHeartbeats 1000000 in
/-- The body on full buffers. Starting with the activations' buffer at x0, the weights' buffer at x1 and the
    result's buffer at arbitrary contents, it finishes with both inputs untouched and the result's buffer at
    `out1_2 x0 x1`. (Before storing it also loads the result's buffer; the loaded value goes nowhere. The two
    reshapes inside the stored value are to the shape the operand already has, and play no part here.) -/
theorem sound_kernel1 (c : Dev nD) (E : Set ℕ) (i : grid1.Coords)
    (arg1 : Memref sig .tc .vmem S2000x32 .f32) (harg1 : arg1.IsWhole) (arg2 : Memref sig .tc .vmem S32x32 .f32) (harg2 : arg2.IsWhole)
    (arg3 : Memref sig .tc .vmem S2000x32 .f32) (harg3 : arg3.IsWhole)
    (x0 : Vec F S2000x32 .f32) (x1 : Vec F S32x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- This pipeline's proof data on core c. The arrays are as the region finds them. After the body at point t the
    activations' buffer still shows its row block, the weights' buffer still shows the 32 × 32 matrix, and the
    result's buffer shows their product. The invariant is the scoped buffers that no window of this pipeline
    stages, with the generator register, all left alone; the core owes nothing; every share is full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The resources the body receives at point t, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and the resources it gives back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at an arbitrary point: both input buffers show their blocks, so the triple above fires; the invariant
    and the core's debt are carried across without being looked at. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- What the pipeline library asks of the body, at each of the 5 points. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KbReg2.lean ====
/-
  The decoder, tile by tile. The result is the 10240 × 10240 product of the padded latent matrix (10240 rows of 16)
  with its own transpose, cut into a 10 × 10 grid of 1024 × 1024 tiles. At grid point (a, b) the body is handed rows
  1024·a … 1024·a + 1023 of the latent matrix (brought in when b = 0 and left in place along the row of tiles), rows
  1024·b … 1024·b + 1023 of THE SAME matrix (brought in at every point), and writes tile (a, b): the product of the
  first block with the transpose of the second. Both input windows read one array, so the array's full share is dealt
  between them, its left half to the first and its right half to the second; the halves are split off when the region
  is entered and put together again when it is left. Everything here is stated at a PARAMETER V, the contents of the
  core's buffers when the region is entered: what each window's block is at a point, what the body leaves in the
  tile's buffer as a function of the two row blocks, the body's Hoare triple, the pipeline's proof data with its
  obligation at every point, and the two entailments that trade the core's unscoped buffers for the windows' arrays
  at their shares and back.
-/
import proofs.«419466_j70042326663889_1_alg».proof.Proof.Gen.Kernel.Launch
import proofs.«419466_j70042326663889_1_alg».proof.Proof.Gen.Kernel.Skeleton
import proofs.«419466_j70042326663889_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, cut out of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first window's buffer holds row block a of the latent matrix at every point (a, b): it is fetched where
    b = 0, its block index does not move along the row of tiles, and a body that leaves the block in place changes
    nothing, so what a fetch would bring is what is already there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The second window's buffer holds row block b of the latent matrix at every point (a, b): it is fetched at every
    point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The body reads and writes each of its three buffers whole. -/
abbrev r2_0 : Rect S1024x16 := Rect.unit (s := S1024x16) ![0, 0] S1024x16.size inb_S1024x16_S1024x16_0_0
abbrev r2_1 : Rect S1024x16 := Rect.unit (s := S1024x16) ![0, 0] S1024x16.size inb_S1024x16_S1024x16_0_0
abbrev r2_2 : Rect S1024x1024 := Rect.unit (s := S1024x1024) ![0, 0] S1024x1024.size inb_S1024x1024_S1024x1024_0_0

/-- What the body leaves in the tile's buffer: the one whole-buffer store of the product of the first row block with
    the transpose of the second. -/
def out2_2 (x0 x1 : Vec F S1024x16 .f32) : Vec F S1024x1024 .f32 :=
  View.canon [⟨r2_2, k2_pay1 (View.ld x0 r2_0) (View.ld x1 r2_1)⟩]

/-- That store covers the buffer. -/
theorem cover2_2 (p0 : Vec F S1024x1024 .f32) (y : S1024x1024.Idx) :
    ∃ pc ∈ ([⟨r2_2, p0⟩] : List (View.Piece (Elt F) S1024x1024 .f32)), y ∈ pc.1.set :=
  View.cover_of_tiled [⟨r2_2, p0⟩] S1024x1024.size (by rfl) y

set_option maxHeartbeats 1000000 in
/-- The body on whole buffers: with the two row blocks at x0 and x1 and the tile's buffer at anything, it ends with the
    row blocks as they were and the tile's buffer at `out2_2 x0 x1`. (It also loads the tile's buffer before the
    store; that value is not used. The grid point itself is not read.) -/
theorem sound_kernel2 (c : Dev nD) (E : Set ℕ) (i : grid2.Coords)
    (arg2 : Memref sig .tc .vmem S1024x16 .f32) (harg2 : arg2.IsWhole) (arg3 : Memref sig .tc .vmem S1024x16 .f32) (harg3 : arg3.IsWhole)
    (arg4 : Memref sig .tc .vmem S1024x1024 .f32) (harg4 : arg4.IsWhole)
    (x0 x1 : Vec F S1024x16 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out2_2 x0 x1)) -∗ K ⟨⟩))
      ⊢ wp frame (wpE (defs₀ (F := F)) Variants.none c none) E (cc2__decode_kernel i arg2 harg2 arg3 harg3 arg4 harg4) K := by
  simp only [cc2__decode_kernel_eq_skeleton]; unfold cc2__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of this pipeline on core c: the arrays as the region finds them; after the body at point (a, b)
    each input's buffer still at its row block and the tile's buffer at the product; the invariant is the scoped
    buffers no window stages and the generator register, untouched; nothing owed; the latent matrix's share dealt
    left and right between the two windows that read it, the result held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- The shares the arrays are held at: the latent matrix's two halves, the result whole. -/
theorem share2_0 (c : Dev nD) : (dat2 V c).share 0 = fullShare.left := by
  unfold Dat.share; rw [if_neg (by decide)]; dsimp only [dat2]
theorem share2_1 (c : Dev nD) : (dat2 V c).share 1 = fullShare.right := by
  unfold Dat.share; rw [if_neg (by decide)]; dsimp only [dat2]
theorem share2_2 (c : Dev nD) : (dat2 V c).share 2 = fullShare := by
  unfold Dat.share; rw [if_pos (by decide)]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their row blocks, so the triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

/-! ## The latent matrix's two halves, split at the region's entry and rejoined at its exit

Among the core's unscoped buffers the windows' arrays are two buffers, the latent matrix and the result. The pipeline
wants three holdings, one per window: the latent matrix at the left half of its share for the first window and at the
right half for the second, the result whole. A whole points-to is its two halves side by side, in both directions. -/

/-- The core's unscoped buffers are the two buffers behind the windows' arrays and the rest. -/
theorem unscopedBufs_split2 (c : Dev nD) (Vc : (b : Ref sig .tc) → Buf (Elt F) ((c.tc : Thread nD τ).loc b)) :
    (unscopedBufs c Vc : sProp 𝕄) = iprop((Pipeline.arrBufs spec2 c Vc : sProp 𝕄) ∗ Pipeline.unscopedRest spec2 c Vc) :=
  Pipeline.unscopedBufs_split₀ cfgs 2 winFacts₀2.arr_unscoped c Vc

/-- The buffers behind the windows' arrays, one by one: the latent matrix and the result. -/
theorem arrBufs2_eq (c : Dev nD) (Vc : (b : Ref sig .tc) → Buf (Elt F) ((c.tc : Thread nD τ).loc b)) :
    (Pipeline.arrBufs spec2 c Vc : sProp 𝕄)
      = iprop((((c.tc : Thread nD τ).loc main_v35) ↦{fullShare} Vc main_v35) ∗ (((c.tc : Thread nD τ).loc main_v36) ↦{fullShare} Vc main_v36)) := by
  unfold Pipeline.arrBufs
  rw [show Finset.univ.image (Pipeline.arrRef spec2) = {main_v35, main_v36} from by decide, bigSep_insert (by decide), bigSep_singleton]
  rfl

/-- The pipeline's arrays, one window at a time, each a whole buffer at its share. -/
theorem arrays2_eq (c : Dev nD) (F2 : (w : Fin cfg2.W) → Buf (Elt F) ((cfg2.win w).arr.view.loc (c.tc : Thread nD τ))) :
    ((dat2 V c).arrays F2 : sProp 𝕄)
      = iprop((((cfg2.win 0).arr.view.loc (c.tc : Thread nD τ)) ↦{fullShare.left} F2 0)
          ∗ (((cfg2.win 1).arr.view.loc (c.tc : Thread nD τ)) ↦{fullShare.right} F2 1)
          ∗ (((cfg2.win 2).arr.view.loc (c.tc : Thread nD τ)) ↦{fullShare} F2 2)) := by
  unfold Dat.arrays
  rw [bigSep_W2, (arr_whole2 0).set_eq_univ, (arr_whole2 2).set_eq_univ, share2_0, share2_1, share2_2]

/-- ENTRY: the core's unscoped buffers at contents Vc are the pipeline's arrays at contents read off Vc, the latent
    matrix's share halved between the two windows that read it, and the unscoped rest. -/
theorem arrays_of_unscopedBufs2 (c : Dev nD) (Vc : (b : Ref sig .tc) → Buf (Elt F) ((c.tc : Thread nD τ).loc b))
    (F2 : (w : Fin cfg2.W) → Buf (Elt F) ((cfg2.win w).arr.view.loc (c.tc : Thread nD τ)))
    (hF : ∀ w, F2 w = Vc (Pipeline.arrRef spec2 w)) :
    (unscopedBufs c Vc : sProp 𝕄) ⊢ iprop((dat2 V c).arrays F2 ∗ Pipeline.unscopedRest spec2 c Vc) := by
  rw [unscopedBufs_split2, arrBufs2_eq, arrays2_eq, hF 0, hF 1, hF 2]
  refine sep_mono ?_ .rfl
  iintro ⟨H35, H36⟩
  icases (pointsTo_share (PosShare.mem_left_op_right fullShare)).1 $$ H35 with ⟨Hl, Hr⟩
  isplitl [Hl]; · iexact Hl
  isplitl [Hr]; · iexact Hr
  iexact H36

/-- EXIT: the pipeline's arrays at contents F2 and the unscoped rest at Vc are the core's unscoped buffers at any
    valuation Vc' that has the arrays at F2 and agrees with Vc off them: the latent matrix's two halves make it whole
    again. -/
theorem unscopedBufs_of_arrays2 (c : Dev nD) (Vc Vc' : (b : Ref sig .tc) → Buf (Elt F) ((c.tc : Thread nD τ).loc b))
    (F2 : (w : Fin cfg2.W) → Buf (Elt F) ((cfg2.win w).arr.view.loc (c.tc : Thread nD τ)))
    (hF : ∀ w, F2 w = Vc' (Pipeline.arrRef spec2 w))
    (hrest : ∀ b, b ∉ Finset.univ.image (Pipeline.arrRef spec2) → Vc' b = Vc b) :
    iprop((dat2 V c).arrays F2 ∗ Pipeline.unscopedRest spec2 c Vc) ⊢ (unscopedBufs c Vc' : sProp 𝕄) := by
  rw [unscopedBufs_split2, arrBufs2_eq, arrays2_eq, hF 0, hF 1, hF 2]
  refine sep_mono ?_ (Entails.of_eq ?_)
  · iintro ⟨Hl, Hr, H36⟩
    isplitl [Hl Hr]
    · iapply (pointsTo_share (PosShare.mem_left_op_right fullShare)).2
      isplitl [Hl]; · iexact Hl
      iexact Hr
    iexact H36
  · unfold Pipeline.unscopedRest
    exact bigSep_congr fun b hb => by rw [hrest b (Finset.mem_sdiff.mp hb).2]

end Cert.Kernel.Hand

end
-- ==== Proof.KbRun.lean ====
/-
  The whole program as a chain of nine segments — the first projection, three stretches of host operations (the first
  sparse aggregation, the rectifier, the two weight blocks set side by side), the second projection, two stretches (the
  second aggregation with the reparameterisation, the zero padding), the tiled product of the padded latent matrix with
  its own transpose, and the last stretch (the crop and the flattening) — and its run: from any memory, with every
  counter at zero, every weakly fair execution terminates without a fault, and at the end every buffer that outlives the
  kernels holds the value of a FOLD through the segments: a host stretch applies its operations' pure functions, a
  pipeline leaves its result array at what its write-backs assemble and every other buffer alone.
-/
import proofs.«419466_j70042326663889_1_alg».proof.Proof.KbReg0
import proofs.«419466_j70042326663889_1_alg».proof.Proof.KbReg1
import proofs.«419466_j70042326663889_1_alg».proof.Proof.KbReg2
import proofs.«419466_j70042326663889_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary between two segments -/

/-- At launch. -/
abbrev W0 : Dev nD → Valuation τ sig (Elt F) := fun c b => m (c, b)
/-- The same read at the TensorCore's references (what the first pipeline's proof data take). -/
abbrev R0 : (c : Dev nD) → (b : Ref sig .tc) → Buf (Elt F) ((c : Thread nD τ).loc b) := fun c b => W0 m c b
/-- After the first projection: its arrays at what the pipeline leaves, every other buffer as launched. -/
def W1 (c : Dev nD) : Valuation τ sig (Elt F) :=
  Pipeline.withArrays spec0 c (W0 m c) fun w => (dat0 (R0 m) c).arrAt w cfg0.N
theorem W1_arr (c : Dev nD) (w : Fin cfg0.W) :
    W1 m c (Proc.devRef .tc (Pipeline.arrRef spec0 w)) = (dat0 (R0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev R1 : (c : Dev nD) → (b : Ref sig .tc) → Buf (Elt F) ((c : Thread nD τ).loc b) := fun c b => W1 m c b
theorem hF0 (c : Dev nD) (w : Fin cfg0.W) : (dat0 (R0 m) c).arrAt w cfg0.N = R1 m c (Pipeline.arrRef spec0 w) :=
  (W1_arr m c w).symm
theorem hrest0 (c : Dev nD) : ∀ b, b ∉ Finset.univ.image (Pipeline.arrRef spec0) → R1 m c b = R0 m c b :=
  fun b hb => W1_of_ne m c b fun w e => hb (Finset.mem_image.mpr ⟨w, Finset.mem_univ _, e⟩)

/-- After the first aggregation, after the rectifier, after the two weight blocks are set side by side. -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev R4 : (c : Dev nD) → (b : Ref sig .tc) → Buf (Elt F) ((c : Thread nD τ).loc b) := fun c b => W4 m c b
/-- After the second projection. -/
def W5 (c : Dev nD) : Valuation τ sig (Elt F) :=
  Pipeline.withArrays spec1 c (W4 m c) fun w => (dat1 (R4 m) c).arrAt w cfg1.N
theorem W5_arr (c : Dev nD) (w : Fin cfg1.W) :
    W5 m c (Proc.devRef .tc (Pipeline.arrRef spec1 w)) = (dat1 (R4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev R5 : (c : Dev nD) → (b : Ref sig .tc) → Buf (Elt F) ((c : Thread nD τ).loc b) := fun c b => W5 m c b
theorem hF1 (c : Dev nD) (w : Fin cfg1.W) : (dat1 (R4 m) c).arrAt w cfg1.N = R5 m c (Pipeline.arrRef spec1 w) :=
  (W5_arr m c w).symm
theorem hrest1 (c : Dev nD) : ∀ b, b ∉ Finset.univ.image (Pipeline.arrRef spec1) → R5 m c b = R4 m c b :=
  fun b hb => W5_of_ne m c b fun w e => hb (Finset.mem_image.mpr ⟨w, Finset.mem_univ _, e⟩)

/-- After the second aggregation and the reparameterisation, after the padding. -/
abbrev W6 : Dev nD → Valuation τ sig (Elt F) := fun c => StableHlo.after hostOps2 (W5 m c)
abbrev W7 : Dev nD → Valuation τ sig (Elt F) := fun c => StableHlo.after hostOps2_1 (W6 m c)
abbrev R7 : (c : Dev nD) → (b : Ref sig .tc) → Buf (Elt F) ((c : Thread nD τ).loc b) := fun c b => W7 m c b
/-- After the tiled product: two of its windows read ONE array (the padded latent matrix), which it leaves alone; only
    the product's own array changes. -/
def W8 (c : Dev nD) : Valuation τ sig (Elt F) :=
  Function.update (W7 m c) (Proc.devRef .tc main_v36) ((dat2 (R7 m) c).arrAt 2 cfg2.N)
theorem W8_out (c : Dev nD) : W8 m c (Proc.devRef .tc main_v36) = (dat2 (R7 m) c).arrAt 2 cfg2.N := by
  unfold W8; exact Function.update_self ..
theorem W8_of_ne (c : Dev nD) (b : Ref sig .tc) (hb : b ≠ main_v36) :
    W8 m c (Proc.devRef .tc b) = W7 m c (Proc.devRef .tc b) := by
  unfold W8; exact Function.update_of_ne (StableHlo.devRef_ne_of_ne hb) ..
abbrev R8 : (c : Dev nD) → (b : Ref sig .tc) → Buf (Elt F) ((c : Thread nD τ).loc b) := fun c b => W8 m c b
theorem hF2 (c : Dev nD) : ∀ w : Fin cfg2.W, (dat2 (R7 m) c).arrAt w cfg2.N = R8 m c (Pipeline.arrRef spec2 w)
  | ⟨0, _⟩ => (((dat2 (R7 m) c).arrAt_in 0 rfl _).trans (A_eq2 (R7 m) c 0)).trans (W8_of_ne m c main_v35 (by decide)).symm
  | ⟨1, _⟩ => (((dat2 (R7 m) c).arrAt_in 1 rfl _).trans (A_eq2 (R7 m) c 1)).trans (W8_of_ne m c main_v35 (by decide)).symm
  | ⟨2, _⟩ => (W8_out m c).symm
theorem hrest2 (c : Dev nD) : ∀ b, b ∉ Finset.univ.image (Pipeline.arrRef spec2) → R8 m c b = R7 m c b :=
  fun b hb => W8_of_ne m c b fun e => hb (Finset.mem_image.mpr ⟨2, Finset.mem_univ _, e.symm⟩)
/-- After the crop and the flattening: the end. -/
abbrev W9 : Dev nD → Valuation τ sig (Elt F) := fun c => StableHlo.after hostOps3 (W8 m c)

/-! ### No segment writes an argument: the fold at an argument's buffer walks back to the launch memory -/

theorem W9_main_arg0 (c : Dev nD) : W9 m c (Proc.devRef .tc main_arg0) = m ((c : Thread nD τ).loc main_arg0) :=
  calc W9 m c (Proc.devRef .tc main_arg0)
    _ = W8 m c (Proc.devRef .tc main_arg0) := StableHlo.after_of_writes_sub hostOps3 _ hostOps3_writes (r := main_arg0) (by decide)
    _ = W7 m c (Proc.devRef .tc main_arg0) := W8_of_ne m c main_arg0 (by decide)
    _ = W6 m c (Proc.devRef .tc main_arg0) := StableHlo.after_of_writes_sub hostOps2_1 _ hostOps2_1_writes (r := main_arg0) (by decide)
    _ = W5 m c (Proc.devRef .tc main_arg0) := StableHlo.after_of_writes_sub hostOps2 _ hostOps2_writes (r := main_arg0) (by decide)
    _ = W4 m c (Proc.devRef .tc main_arg0) := W5_of_ne m c main_arg0 (by decide)
    _ = W3 m c (Proc.devRef .tc main_arg0) := StableHlo.after_of_writes_sub hostOps1_2 _ hostOps1_2_writes (r := main_arg0) (by decide)
    _ = W2 m c (Proc.devRef .tc main_arg0) := StableHlo.after_of_writes_sub hostOps1_1 _ hostOps1_1_writes (r := main_arg0) (by decide)
    _ = W1 m c (Proc.devRef .tc main_arg0) := StableHlo.after_of_writes_sub hostOps1 _ hostOps1_writes (r := main_arg0) (by decide)
    _ = W0 m c (Proc.devRef .tc main_arg0) := (W1_arr m c 0).trans (((dat0 (R0 m) c).arrAt_in 0 rfl _).trans (A_eq0 (R0 m) c 0))
    _ = m ((c : Thread nD τ).loc main_arg0) := rfl
theorem W9_main_arg1 (c : Dev nD) : W9 m c (Proc.devRef .tc main_arg1) = m ((c : Thread nD τ).loc main_arg1) :=
  calc W9 m c (Proc.devRef .tc main_arg1)
    _ = W8 m c (Proc.devRef .tc main_arg1) := StableHlo.after_of_writes_sub hostOps3 _ hostOps3_writes (r := main_arg1) (by decide)
    _ = W7 m c (Proc.devRef .tc main_arg1) := W8_of_ne m c main_arg1 (by decide)
    _ = W6 m c (Proc.devRef .tc main_arg1) := StableHlo.after_of_writes_sub hostOps2_1 _ hostOps2_1_writes (r := main_arg1) (by decide)
    _ = W5 m c (Proc.devRef .tc main_arg1) := StableHlo.after_of_writes_sub hostOps2 _ hostOps2_writes (r := main_arg1) (by decide)
    _ = W4 m c (Proc.devRef .tc main_arg1) := W5_of_ne m c main_arg1 (by decide)
    _ = W3 m c (Proc.devRef .tc main_arg1) := StableHlo.after_of_writes_sub hostOps1_2 _ hostOps1_2_writes (r := main_arg1) (by decide)
    _ = W2 m c (Proc.devRef .tc main_arg1) := StableHlo.after_of_writes_sub hostOps1_1 _ hostOps1_1_writes (r := main_arg1) (by decide)
    _ = W1 m c (Proc.devRef .tc main_arg1) := StableHlo.after_of_writes_sub hostOps1 _ hostOps1_writes (r := main_arg1) (by decide)
    _ = W0 m c (Proc.devRef .tc main_arg1) := (W1_arr m c 1).trans (((dat0 (R0 m) c).arrAt_in 1 rfl _).trans (A_eq0 (R0 m) c 1))
    _ = m ((c : Thread nD τ).loc main_arg1) := rfl
theorem W9_main_arg2 (c : Dev nD) : W9 m c (Proc.devRef .tc main_arg2) = m ((c : Thread nD τ).loc main_arg2) :=
  calc W9 m c (Proc.devRef .tc main_arg2)
    _ = W8 m c (Proc.devRef .tc main_arg2) := StableHlo.after_of_writes_sub hostOps3 _ hostOps3_writes (r := main_arg2) (by decide)
    _ = W7 m c (Proc.devRef .tc main_arg2) := W8_of_ne m c main_arg2 (by decide)
    _ = W6 m c (Proc.devRef .tc main_arg2) := StableHlo.after_of_writes_sub hostOps2_1 _ hostOps2_1_writes (r := main_arg2) (by decide)
    _ = W5 m c (Proc.devRef .tc main_arg2) := StableHlo.after_of_writes_sub hostOps2 _ hostOps2_writes (r := main_arg2) (by decide)
    _ = W4 m c (Proc.devRef .tc main_arg2) := W5_of_ne m c main_arg2 (by decide)
    _ = W3 m c (Proc.devRef .tc main_arg2) := StableHlo.after_of_writes_sub hostOps1_2 _ hostOps1_2_writes (r := main_arg2) (by decide)
    _ = W2 m c (Proc.devRef .tc main_arg2) := StableHlo.after_of_writes_sub hostOps1_1 _ hostOps1_1_writes (r := main_arg2) (by decide)
    _ = W1 m c (Proc.devRef .tc main_arg2) := StableHlo.after_of_writes_sub hostOps1 _ hostOps1_writes (r := main_arg2) (by decide)
    _ = W0 m c (Proc.devRef .tc main_arg2) := W1_of_ne m c main_arg2 (by decide)
    _ = m ((c : Thread nD τ).loc main_arg2) := rfl
theorem W9_main_arg3 (c : Dev nD) : W9 m c (Proc.devRef .tc main_arg3) = m ((c : Thread nD τ).loc main_arg3) :=
  calc W9 m c (Proc.devRef .tc main_arg3)
    _ = W8 m c (Proc.devRef .tc main_arg3) := StableHlo.after_of_writes_sub hostOps3 _ hostOps3_writes (r := main_arg3) (by decide)
    _ = W7 m c (Proc.devRef .tc main_arg3) := W8_of_ne m c main_arg3 (by decide)
    _ = W6 m c (Proc.devRef .tc main_arg3) := StableHlo.after_of_writes_sub hostOps2_1 _ hostOps2_1_writes (r := main_arg3) (by decide)
    _ = W5 m c (Proc.devRef .tc main_arg3) := StableHlo.after_of_writes_sub hostOps2 _ hostOps2_writes (r := main_arg3) (by decide)
    _ = W4 m c (Proc.devRef .tc main_arg3) := W5_of_ne m c main_arg3 (by decide)
    _ = W3 m c (Proc.devRef .tc main_arg3) := StableHlo.after_of_writes_sub hostOps1_2 _ hostOps1_2_writes (r := main_arg3) (by decide)
    _ = W2 m c (Proc.devRef .tc main_arg3) := StableHlo.after_of_writes_sub hostOps1_1 _ hostOps1_1_writes (r := main_arg3) (by decide)
    _ = W1 m c (Proc.devRef .tc main_arg3) := StableHlo.after_of_writes_sub hostOps1 _ hostOps1_writes (r := main_arg3) (by decide)
    _ = W0 m c (Proc.devRef .tc main_arg3) := W1_of_ne m c main_arg3 (by decide)
    _ = m ((c : Thread nD τ).loc main_arg3) := rfl
theorem W9_main_arg4 (c : Dev nD) : W9 m c (Proc.devRef .tc main_arg4) = m ((c : Thread nD τ).loc main_arg4) :=
  calc W9 m c (Proc.devRef .tc main_arg4)
    _ = W8 m c (Proc.devRef .tc main_arg4) := StableHlo.after_of_writes_sub hostOps3 _ hostOps3_writes (r := main_arg4) (by decide)
    _ = W7 m c (Proc.devRef .tc main_arg4) := W8_of_ne m c main_arg4 (by decide)
    _ = W6 m c (Proc.devRef .tc main_arg4) := StableHlo.after_of_writes_sub hostOps2_1 _ hostOps2_1_writes (r := main_arg4) (by decide)
    _ = W5 m c (Proc.devRef .tc main_arg4) := StableHlo.after_of_writes_sub hostOps2 _ hostOps2_writes (r := main_arg4) (by decide)
    _ = W4 m c (Proc.devRef .tc main_arg4) := W5_of_ne m c main_arg4 (by decide)
    _ = W3 m c (Proc.devRef .tc main_arg4) := StableHlo.after_of_writes_sub hostOps1_2 _ hostOps1_2_writes (r := main_arg4) (by decide)
    _ = W2 m c (Proc.devRef .tc main_arg4) := StableHlo.after_of_writes_sub hostOps1_1 _ hostOps1_1_writes (r := main_arg4) (by decide)
    _ = W1 m c (Proc.devRef .tc main_arg4) := StableHlo.after_of_writes_sub hostOps1 _ hostOps1_writes (r := main_arg4) (by decide)
    _ = W0 m c (Proc.devRef .tc main_arg4) := W1_of_ne m c main_arg4 (by decide)
    _ = m ((c : Thread nD τ).loc main_arg4) := rfl
theorem W9_main_arg5 (c : Dev nD) : W9 m c (Proc.devRef .tc main_arg5) = m ((c : Thread nD τ).loc main_arg5) :=
  calc W9 m c (Proc.devRef .tc main_arg5)
    _ = W8 m c (Proc.devRef .tc main_arg5) := StableHlo.after_of_writes_sub hostOps3 _ hostOps3_writes (r := main_arg5) (by decide)
    _ = W7 m c (Proc.devRef .tc main_arg5) := W8_of_ne m c main_arg5 (by decide)
    _ = W6 m c (Proc.devRef .tc main_arg5) := StableHlo.after_of_writes_sub hostOps2_1 _ hostOps2_1_writes (r := main_arg5) (by decide)
    _ = W5 m c (Proc.devRef .tc main_arg5) := StableHlo.after_of_writes_sub hostOps2 _ hostOps2_writes (r := main_arg5) (by decide)
    _ = W4 m c (Proc.devRef .tc main_arg5) := W5_of_ne m c main_arg5 (by decide)
    _ = W3 m c (Proc.devRef .tc main_arg5) := StableHlo.after_of_writes_sub hostOps1_2 _ hostOps1_2_writes (r := main_arg5) (by decide)
    _ = W2 m c (Proc.devRef .tc main_arg5) := StableHlo.after_of_writes_sub hostOps1_1 _ hostOps1_1_writes (r := main_arg5) (by decide)
    _ = W1 m c (Proc.devRef .tc main_arg5) := StableHlo.after_of_writes_sub hostOps1 _ hostOps1_writes (r := main_arg5) (by decide)
    _ = W0 m c (Proc.devRef .tc main_arg5) := W1_of_ne m c main_arg5 (by decide)
    _ = m ((c : Thread nD τ).loc main_arg5) := rfl
theorem W9_main_arg6 (c : Dev nD) : W9 m c (Proc.devRef .tc main_arg6) = m ((c : Thread nD τ).loc main_arg6) :=
  calc W9 m c (Proc.devRef .tc main_arg6)
    _ = W8 m c (Proc.devRef .tc main_arg6) := StableHlo.after_of_writes_sub hostOps3 _ hostOps3_writes (r := main_arg6) (by decide)
    _ = W7 m c (Proc.devRef .tc main_arg6) := W8_of_ne m c main_arg6 (by decide)
    _ = W6 m c (Proc.devRef .tc main_arg6) := StableHlo.after_of_writes_sub hostOps2_1 _ hostOps2_1_writes (r := main_arg6) (by decide)
    _ = W5 m c (Proc.devRef .tc main_arg6) := StableHlo.after_of_writes_sub hostOps2 _ hostOps2_writes (r := main_arg6) (by decide)
    _ = W4 m c (Proc.devRef .tc main_arg6) := W5_of_ne m c main_arg6 (by decide)
    _ = W3 m c (Proc.devRef .tc main_arg6) := StableHlo.after_of_writes_sub hostOps1_2 _ hostOps1_2_writes (r := main_arg6) (by decide)
    _ = W2 m c (Proc.devRef .tc main_arg6) := StableHlo.after_of_writes_sub hostOps1_1 _ hostOps1_1_writes (r := main_arg6) (by decide)
    _ = W1 m c (Proc.devRef .tc main_arg6) := StableHlo.after_of_writes_sub hostOps1 _ hostOps1_writes (r := main_arg6) (by decide)
    _ = W0 m c (Proc.devRef .tc main_arg6) := W1_of_ne m c main_arg6 (by decide)
    _ = m ((c : Thread nD τ).loc main_arg6) := rfl
theorem W9_main_arg7 (c : Dev nD) : W9 m c (Proc.devRef .tc main_arg7) = m ((c : Thread nD τ).loc main_arg7) :=
  calc W9 m c (Proc.devRef .tc main_arg7)
    _ = W8 m c (Proc.devRef .tc main_arg7) := StableHlo.after_of_writes_sub hostOps3 _ hostOps3_writes (r := main_arg7) (by decide)
    _ = W7 m c (Proc.devRef .tc main_arg7) := W8_of_ne m c main_arg7 (by decide)
    _ = W6 m c (Proc.devRef .tc main_arg7) := StableHlo.after_of_writes_sub hostOps2_1 _ hostOps2_1_writes (r := main_arg7) (by decide)
    _ = W5 m c (Proc.devRef .tc main_arg7) := StableHlo.after_of_writes_sub hostOps2 _ hostOps2_writes (r := main_arg7) (by decide)
    _ = W4 m c (Proc.devRef .tc main_arg7) := W5_of_ne m c main_arg7 (by decide)
    _ = W3 m c (Proc.devRef .tc main_arg7) := StableHlo.after_of_writes_sub hostOps1_2 _ hostOps1_2_writes (r := main_arg7) (by decide)
    _ = W2 m c (Proc.devRef .tc main_arg7) := StableHlo.after_of_writes_sub hostOps1_1 _ hostOps1_1_writes (r := main_arg7) (by decide)
    _ = W1 m c (Proc.devRef .tc main_arg7) := StableHlo.after_of_writes_sub hostOps1 _ hostOps1_writes (r := main_arg7) (by decide)
    _ = W0 m c (Proc.devRef .tc main_arg7) := W1_of_ne m c main_arg7 (by decide)
    _ = m ((c : Thread nD τ).loc main_arg7) := rfl

/-! ## The proof data of the three pipelines and what rides beside the buffers -/

abbrev adm3 : (p : Fin 3) → (pcfgs (F := F) p).Adm := fun p => (cfgs p).toPCfg_adm
/-- Each pipeline's proof data at the contents its region is entered with. -/
def pdats3 : (p : Fin 3) → (c : Dev nD) → Dat τ (Elt F) Unit ℕ (UR sig nD τ) ℕ (Pipeline.pin (pcfgs (F := F)) adm3 p) c
  | ⟨0, _⟩ => fun c => dat0 (R0 m) c
  | ⟨1, _⟩ => fun c => dat1 (R4 m) c
  | ⟨2, _⟩ => fun c => dat2 (R7 m) c
abbrev 𝒱₀ : Variants := Variants.none
abbrev L0 : GSem nD τ sig → Finset Unit := fun _ => ∅
abbrev lv0 : GSem nD τ sig → Unit → ℕ := fun _ _ => 0
/-- Beside the buffers: the generator register at some state, and the core owing nothing. -/
abbrev Rr (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without what the core owes. -/
abbrev Tend (c : Dev nD) : sProp 𝕄 := iprop(StableHlo.held (c : Thread nD τ) (Pipeline.ucRefs τ sig) (W9 m c) ∗ ∃ r, prngReg c r)

/-! ## The pipelines as segments -/

set_option backward.isDefEq.respectTransparency.types false in
/-- Pipeline 0 as a segment of the program: entered with every unscoped buffer at `W0`, left with them at `W1`.
    Its arrays are taken out of the unscoped buffers at entry and put back, at what the write-backs leave, at exit; the
    generator register goes into the pipeline's invariant and comes back; nothing is owed; the kernel has no semaphore
    of its own. -/
def reg0 : Pipeline.RegionSeg (pcfgs (F := F)) adm3 (pdats3 m) () defs₀ 𝒱₀ L0 lv0 0 where
  win := launch0.win.to₀
  block_pos := launch0.block_pos
  stage_whole := launch0.stage_whole
  K := PEmpty
  osem k := k.elim
  ho := Pipeline.OwnSemFacts.none _
  hbody c := (body_obligation0 (R0 m) c).loose
  hwaits := Pipeline.hwaits_of_owed_zero _ _ _ _ L0 lv0 0 fun _ _ => rfl
  pre c := iprop(StableHlo.held (c : Thread nD τ) (Pipeline.ucRefs τ sig) (W0 m c) ∗ Rr c)
  post c := iprop(StableHlo.held (c : Thread nD τ) (Pipeline.ucRefs τ sig) (W1 m c) ∗ Rr c)
  X c := iprop(∃ r, prngReg c r)
  Y c := iprop(∃ r, prngReg c r)
  Z c := Pipeline.unscopedRest (Ix := Unit) (Name := ℕ) (U := UR sig nD τ) (Lvl := ℕ) spec0 c (R0 m c)
  hentry c := by
    rw [Pipeline.ownSems0_none]
    have hsplit := Pipeline.arrays_of_unscopedBufs (p := 0) (pcfgs (F := F)) adm3 (pdats3 m) launch0.win launch0.arr_whole c
      ((pdats3 m 0 c).share_full fun _ => rfl) (R0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats3 m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats3 m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm3 (Ix := Unit) (Name := ℕ) (U := UR sig nD τ) (Lvl := ℕ)
      launch0.win launch0.arr_whole c (pdats3 m) ((pdats3 m 0 c).share_full fun _ => rfl)
      (R0 m c) (R1 m c) ((pdats3 m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 as a segment of the program: entered with every unscoped buffer at `W4`, left with them at `W5`.
    Its arrays are taken out of the unscoped buffers at entry and put back, at what the write-backs leave, at exit; the
    generator register goes into the pipeline's invariant and comes back; nothing is owed; the kernel has no semaphore
    of its own. -/
def reg1 : Pipeline.RegionSeg (pcfgs (F := F)) adm3 (pdats3 m) () defs₀ 𝒱₀ L0 lv0 1 where
  win := launch1.win.to₀
  block_pos := launch1.block_pos
  stage_whole := launch1.stage_whole
  K := PEmpty
  osem k := k.elim
  ho := Pipeline.OwnSemFacts.none _
  hbody c := (body_obligation1 (R4 m) c).loose
  hwaits := Pipeline.hwaits_of_owed_zero _ _ _ _ L0 lv0 1 fun _ _ => rfl
  pre c := iprop(StableHlo.held (c : Thread nD τ) (Pipeline.ucRefs τ sig) (W4 m c) ∗ Rr c)
  post c := iprop(StableHlo.held (c : Thread nD τ) (Pipeline.ucRefs τ sig) (W5 m c) ∗ Rr c)
  X c := iprop(∃ r, prngReg c r)
  Y c := iprop(∃ r, prngReg c r)
  Z c := Pipeline.unscopedRest (Ix := Unit) (Name := ℕ) (U := UR sig nD τ) (Lvl := ℕ) spec1 c (R4 m c)
  hentry c := by
    rw [Pipeline.ownSems0_none]
    have hsplit := Pipeline.arrays_of_unscopedBufs (p := 1) (pcfgs (F := F)) adm3 (pdats3 m) launch1.win launch1.arr_whole c
      ((pdats3 m 1 c).share_full fun _ => rfl) (R4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats3 m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats3 m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm3 (Ix := Unit) (Name := ℕ) (U := UR sig nD τ) (Lvl := ℕ)
      launch1.win launch1.arr_whole c (pdats3 m) ((pdats3 m 1 c).share_full fun _ => rfl)
      (R4 m c) (R5 m c) ((pdats3 m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 2 as a segment of the program: entered with every unscoped buffer at `W7`, left with them at `W8`.
    Its arrays are taken out of the unscoped buffers at entry and put back, at what the write-backs leave, at exit; the
    generator register goes into the pipeline's invariant and comes back; nothing is owed; the kernel has no semaphore
    of its own. -/
def reg2 : Pipeline.RegionSeg (pcfgs (F := F)) adm3 (pdats3 m) () defs₀ 𝒱₀ L0 lv0 2 where
  win := winFacts₀2
  block_pos := block_pos2
  stage_whole := stage_whole2
  K := PEmpty
  osem k := k.elim
  ho := Pipeline.OwnSemFacts.none _
  hbody c := (body_obligation2 (R7 m) c).loose
  hwaits := Pipeline.hwaits_of_owed_zero _ _ _ _ L0 lv0 2 fun _ _ => rfl
  pre c := iprop(StableHlo.held (c : Thread nD τ) (Pipeline.ucRefs τ sig) (W7 m c) ∗ Rr c)
  post c := iprop(StableHlo.held (c : Thread nD τ) (Pipeline.ucRefs τ sig) (W8 m c) ∗ Rr c)
  X c := iprop(∃ r, prngReg c r)
  Y c := iprop(∃ r, prngReg c r)
  Z c := Pipeline.unscopedRest (Ix := Unit) (Name := ℕ) (U := UR sig nD τ) (Lvl := ℕ) spec2 c (R7 m c)
  hentry c := by
    rw [Pipeline.ownSems0_none]
    have hsplit : (unscopedBufs c (R7 m c) : sProp 𝕄)
        ⊢ iprop((pdats3 m 2 c).arrays ((pdats3 m 2 c).arrAt · 0) ∗ Pipeline.unscopedRest spec2 c (R7 m c)) :=
      arrays_of_unscopedBufs2 (R7 m) c (R7 m c) ((dat2 (R7 m) c).arrAt · 0) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats3 m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats3 m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats3 m 2 c).arrays ((pdats3 m 2 c).arrAt · cfg2.N) ∗ Pipeline.unscopedRest spec2 c (R7 m c))
        ⊢ (unscopedBufs c (R8 m c) : sProp 𝕄) :=
      unscopedBufs_of_arrays2 (R7 m) c (R7 m c) (R8 m c) ((dat2 (R7 m) c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev mainSegs : List (Pipeline.Seg (pcfgs (F := F)) adm3 (pdats3 m) () defs₀ 𝒱₀ L0 lv0) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .region (reg1 m),
    .host (hseg hostOps2 hostOps2_sub hostOps2_fresh (W5 m)),
    .host (hseg hostOps2_1 hostOps2_1_sub hostOps2_1_fresh (W6 m)),
    .region (reg2 m),
    .host (hseg hostOps3 hostOps3_sub hostOps3_fresh (W8 m)) ]

set_option backward.isDefEq.respectTransparency.types false in
/-- THE RUN. From any memory with every counter at zero, every weakly fair execution of the program terminates, nothing
    faulting, and in every final state each buffer that outlives the kernels holds the fold's last value `W9`. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm3 (pdats3 m) () cellOf_inj emb₁ defs₀ 𝒱₀ L0 lv0 m ρ main (mainSegs m)
    (fun c Q => by
      rewrite [main_chain c, Pipeline.Seg.run_eq_chain,
        show (mainSegs m).map Pipeline.Seg.prog = [
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          Prog.lift (.customCall (Pipeline.entry 2) ()),
          StableHlo.seq hostOps3 ] from rfl]
      exact .rfl)
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tend m)
    (hch := ⟨fun _ => .rfl, fun _ => .rfl, fun _ => .rfl, fun _ => .rfl, fun _ => .rfl, fun _ => .rfl, fun _ => .rfl, fun _ => .rfl,
      fun _ => .rfl, fun c => by
        show iprop(StableHlo.held (c : Thread nD τ) (Pipeline.ucRefs τ sig) (W9 m c) ∗ Rr c)
          ⊢ iprop(Tend m c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L0 lv0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

/-- The frame: every argument array ends as launched. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c),
     (h c _ (mem_uc main_arg7 (by decide))).trans (W9_main_arg7 m c)⟩) (run_all m ρ)

end Cert.Kernel.Hand

end
-- ==== Proof.KiReg0.lean ====
/-
  The first projection, row block by row block. The grid has 10 points; at point t the body is handed rows
  1000·t … 1000·t + 999 of the left matrix (all 512 columns), the whole 512 × 32 right matrix (brought in once, at
  the first point, and left in place afterwards), and writes the 1000 × 32 product of the two into the matching rows
  of the result. Everything here is stated at a PARAMETER V, the contents of the core's buffers when the region is
  entered: what each window's block is at a point, what the body leaves in the result's buffer as a function of the
  two input blocks, the body's Hoare triple, and the pipeline's proof data with its obligation at every point.
-/
import proofs.«419466_j70042326663889_1_alg».proof.Proof.Gen.KernelIdeal.Launch
import proofs.«419466_j70042326663889_1_alg».proof.Proof.Gen.KernelIdeal.Skeleton
import proofs.«419466_j70042326663889_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left matrix's buffer holds its row block at every point: it is fetched at every point, and a body that
    leaves the block in place changes nothing. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right matrix's buffer holds the whole matrix at every point: fetched at the first point only, its block
    index never moves, so what a fetch would bring is what is already there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body reads and writes each of its three buffers whole. -/
abbrev r0_0 : Rect S1000x512 := Rect.unit (s := S1000x512) ![0, 0] S1000x512.size inb_S1000x512_S1000x512_0_0
abbrev r0_1 : Rect S512x32 := Rect.unit (s := S512x32) ![0, 0] S512x32.size inb_S512x32_S512x32_0_0
abbrev r0_2 : Rect S1000x32 := Rect.unit (s := S1000x32) ![0, 0] S1000x32.size inb_S1000x32_S1000x32_0_0

/-- What the body leaves in the result's buffer: the one whole-buffer store of the product of the two blocks. -/
def out0_2 (x0 : Vec F S1000x512 .f32) (x1 : Vec F S512x32 .f32) : Vec F S1000x32 .f32 :=
  View.canon [⟨r0_2, k0_pay1 (View.ld x0 r0_0) (View.ld x1 r0_1)⟩]

/-- That store covers the buffer. -/
theorem cover0_2 (p0 : Vec F S1000x32 .f32) (y : S1000x32.Idx) :
    ∃ pc ∈ ([⟨r0_2, p0⟩] : List (View.Piece (Elt F) S1000x32 .f32)), y ∈ pc.1.set :=
  View.cover_of_tiled [⟨r0_2, p0⟩] S1000x32.size (by rfl) y

set_option maxHeartbeats 1000000 in
/-- The body on whole buffers: with the two inputs at x0 and x1 and the result's buffer at anything, it ends with the
    inputs as they were and the result's buffer at `out0_2 x0 x1`. (It also loads the result's buffer before the
    store; that value is not used.) -/
theorem sound_kernel0 (c : Dev nD) (E : Set ℕ) (i : grid0.Coords)
    (arg1 : Memref sig .tc .vmem S1000x512 .f32) (harg1 : arg1.IsWhole) (arg2 : Memref sig .tc .vmem S512x32 .f32) (harg2 : arg2.IsWhole)
    (arg3 : Memref sig .tc .vmem S1000x32 .f32) (harg3 : arg3.IsWhole)
    (x0 : Vec F S1000x512 .f32) (x1 : Vec F S512x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this pipeline on core c: the arrays as the region finds them; after the body at point t each
    input's buffer still at its block and the result's at the product of the two blocks; the invariant is the scoped
    buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiReg1.lean ====
/-
  The second projection, one row block per grid point. There are 5 points. At point t the body sees rows
  2000·t … 2000·t + 1999 of the 10000 × 32 activation matrix (all 32 columns), together with the whole 32 × 32
  weight matrix made of the two 32 × 16 weight blocks set side by side (the first in columns 0 … 15, the second in
  columns 16 … 31); that small matrix is brought in at the first point and never moves afterwards. The body stores the 2000 × 32
  product of the row block with the weight matrix into rows 2000·t … 2000·t + 1999 of the result. All statements
  below are made relative to a PARAMETER V, what the core's buffers contain on entry to the region: the block each
  window shows at a point, the contents of the result's buffer after the body as a function of the two input blocks,
  the Hoare triple of the body, and the pipeline's proof data with its obligation at each of the 5 points.
-/
import proofs.«419466_j70042326663889_1_alg».proof.Proof.Gen.KernelIdeal.Launch
import proofs.«419466_j70042326663889_1_alg».proof.Proof.Gen.KernelIdeal.Skeleton
import proofs.«419466_j70042326663889_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block window w shows at point t, read off its array's contents on entry to the region. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- At every point the activations' buffer holds rows 2000·t … 2000·t + 1999: the window is refetched at each
    point, and the body hands the block back unchanged. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- At every point the weights' buffer holds the whole 32 × 32 matrix: it is fetched only at the first point, but
    its block index is the same at all 5 points, so a fetch at any of them would bring exactly what already sits
    there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Each of the three buffers is read, and the third written, over its full extent. -/
abbrev r1_0 : Rect S2000x32 := Rect.unit (s := S2000x32) ![0, 0] S2000x32.size inb_S2000x32_S2000x32_0_0
abbrev r1_1 : Rect S32x32 := Rect.unit (s := S32x32) ![0, 0] S32x32.size inb_S32x32_S32x32_0_0
abbrev r1_2 : Rect S2000x32 := Rect.unit (s := S2000x32) ![0, 0] S2000x32.size inb_S2000x32_S2000x32_0_0

/-- The contents of the result's buffer after the body: a single full-extent store of the row block times the
    weight matrix. -/
def out1_2 (x0 : Vec F S2000x32 .f32) (x1 : Vec F S32x32 .f32) : Vec F S2000x32 .f32 :=
  View.canon [⟨r1_2, k1_pay1 (View.ld x0 r1_0) (View.ld x1 r1_1)⟩]

/-- The single store reaches every index of the 2000 × 32 buffer. -/
theorem cover1_2 (p0 : Vec F S2000x32 .f32) (y : S2000x32.Idx) :
    ∃ pc ∈ ([⟨r1_2, p0⟩] : List (View.Piece (Elt F) S2000x32 .f32)), y ∈ pc.1.set :=
  View.cover_of_tiled [⟨r1_2, p0⟩] S2000x32.size (by rfl) y

set_option maxHeartbeats 1000000 in
/-- The body on full buffers. Starting with the activations' buffer at x0, the weights' buffer at x1 and the
    result's buffer at arbitrary contents, it finishes with both inputs untouched and the result's buffer at
    `out1_2 x0 x1`. (Before storing it also loads the result's buffer; the loaded value goes nowhere. The two
    reshapes inside the stored value are to the shape the operand already has, and play no part here.) -/
theorem sound_kernel1 (c : Dev nD) (E : Set ℕ) (i : grid1.Coords)
    (arg1 : Memref sig .tc .vmem S2000x32 .f32) (harg1 : arg1.IsWhole) (arg2 : Memref sig .tc .vmem S32x32 .f32) (harg2 : arg2.IsWhole)
    (arg3 : Memref sig .tc .vmem S2000x32 .f32) (harg3 : arg3.IsWhole)
    (x0 : Vec F S2000x32 .f32) (x1 : Vec F S32x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- This pipeline's proof data on core c. The arrays are as the region finds them. After the body at point t the
    activations' buffer still shows its row block, the weights' buffer still shows the 32 × 32 matrix, and the
    result's buffer shows their product. The invariant is the scoped buffers that no window of this pipeline
    stages, with the generator register, all left alone; the core owes nothing; every share is full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The resources the body receives at point t, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and the resources it gives back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at an arbitrary point: both input buffers show their blocks, so the triple above fires; the invariant
    and the core's debt are carried across without being looked at. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- What the pipeline library asks of the body, at each of the 5 points. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiReg2.lean ====
/-
  The decoder, tile by tile. The result is the 10240 × 10240 product of the padded latent matrix (10240 rows of 16)
  with its own transpose, cut into a 10 × 10 grid of 1024 × 1024 tiles. At grid point (a, b) the body is handed rows
  1024·a … 1024·a + 1023 of the latent matrix (brought in when b = 0 and left in place along the row of tiles), rows
  1024·b … 1024·b + 1023 of THE SAME matrix (brought in at every point), and writes tile (a, b): the product of the
  first block with the transpose of the second. Both input windows read one array, so the array's full share is dealt
  between them, its left half to the first and its right half to the second; the halves are split off when the region
  is entered and put together again when it is left. Everything here is stated at a PARAMETER V, the contents of the
  core's buffers when the region is entered: what each window's block is at a point, what the body leaves in the
  tile's buffer as a function of the two row blocks, the body's Hoare triple, the pipeline's proof data with its
  obligation at every point, and the two entailments that trade the core's unscoped buffers for the windows' arrays
  at their shares and back.
-/
import proofs.«419466_j70042326663889_1_alg».proof.Proof.Gen.KernelIdeal.Launch
import proofs.«419466_j70042326663889_1_alg».proof.Proof.Gen.KernelIdeal.Skeleton
import proofs.«419466_j70042326663889_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, cut out of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first window's buffer holds row block a of the latent matrix at every point (a, b): it is fetched where
    b = 0, its block index does not move along the row of tiles, and a body that leaves the block in place changes
    nothing, so what a fetch would bring is what is already there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The second window's buffer holds row block b of the latent matrix at every point (a, b): it is fetched at every
    point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The body reads and writes each of its three buffers whole. -/
abbrev r2_0 : Rect S1024x16 := Rect.unit (s := S1024x16) ![0, 0] S1024x16.size inb_S1024x16_S1024x16_0_0
abbrev r2_1 : Rect S1024x16 := Rect.unit (s := S1024x16) ![0, 0] S1024x16.size inb_S1024x16_S1024x16_0_0
abbrev r2_2 : Rect S1024x1024 := Rect.unit (s := S1024x1024) ![0, 0] S1024x1024.size inb_S1024x1024_S1024x1024_0_0

/-- What the body leaves in the tile's buffer: the one whole-buffer store of the product of the first row block with
    the transpose of the second. -/
def out2_2 (x0 x1 : Vec F S1024x16 .f32) : Vec F S1024x1024 .f32 :=
  View.canon [⟨r2_2, k2_pay1 (View.ld x0 r2_0) (View.ld x1 r2_1)⟩]

/-- That store covers the buffer. -/
theorem cover2_2 (p0 : Vec F S1024x1024 .f32) (y : S1024x1024.Idx) :
    ∃ pc ∈ ([⟨r2_2, p0⟩] : List (View.Piece (Elt F) S1024x1024 .f32)), y ∈ pc.1.set :=
  View.cover_of_tiled [⟨r2_2, p0⟩] S1024x1024.size (by rfl) y

set_option maxHeartbeats 1000000 in
/-- The body on whole buffers: with the two row blocks at x0 and x1 and the tile's buffer at anything, it ends with the
    row blocks as they were and the tile's buffer at `out2_2 x0 x1`. (It also loads the tile's buffer before the
    store; that value is not used. The grid point itself is not read.) -/
theorem sound_kernel2 (c : Dev nD) (E : Set ℕ) (i : grid2.Coords)
    (arg2 : Memref sig .tc .vmem S1024x16 .f32) (harg2 : arg2.IsWhole) (arg3 : Memref sig .tc .vmem S1024x16 .f32) (harg3 : arg3.IsWhole)
    (arg4 : Memref sig .tc .vmem S1024x1024 .f32) (harg4 : arg4.IsWhole)
    (x0 x1 : Vec F S1024x16 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out2_2 x0 x1)) -∗ K ⟨⟩))
      ⊢ wp frame (wpE (defs₀ (F := F)) Variants.none c none) E (cc2__decode_kernel i arg2 harg2 arg3 harg3 arg4 harg4) K := by
  simp only [cc2__decode_kernel_eq_skeleton]; unfold cc2__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of this pipeline on core c: the arrays as the region finds them; after the body at point (a, b)
    each input's buffer still at its row block and the tile's buffer at the product; the invariant is the scoped
    buffers no window stages and the generator register, untouched; nothing owed; the latent matrix's share dealt
    left and right between the two windows that read it, the result held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- The shares the arrays are held at: the latent matrix's two halves, the result whole. -/
theorem share2_0 (c : Dev nD) : (dat2 V c).share 0 = fullShare.left := by
  unfold Dat.share; rw [if_neg (by decide)]; dsimp only [dat2]
theorem share2_1 (c : Dev nD) : (dat2 V c).share 1 = fullShare.right := by
  unfold Dat.share; rw [if_neg (by decide)]; dsimp only [dat2]
theorem share2_2 (c : Dev nD) : (dat2 V c).share 2 = fullShare := by
  unfold Dat.share; rw [if_pos (by decide)]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their row blocks, so the triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

/-! ## The latent matrix's two halves, split at the region's entry and rejoined at its exit

Among the core's unscoped buffers the windows' arrays are two buffers, the latent matrix and the result. The pipeline
wants three holdings, one per window: the latent matrix at the left half of its share for the first window and at the
right half for the second, the result whole. A whole points-to is its two halves side by side, in both directions. -/

/-- The core's unscoped buffers are the two buffers behind the windows' arrays and the rest. -/
theorem unscopedBufs_split2 (c : Dev nD) (Vc : (b : Ref sig .tc) → Buf (Elt F) ((c.tc : Thread nD τ).loc b)) :
    (unscopedBufs c Vc : sProp 𝕄) = iprop((Pipeline.arrBufs spec2 c Vc : sProp 𝕄) ∗ Pipeline.unscopedRest spec2 c Vc) :=
  Pipeline.unscopedBufs_split₀ cfgs 2 winFacts₀2.arr_unscoped c Vc

/-- The buffers behind the windows' arrays, one by one: the latent matrix and the result. -/
theorem arrBufs2_eq (c : Dev nD) (Vc : (b : Ref sig .tc) → Buf (Elt F) ((c.tc : Thread nD τ).loc b)) :
    (Pipeline.arrBufs spec2 c Vc : sProp 𝕄)
      = iprop((((c.tc : Thread nD τ).loc main_v35) ↦{fullShare} Vc main_v35) ∗ (((c.tc : Thread nD τ).loc main_v36) ↦{fullShare} Vc main_v36)) := by
  unfold Pipeline.arrBufs
  rw [show Finset.univ.image (Pipeline.arrRef spec2) = {main_v35, main_v36} from by decide, bigSep_insert (by decide), bigSep_singleton]
  rfl

/-- The pipeline's arrays, one window at a time, each a whole buffer at its share. -/
theorem arrays2_eq (c : Dev nD) (F2 : (w : Fin cfg2.W) → Buf (Elt F) ((cfg2.win w).arr.view.loc (c.tc : Thread nD τ))) :
    ((dat2 V c).arrays F2 : sProp 𝕄)
      = iprop((((cfg2.win 0).arr.view.loc (c.tc : Thread nD τ)) ↦{fullShare.left} F2 0)
          ∗ (((cfg2.win 1).arr.view.loc (c.tc : Thread nD τ)) ↦{fullShare.right} F2 1)
          ∗ (((cfg2.win 2).arr.view.loc (c.tc : Thread nD τ)) ↦{fullShare} F2 2)) := by
  unfold Dat.arrays
  rw [bigSep_W2, (arr_whole2 0).set_eq_univ, (arr_whole2 2).set_eq_univ, share2_0, share2_1, share2_2]

/-- ENTRY: the core's unscoped buffers at contents Vc are the pipeline's arrays at contents read off Vc, the latent
    matrix's share halved between the two windows that read it, and the unscoped rest. -/
theorem arrays_of_unscopedBufs2 (c : Dev nD) (Vc : (b : Ref sig .tc) → Buf (Elt F) ((c.tc : Thread nD τ).loc b))
    (F2 : (w : Fin cfg2.W) → Buf (Elt F) ((cfg2.win w).arr.view.loc (c.tc : Thread nD τ)))
    (hF : ∀ w, F2 w = Vc (Pipeline.arrRef spec2 w)) :
    (unscopedBufs c Vc : sProp 𝕄) ⊢ iprop((dat2 V c).arrays F2 ∗ Pipeline.unscopedRest spec2 c Vc) := by
  rw [unscopedBufs_split2, arrBufs2_eq, arrays2_eq, hF 0, hF 1, hF 2]
  refine sep_mono ?_ .rfl
  iintro ⟨H35, H36⟩
  icases (pointsTo_share (PosShare.mem_left_op_right fullShare)).1 $$ H35 with ⟨Hl, Hr⟩
  isplitl [Hl]; · iexact Hl
  isplitl [Hr]; · iexact Hr
  iexact H36

/-- EXIT: the pipeline's arrays at contents F2 and the unscoped rest at Vc are the core's unscoped buffers at any
    valuation Vc' that has the arrays at F2 and agrees with Vc off them: the latent matrix's two halves make it whole
    again. -/
theorem unscopedBufs_of_arrays2 (c : Dev nD) (Vc Vc' : (b : Ref sig .tc) → Buf (Elt F) ((c.tc : Thread nD τ).loc b))
    (F2 : (w : Fin cfg2.W) → Buf (Elt F) ((cfg2.win w).arr.view.loc (c.tc : Thread nD τ)))
    (hF : ∀ w, F2 w = Vc' (Pipeline.arrRef spec2 w))
    (hrest : ∀ b, b ∉ Finset.univ.image (Pipeline.arrRef spec2) → Vc' b = Vc b) :
    iprop((dat2 V c).arrays F2 ∗ Pipeline.unscopedRest spec2 c Vc) ⊢ (unscopedBufs c Vc' : sProp 𝕄) := by
  rw [unscopedBufs_split2, arrBufs2_eq, arrays2_eq, hF 0, hF 1, hF 2]
  refine sep_mono ?_ (Entails.of_eq ?_)
  · iintro ⟨Hl, Hr, H36⟩
    isplitl [Hl Hr]
    · iapply (pointsTo_share (PosShare.mem_left_op_right fullShare)).2
      isplitl [Hl]; · iexact Hl
      iexact Hr
    iexact H36
  · unfold Pipeline.unscopedRest
    exact bigSep_congr fun b hb => by rw [hrest b (Finset.mem_sdiff.mp hb).2]

end Cert.KernelIdeal.Hand

end
-- ==== Proof.KiRun.lean ====
/-
  The whole program as a chain of nine segments — the first projection, three stretches of host operations (the first
  sparse aggregation, the rectifier, the two weight blocks set side by side), the second projection, two stretches (the
  second aggregation with the reparameterisation, the zero padding), the tiled product of the padded latent matrix with
  its own transpose, and the last stretch (the crop and the flattening) — and its run: from any memory, with every
  counter at zero, every weakly fair execution terminates without a fault, and at the end every buffer that outlives the
  kernels holds the value of a FOLD through the segments: a host stretch applies its operations' pure functions, a
  pipeline leaves its result array at what its write-backs assemble and every other buffer alone.
-/
import proofs.«419466_j70042326663889_1_alg».proof.Proof.KiReg0
import proofs.«419466_j70042326663889_1_alg».proof.Proof.KiReg1
import proofs.«419466_j70042326663889_1_alg».proof.Proof.KiReg2
import proofs.«419466_j70042326663889_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary between two segments -/

/-- At launch. -/
abbrev W0 : Dev nD → Valuation τ sig (Elt F) := fun c b => m (c, b)
/-- The same read at the TensorCore's references (what the first pipeline's proof data take). -/
abbrev R0 : (c : Dev nD) → (b : Ref sig .tc) → Buf (Elt F) ((c : Thread nD τ).loc b) := fun c b => W0 m c b
/-- After the first projection: its arrays at what the pipeline leaves, every other buffer as launched. -/
def W1 (c : Dev nD) : Valuation τ sig (Elt F) :=
  Pipeline.withArrays spec0 c (W0 m c) fun w => (dat0 (R0 m) c).arrAt w cfg0.N
theorem W1_arr (c : Dev nD) (w : Fin cfg0.W) :
    W1 m c (Proc.devRef .tc (Pipeline.arrRef spec0 w)) = (dat0 (R0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev R1 : (c : Dev nD) → (b : Ref sig .tc) → Buf (Elt F) ((c : Thread nD τ).loc b) := fun c b => W1 m c b
theorem hF0 (c : Dev nD) (w : Fin cfg0.W) : (dat0 (R0 m) c).arrAt w cfg0.N = R1 m c (Pipeline.arrRef spec0 w) :=
  (W1_arr m c w).symm
theorem hrest0 (c : Dev nD) : ∀ b, b ∉ Finset.univ.image (Pipeline.arrRef spec0) → R1 m c b = R0 m c b :=
  fun b hb => W1_of_ne m c b fun w e => hb (Finset.mem_image.mpr ⟨w, Finset.mem_univ _, e⟩)

/-- After the first aggregation, after the rectifier, after the two weight blocks are set side by side. -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev R4 : (c : Dev nD) → (b : Ref sig .tc) → Buf (Elt F) ((c : Thread nD τ).loc b) := fun c b => W4 m c b
/-- After the second projection. -/
def W5 (c : Dev nD) : Valuation τ sig (Elt F) :=
  Pipeline.withArrays spec1 c (W4 m c) fun w => (dat1 (R4 m) c).arrAt w cfg1.N
theorem W5_arr (c : Dev nD) (w : Fin cfg1.W) :
    W5 m c (Proc.devRef .tc (Pipeline.arrRef spec1 w)) = (dat1 (R4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev R5 : (c : Dev nD) → (b : Ref sig .tc) → Buf (Elt F) ((c : Thread nD τ).loc b) := fun c b => W5 m c b
theorem hF1 (c : Dev nD) (w : Fin cfg1.W) : (dat1 (R4 m) c).arrAt w cfg1.N = R5 m c (Pipeline.arrRef spec1 w) :=
  (W5_arr m c w).symm
theorem hrest1 (c : Dev nD) : ∀ b, b ∉ Finset.univ.image (Pipeline.arrRef spec1) → R5 m c b = R4 m c b :=
  fun b hb => W5_of_ne m c b fun w e => hb (Finset.mem_image.mpr ⟨w, Finset.mem_univ _, e⟩)

/-- After the second aggregation and the reparameterisation, after the padding. -/
abbrev W6 : Dev nD → Valuation τ sig (Elt F) := fun c => StableHlo.after hostOps2 (W5 m c)
abbrev W7 : Dev nD → Valuation τ sig (Elt F) := fun c => StableHlo.after hostOps2_1 (W6 m c)
abbrev R7 : (c : Dev nD) → (b : Ref sig .tc) → Buf (Elt F) ((c : Thread nD τ).loc b) := fun c b => W7 m c b
/-- After the tiled product: two of its windows read ONE array (the padded latent matrix), which it leaves alone; only
    the product's own array changes. -/
def W8 (c : Dev nD) : Valuation τ sig (Elt F) :=
  Function.update (W7 m c) (Proc.devRef .tc main_v36) ((dat2 (R7 m) c).arrAt 2 cfg2.N)
theorem W8_out (c : Dev nD) : W8 m c (Proc.devRef .tc main_v36) = (dat2 (R7 m) c).arrAt 2 cfg2.N := by
  unfold W8; exact Function.update_self ..
theorem W8_of_ne (c : Dev nD) (b : Ref sig .tc) (hb : b ≠ main_v36) :
    W8 m c (Proc.devRef .tc b) = W7 m c (Proc.devRef .tc b) := by
  unfold W8; exact Function.update_of_ne (StableHlo.devRef_ne_of_ne hb) ..
abbrev R8 : (c : Dev nD) → (b : Ref sig .tc) → Buf (Elt F) ((c : Thread nD τ).loc b) := fun c b => W8 m c b
theorem hF2 (c : Dev nD) : ∀ w : Fin cfg2.W, (dat2 (R7 m) c).arrAt w cfg2.N = R8 m c (Pipeline.arrRef spec2 w)
  | ⟨0, _⟩ => (((dat2 (R7 m) c).arrAt_in 0 rfl _).trans (A_eq2 (R7 m) c 0)).trans (W8_of_ne m c main_v35 (by decide)).symm
  | ⟨1, _⟩ => (((dat2 (R7 m) c).arrAt_in 1 rfl _).trans (A_eq2 (R7 m) c 1)).trans (W8_of_ne m c main_v35 (by decide)).symm
  | ⟨2, _⟩ => (W8_out m c).symm
theorem hrest2 (c : Dev nD) : ∀ b, b ∉ Finset.univ.image (Pipeline.arrRef spec2) → R8 m c b = R7 m c b :=
  fun b hb => W8_of_ne m c b fun e => hb (Finset.mem_image.mpr ⟨2, Finset.mem_univ _, e.symm⟩)
/-- After the crop and the flattening: the end. -/
abbrev W9 : Dev nD → Valuation τ sig (Elt F) := fun c => StableHlo.after hostOps3 (W8 m c)

/-! ### No segment writes an argument: the fold at an argument's buffer walks back to the launch memory -/

theorem W9_main_arg0 (c : Dev nD) : W9 m c (Proc.devRef .tc main_arg0) = m ((c : Thread nD τ).loc main_arg0) :=
  calc W9 m c (Proc.devRef .tc main_arg0)
    _ = W8 m c (Proc.devRef .tc main_arg0) := StableHlo.after_of_writes_sub hostOps3 _ hostOps3_writes (r := main_arg0) (by decide)
    _ = W7 m c (Proc.devRef .tc main_arg0) := W8_of_ne m c main_arg0 (by decide)
    _ = W6 m c (Proc.devRef .tc main_arg0) := StableHlo.after_of_writes_sub hostOps2_1 _ hostOps2_1_writes (r := main_arg0) (by decide)
    _ = W5 m c (Proc.devRef .tc main_arg0) := StableHlo.after_of_writes_sub hostOps2 _ hostOps2_writes (r := main_arg0) (by decide)
    _ = W4 m c (Proc.devRef .tc main_arg0) := W5_of_ne m c main_arg0 (by decide)
    _ = W3 m c (Proc.devRef .tc main_arg0) := StableHlo.after_of_writes_sub hostOps1_2 _ hostOps1_2_writes (r := main_arg0) (by decide)
    _ = W2 m c (Proc.devRef .tc main_arg0) := StableHlo.after_of_writes_sub hostOps1_1 _ hostOps1_1_writes (r := main_arg0) (by decide)
    _ = W1 m c (Proc.devRef .tc main_arg0) := StableHlo.after_of_writes_sub hostOps1 _ hostOps1_writes (r := main_arg0) (by decide)
    _ = W0 m c (Proc.devRef .tc main_arg0) := (W1_arr m c 0).trans (((dat0 (R0 m) c).arrAt_in 0 rfl _).trans (A_eq0 (R0 m) c 0))
    _ = m ((c : Thread nD τ).loc main_arg0) := rfl
theorem W9_main_arg1 (c : Dev nD) : W9 m c (Proc.devRef .tc main_arg1) = m ((c : Thread nD τ).loc main_arg1) :=
  calc W9 m c (Proc.devRef .tc main_arg1)
    _ = W8 m c (Proc.devRef .tc main_arg1) := StableHlo.after_of_writes_sub hostOps3 _ hostOps3_writes (r := main_arg1) (by decide)
    _ = W7 m c (Proc.devRef .tc main_arg1) := W8_of_ne m c main_arg1 (by decide)
    _ = W6 m c (Proc.devRef .tc main_arg1) := StableHlo.after_of_writes_sub hostOps2_1 _ hostOps2_1_writes (r := main_arg1) (by decide)
    _ = W5 m c (Proc.devRef .tc main_arg1) := StableHlo.after_of_writes_sub hostOps2 _ hostOps2_writes (r := main_arg1) (by decide)
    _ = W4 m c (Proc.devRef .tc main_arg1) := W5_of_ne m c main_arg1 (by decide)
    _ = W3 m c (Proc.devRef .tc main_arg1) := StableHlo.after_of_writes_sub hostOps1_2 _ hostOps1_2_writes (r := main_arg1) (by decide)
    _ = W2 m c (Proc.devRef .tc main_arg1) := StableHlo.after_of_writes_sub hostOps1_1 _ hostOps1_1_writes (r := main_arg1) (by decide)
    _ = W1 m c (Proc.devRef .tc main_arg1) := StableHlo.after_of_writes_sub hostOps1 _ hostOps1_writes (r := main_arg1) (by decide)
    _ = W0 m c (Proc.devRef .tc main_arg1) := (W1_arr m c 1).trans (((dat0 (R0 m) c).arrAt_in 1 rfl _).trans (A_eq0 (R0 m) c 1))
    _ = m ((c : Thread nD τ).loc main_arg1) := rfl
theorem W9_main_arg2 (c : Dev nD) : W9 m c (Proc.devRef .tc main_arg2) = m ((c : Thread nD τ).loc main_arg2) :=
  calc W9 m c (Proc.devRef .tc main_arg2)
    _ = W8 m c (Proc.devRef .tc main_arg2) := StableHlo.after_of_writes_sub hostOps3 _ hostOps3_writes (r := main_arg2) (by decide)
    _ = W7 m c (Proc.devRef .tc main_arg2) := W8_of_ne m c main_arg2 (by decide)
    _ = W6 m c (Proc.devRef .tc main_arg2) := StableHlo.after_of_writes_sub hostOps2_1 _ hostOps2_1_writes (r := main_arg2) (by decide)
    _ = W5 m c (Proc.devRef .tc main_arg2) := StableHlo.after_of_writes_sub hostOps2 _ hostOps2_writes (r := main_arg2) (by decide)
    _ = W4 m c (Proc.devRef .tc main_arg2) := W5_of_ne m c main_arg2 (by decide)
    _ = W3 m c (Proc.devRef .tc main_arg2) := StableHlo.after_of_writes_sub hostOps1_2 _ hostOps1_2_writes (r := main_arg2) (by decide)
    _ = W2 m c (Proc.devRef .tc main_arg2) := StableHlo.after_of_writes_sub hostOps1_1 _ hostOps1_1_writes (r := main_arg2) (by decide)
    _ = W1 m c (Proc.devRef .tc main_arg2) := StableHlo.after_of_writes_sub hostOps1 _ hostOps1_writes (r := main_arg2) (by decide)
    _ = W0 m c (Proc.devRef .tc main_arg2) := W1_of_ne m c main_arg2 (by decide)
    _ = m ((c : Thread nD τ).loc main_arg2) := rfl
theorem W9_main_arg3 (c : Dev nD) : W9 m c (Proc.devRef .tc main_arg3) = m ((c : Thread nD τ).loc main_arg3) :=
  calc W9 m c (Proc.devRef .tc main_arg3)
    _ = W8 m c (Proc.devRef .tc main_arg3) := StableHlo.after_of_writes_sub hostOps3 _ hostOps3_writes (r := main_arg3) (by decide)
    _ = W7 m c (Proc.devRef .tc main_arg3) := W8_of_ne m c main_arg3 (by decide)
    _ = W6 m c (Proc.devRef .tc main_arg3) := StableHlo.after_of_writes_sub hostOps2_1 _ hostOps2_1_writes (r := main_arg3) (by decide)
    _ = W5 m c (Proc.devRef .tc main_arg3) := StableHlo.after_of_writes_sub hostOps2 _ hostOps2_writes (r := main_arg3) (by decide)
    _ = W4 m c (Proc.devRef .tc main_arg3) := W5_of_ne m c main_arg3 (by decide)
    _ = W3 m c (Proc.devRef .tc main_arg3) := StableHlo.after_of_writes_sub hostOps1_2 _ hostOps1_2_writes (r := main_arg3) (by decide)
    _ = W2 m c (Proc.devRef .tc main_arg3) := StableHlo.after_of_writes_sub hostOps1_1 _ hostOps1_1_writes (r := main_arg3) (by decide)
    _ = W1 m c (Proc.devRef .tc main_arg3) := StableHlo.after_of_writes_sub hostOps1 _ hostOps1_writes (r := main_arg3) (by decide)
    _ = W0 m c (Proc.devRef .tc main_arg3) := W1_of_ne m c main_arg3 (by decide)
    _ = m ((c : Thread nD τ).loc main_arg3) := rfl
theorem W9_main_arg4 (c : Dev nD) : W9 m c (Proc.devRef .tc main_arg4) = m ((c : Thread nD τ).loc main_arg4) :=
  calc W9 m c (Proc.devRef .tc main_arg4)
    _ = W8 m c (Proc.devRef .tc main_arg4) := StableHlo.after_of_writes_sub hostOps3 _ hostOps3_writes (r := main_arg4) (by decide)
    _ = W7 m c (Proc.devRef .tc main_arg4) := W8_of_ne m c main_arg4 (by decide)
    _ = W6 m c (Proc.devRef .tc main_arg4) := StableHlo.after_of_writes_sub hostOps2_1 _ hostOps2_1_writes (r := main_arg4) (by decide)
    _ = W5 m c (Proc.devRef .tc main_arg4) := StableHlo.after_of_writes_sub hostOps2 _ hostOps2_writes (r := main_arg4) (by decide)
    _ = W4 m c (Proc.devRef .tc main_arg4) := W5_of_ne m c main_arg4 (by decide)
    _ = W3 m c (Proc.devRef .tc main_arg4) := StableHlo.after_of_writes_sub hostOps1_2 _ hostOps1_2_writes (r := main_arg4) (by decide)
    _ = W2 m c (Proc.devRef .tc main_arg4) := StableHlo.after_of_writes_sub hostOps1_1 _ hostOps1_1_writes (r := main_arg4) (by decide)
    _ = W1 m c (Proc.devRef .tc main_arg4) := StableHlo.after_of_writes_sub hostOps1 _ hostOps1_writes (r := main_arg4) (by decide)
    _ = W0 m c (Proc.devRef .tc main_arg4) := W1_of_ne m c main_arg4 (by decide)
    _ = m ((c : Thread nD τ).loc main_arg4) := rfl
theorem W9_main_arg5 (c : Dev nD) : W9 m c (Proc.devRef .tc main_arg5) = m ((c : Thread nD τ).loc main_arg5) :=
  calc W9 m c (Proc.devRef .tc main_arg5)
    _ = W8 m c (Proc.devRef .tc main_arg5) := StableHlo.after_of_writes_sub hostOps3 _ hostOps3_writes (r := main_arg5) (by decide)
    _ = W7 m c (Proc.devRef .tc main_arg5) := W8_of_ne m c main_arg5 (by decide)
    _ = W6 m c (Proc.devRef .tc main_arg5) := StableHlo.after_of_writes_sub hostOps2_1 _ hostOps2_1_writes (r := main_arg5) (by decide)
    _ = W5 m c (Proc.devRef .tc main_arg5) := StableHlo.after_of_writes_sub hostOps2 _ hostOps2_writes (r := main_arg5) (by decide)
    _ = W4 m c (Proc.devRef .tc main_arg5) := W5_of_ne m c main_arg5 (by decide)
    _ = W3 m c (Proc.devRef .tc main_arg5) := StableHlo.after_of_writes_sub hostOps1_2 _ hostOps1_2_writes (r := main_arg5) (by decide)
    _ = W2 m c (Proc.devRef .tc main_arg5) := StableHlo.after_of_writes_sub hostOps1_1 _ hostOps1_1_writes (r := main_arg5) (by decide)
    _ = W1 m c (Proc.devRef .tc main_arg5) := StableHlo.after_of_writes_sub hostOps1 _ hostOps1_writes (r := main_arg5) (by decide)
    _ = W0 m c (Proc.devRef .tc main_arg5) := W1_of_ne m c main_arg5 (by decide)
    _ = m ((c : Thread nD τ).loc main_arg5) := rfl
theorem W9_main_arg6 (c : Dev nD) : W9 m c (Proc.devRef .tc main_arg6) = m ((c : Thread nD τ).loc main_arg6) :=
  calc W9 m c (Proc.devRef .tc main_arg6)
    _ = W8 m c (Proc.devRef .tc main_arg6) := StableHlo.after_of_writes_sub hostOps3 _ hostOps3_writes (r := main_arg6) (by decide)
    _ = W7 m c (Proc.devRef .tc main_arg6) := W8_of_ne m c main_arg6 (by decide)
    _ = W6 m c (Proc.devRef .tc main_arg6) := StableHlo.after_of_writes_sub hostOps2_1 _ hostOps2_1_writes (r := main_arg6) (by decide)
    _ = W5 m c (Proc.devRef .tc main_arg6) := StableHlo.after_of_writes_sub hostOps2 _ hostOps2_writes (r := main_arg6) (by decide)
    _ = W4 m c (Proc.devRef .tc main_arg6) := W5_of_ne m c main_arg6 (by decide)
    _ = W3 m c (Proc.devRef .tc main_arg6) := StableHlo.after_of_writes_sub hostOps1_2 _ hostOps1_2_writes (r := main_arg6) (by decide)
    _ = W2 m c (Proc.devRef .tc main_arg6) := StableHlo.after_of_writes_sub hostOps1_1 _ hostOps1_1_writes (r := main_arg6) (by decide)
    _ = W1 m c (Proc.devRef .tc main_arg6) := StableHlo.after_of_writes_sub hostOps1 _ hostOps1_writes (r := main_arg6) (by decide)
    _ = W0 m c (Proc.devRef .tc main_arg6) := W1_of_ne m c main_arg6 (by decide)
    _ = m ((c : Thread nD τ).loc main_arg6) := rfl
theorem W9_main_arg7 (c : Dev nD) : W9 m c (Proc.devRef .tc main_arg7) = m ((c : Thread nD τ).loc main_arg7) :=
  calc W9 m c (Proc.devRef .tc main_arg7)
    _ = W8 m c (Proc.devRef .tc main_arg7) := StableHlo.after_of_writes_sub hostOps3 _ hostOps3_writes (r := main_arg7) (by decide)
    _ = W7 m c (Proc.devRef .tc main_arg7) := W8_of_ne m c main_arg7 (by decide)
    _ = W6 m c (Proc.devRef .tc main_arg7) := StableHlo.after_of_writes_sub hostOps2_1 _ hostOps2_1_writes (r := main_arg7) (by decide)
    _ = W5 m c (Proc.devRef .tc main_arg7) := StableHlo.after_of_writes_sub hostOps2 _ hostOps2_writes (r := main_arg7) (by decide)
    _ = W4 m c (Proc.devRef .tc main_arg7) := W5_of_ne m c main_arg7 (by decide)
    _ = W3 m c (Proc.devRef .tc main_arg7) := StableHlo.after_of_writes_sub hostOps1_2 _ hostOps1_2_writes (r := main_arg7) (by decide)
    _ = W2 m c (Proc.devRef .tc main_arg7) := StableHlo.after_of_writes_sub hostOps1_1 _ hostOps1_1_writes (r := main_arg7) (by decide)
    _ = W1 m c (Proc.devRef .tc main_arg7) := StableHlo.after_of_writes_sub hostOps1 _ hostOps1_writes (r := main_arg7) (by decide)
    _ = W0 m c (Proc.devRef .tc main_arg7) := W1_of_ne m c main_arg7 (by decide)
    _ = m ((c : Thread nD τ).loc main_arg7) := rfl

/-! ## The proof data of the three pipelines and what rides beside the buffers -/

abbrev adm3 : (p : Fin 3) → (pcfgs (F := F) p).Adm := fun p => (cfgs p).toPCfg_adm
/-- Each pipeline's proof data at the contents its region is entered with. -/
def pdats3 : (p : Fin 3) → (c : Dev nD) → Dat τ (Elt F) Unit ℕ (UR sig nD τ) ℕ (Pipeline.pin (pcfgs (F := F)) adm3 p) c
  | ⟨0, _⟩ => fun c => dat0 (R0 m) c
  | ⟨1, _⟩ => fun c => dat1 (R4 m) c
  | ⟨2, _⟩ => fun c => dat2 (R7 m) c
abbrev 𝒱₀ : Variants := Variants.none
abbrev L0 : GSem nD τ sig → Finset Unit := fun _ => ∅
abbrev lv0 : GSem nD τ sig → Unit → ℕ := fun _ _ => 0
/-- Beside the buffers: the generator register at some state, and the core owing nothing. -/
abbrev Rr (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without what the core owes. -/
abbrev Tend (c : Dev nD) : sProp 𝕄 := iprop(StableHlo.held (c : Thread nD τ) (Pipeline.ucRefs τ sig) (W9 m c) ∗ ∃ r, prngReg c r)

/-! ## The pipelines as segments -/

set_option backward.isDefEq.respectTransparency.types false in
/-- Pipeline 0 as a segment of the program: entered with every unscoped buffer at `W0`, left with them at `W1`.
    Its arrays are taken out of the unscoped buffers at entry and put back, at what the write-backs leave, at exit; the
    generator register goes into the pipeline's invariant and comes back; nothing is owed; the kernel has no semaphore
    of its own. -/
def reg0 : Pipeline.RegionSeg (pcfgs (F := F)) adm3 (pdats3 m) () defs₀ 𝒱₀ L0 lv0 0 where
  win := launch0.win.to₀
  block_pos := launch0.block_pos
  stage_whole := launch0.stage_whole
  K := PEmpty
  osem k := k.elim
  ho := Pipeline.OwnSemFacts.none _
  hbody c := (body_obligation0 (R0 m) c).loose
  hwaits := Pipeline.hwaits_of_owed_zero _ _ _ _ L0 lv0 0 fun _ _ => rfl
  pre c := iprop(StableHlo.held (c : Thread nD τ) (Pipeline.ucRefs τ sig) (W0 m c) ∗ Rr c)
  post c := iprop(StableHlo.held (c : Thread nD τ) (Pipeline.ucRefs τ sig) (W1 m c) ∗ Rr c)
  X c := iprop(∃ r, prngReg c r)
  Y c := iprop(∃ r, prngReg c r)
  Z c := Pipeline.unscopedRest (Ix := Unit) (Name := ℕ) (U := UR sig nD τ) (Lvl := ℕ) spec0 c (R0 m c)
  hentry c := by
    rw [Pipeline.ownSems0_none]
    have hsplit := Pipeline.arrays_of_unscopedBufs (p := 0) (pcfgs (F := F)) adm3 (pdats3 m) launch0.win launch0.arr_whole c
      ((pdats3 m 0 c).share_full fun _ => rfl) (R0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats3 m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats3 m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm3 (Ix := Unit) (Name := ℕ) (U := UR sig nD τ) (Lvl := ℕ)
      launch0.win launch0.arr_whole c (pdats3 m) ((pdats3 m 0 c).share_full fun _ => rfl)
      (R0 m c) (R1 m c) ((pdats3 m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 as a segment of the program: entered with every unscoped buffer at `W4`, left with them at `W5`.
    Its arrays are taken out of the unscoped buffers at entry and put back, at what the write-backs leave, at exit; the
    generator register goes into the pipeline's invariant and comes back; nothing is owed; the kernel has no semaphore
    of its own. -/
def reg1 : Pipeline.RegionSeg (pcfgs (F := F)) adm3 (pdats3 m) () defs₀ 𝒱₀ L0 lv0 1 where
  win := launch1.win.to₀
  block_pos := launch1.block_pos
  stage_whole := launch1.stage_whole
  K := PEmpty
  osem k := k.elim
  ho := Pipeline.OwnSemFacts.none _
  hbody c := (body_obligation1 (R4 m) c).loose
  hwaits := Pipeline.hwaits_of_owed_zero _ _ _ _ L0 lv0 1 fun _ _ => rfl
  pre c := iprop(StableHlo.held (c : Thread nD τ) (Pipeline.ucRefs τ sig) (W4 m c) ∗ Rr c)
  post c := iprop(StableHlo.held (c : Thread nD τ) (Pipeline.ucRefs τ sig) (W5 m c) ∗ Rr c)
  X c := iprop(∃ r, prngReg c r)
  Y c := iprop(∃ r, prngReg c r)
  Z c := Pipeline.unscopedRest (Ix := Unit) (Name := ℕ) (U := UR sig nD τ) (Lvl := ℕ) spec1 c (R4 m c)
  hentry c := by
    rw [Pipeline.ownSems0_none]
    have hsplit := Pipeline.arrays_of_unscopedBufs (p := 1) (pcfgs (F := F)) adm3 (pdats3 m) launch1.win launch1.arr_whole c
      ((pdats3 m 1 c).share_full fun _ => rfl) (R4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats3 m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats3 m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm3 (Ix := Unit) (Name := ℕ) (U := UR sig nD τ) (Lvl := ℕ)
      launch1.win launch1.arr_whole c (pdats3 m) ((pdats3 m 1 c).share_full fun _ => rfl)
      (R4 m c) (R5 m c) ((pdats3 m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 2 as a segment of the program: entered with every unscoped buffer at `W7`, left with them at `W8`.
    Its arrays are taken out of the unscoped buffers at entry and put back, at what the write-backs leave, at exit; the
    generator register goes into the pipeline's invariant and comes back; nothing is owed; the kernel has no semaphore
    of its own. -/
def reg2 : Pipeline.RegionSeg (pcfgs (F := F)) adm3 (pdats3 m) () defs₀ 𝒱₀ L0 lv0 2 where
  win := winFacts₀2
  block_pos := block_pos2
  stage_whole := stage_whole2
  K := PEmpty
  osem k := k.elim
  ho := Pipeline.OwnSemFacts.none _
  hbody c := (body_obligation2 (R7 m) c).loose
  hwaits := Pipeline.hwaits_of_owed_zero _ _ _ _ L0 lv0 2 fun _ _ => rfl
  pre c := iprop(StableHlo.held (c : Thread nD τ) (Pipeline.ucRefs τ sig) (W7 m c) ∗ Rr c)
  post c := iprop(StableHlo.held (c : Thread nD τ) (Pipeline.ucRefs τ sig) (W8 m c) ∗ Rr c)
  X c := iprop(∃ r, prngReg c r)
  Y c := iprop(∃ r, prngReg c r)
  Z c := Pipeline.unscopedRest (Ix := Unit) (Name := ℕ) (U := UR sig nD τ) (Lvl := ℕ) spec2 c (R7 m c)
  hentry c := by
    rw [Pipeline.ownSems0_none]
    have hsplit : (unscopedBufs c (R7 m c) : sProp 𝕄)
        ⊢ iprop((pdats3 m 2 c).arrays ((pdats3 m 2 c).arrAt · 0) ∗ Pipeline.unscopedRest spec2 c (R7 m c)) :=
      arrays_of_unscopedBufs2 (R7 m) c (R7 m c) ((dat2 (R7 m) c).arrAt · 0) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats3 m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats3 m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats3 m 2 c).arrays ((pdats3 m 2 c).arrAt · cfg2.N) ∗ Pipeline.unscopedRest spec2 c (R7 m c))
        ⊢ (unscopedBufs c (R8 m c) : sProp 𝕄) :=
      unscopedBufs_of_arrays2 (R7 m) c (R7 m c) (R8 m c) ((dat2 (R7 m) c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev mainSegs : List (Pipeline.Seg (pcfgs (F := F)) adm3 (pdats3 m) () defs₀ 𝒱₀ L0 lv0) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .region (reg1 m),
    .host (hseg hostOps2 hostOps2_sub hostOps2_fresh (W5 m)),
    .host (hseg hostOps2_1 hostOps2_1_sub hostOps2_1_fresh (W6 m)),
    .region (reg2 m),
    .host (hseg hostOps3 hostOps3_sub hostOps3_fresh (W8 m)) ]

set_option backward.isDefEq.respectTransparency.types false in
/-- THE RUN. From any memory with every counter at zero, every weakly fair execution of the program terminates, nothing
    faulting, and in every final state each buffer that outlives the kernels holds the fold's last value `W9`. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm3 (pdats3 m) () cellOf_inj emb₁ defs₀ 𝒱₀ L0 lv0 m ρ main (mainSegs m)
    (fun c Q => by
      rewrite [main_chain c, Pipeline.Seg.run_eq_chain,
        show (mainSegs m).map Pipeline.Seg.prog = [
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          Prog.lift (.customCall (Pipeline.entry 2) ()),
          StableHlo.seq hostOps3 ] from rfl]
      exact .rfl)
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tend m)
    (hch := ⟨fun _ => .rfl, fun _ => .rfl, fun _ => .rfl, fun _ => .rfl, fun _ => .rfl, fun _ => .rfl, fun _ => .rfl, fun _ => .rfl,
      fun _ => .rfl, fun c => by
        show iprop(StableHlo.held (c : Thread nD τ) (Pipeline.ucRefs τ sig) (W9 m c) ∗ Rr c)
          ⊢ iprop(Tend m c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L0 lv0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

/-- The frame: every argument array ends as launched. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c),
     (h c _ (mem_uc main_arg7 (by decide))).trans (W9_main_arg7 m c)⟩) (run_all m ρ)

end Cert.KernelIdeal.Hand

end
-- ==== Proof.KiHost.lean ====
/-
  The host stretches between the pipelines, read as functions. One sparse aggregation is the chain: normalise the column
  index (a negative index counts from the end), gather the rows of the dense matrix at it, scale each gathered row by its
  edge's weight, and scatter-add the rows at the row index into a zero matrix. The program applies it twice, to the first
  projection and to the second; between them it rectifies and sets the two weight blocks side by side; after the second it
  crops the two halves of the columns (the means and the log-deviations), forms the latent matrix
  means + noise · exp(log-deviations), pads it with 240 zero rows, and after the tiled product crops and flattens.
-/
import proofs.«419466_j70042326663889_1_alg».proof.Proof.KiRun
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

/-- One sparse aggregation of a 32-wide dense matrix `M`, with edge weights `a4`, row indices `a6`, column indices `a7`. -/
def spmm32 (a4 : FVec F S320000 .f32) (a6 a7 : IVec S320000 32) (M : FVec F S10000x32 .f32) : FVec F S10000x32 .f32 :=
  Host.scatterAdd scatter_S10000x32_S320000x1_S320000x32_1_0_0_1
    (broadcastInDim S10000x32 ![] bcast_S_S10000x32 (constant S_ .f32 0x00000000#32))
    (broadcastInDim S320000x1 ![0] bcast_S320000_S320000x1_0 a6)
    (mulf (broadcastInDim S320000x32 ![0, 1] bcast_S320000x1_S320000x32_0_1 (broadcastInDim S320000x1 ![0] bcast_S320000_S320000x1_0 a4))
      (Host.gather gather_S10000x32_S320000x1_S320000x32_1_0_n_n_0_1_132 M
        (broadcastInDim S320000x1 ![0] bcast_S320000_S320000x1_0
          (select (cmpi .slt a7 (broadcastInDim S320000 ![] bcast_S_S320000 (constantI S_ 32 0#32)))
            (addi a7 (broadcastInDim S320000 ![] bcast_S_S320000 (constantI S_ 32 10000#32))) a7))))

variable (m : (ℓ : Loc nD τ sig) → Buf (Elt F) ℓ)

/-! ## A buffer no segment up to a boundary writes still holds its launch contents there -/

theorem W4_keeps (c : Dev nD) (r : Ref sig .tc) (h0 : ∀ w, Pipeline.arrRef spec0 w ≠ r) (h1 : r ∉ hostOps1_W) (h2 : r ∉ hostOps1_1_W)
    (h3 : r ∉ hostOps1_2_W) : W4 m c (Proc.devRef .tc r) = W0 m c (Proc.devRef .tc r) :=
  (StableHlo.after_of_writes_sub hostOps1_2 _ hostOps1_2_writes h3).trans <|
    (StableHlo.after_of_writes_sub hostOps1_1 _ hostOps1_1_writes h2).trans <|
      (StableHlo.after_of_writes_sub hostOps1 _ hostOps1_writes h1).trans (W1_of_ne m c r h0)

theorem W1_arg4 (c : Dev nD) : W1 m c (Proc.devRef .tc main_arg4) = W0 m c (Proc.devRef .tc main_arg4) := W1_of_ne m c main_arg4 (by decide)
theorem W1_arg6 (c : Dev nD) : W1 m c (Proc.devRef .tc main_arg6) = W0 m c (Proc.devRef .tc main_arg6) := W1_of_ne m c main_arg6 (by decide)
theorem W1_arg7 (c : Dev nD) : W1 m c (Proc.devRef .tc main_arg7) = W0 m c (Proc.devRef .tc main_arg7) := W1_of_ne m c main_arg7 (by decide)
theorem W3_arg2 (c : Dev nD) : W3 m c (Proc.devRef .tc main_arg2) = W0 m c (Proc.devRef .tc main_arg2) :=
  (StableHlo.after_of_writes_sub hostOps1_1 _ hostOps1_1_writes (r := main_arg2) (by decide)).trans <|
    (StableHlo.after_of_writes_sub hostOps1 _ hostOps1_writes (r := main_arg2) (by decide)).trans (W1_of_ne m c main_arg2 (by decide))
theorem W3_arg3 (c : Dev nD) : W3 m c (Proc.devRef .tc main_arg3) = W0 m c (Proc.devRef .tc main_arg3) :=
  (StableHlo.after_of_writes_sub hostOps1_1 _ hostOps1_1_writes (r := main_arg3) (by decide)).trans <|
    (StableHlo.after_of_writes_sub hostOps1 _ hostOps1_writes (r := main_arg3) (by decide)).trans (W1_of_ne m c main_arg3 (by decide))
theorem W5_arg4 (c : Dev nD) : W5 m c (Proc.devRef .tc main_arg4) = W0 m c (Proc.devRef .tc main_arg4) :=
  (W5_of_ne m c main_arg4 (by decide)).trans (W4_keeps m c main_arg4 (by decide) (by decide) (by decide) (by decide))
theorem W5_arg5 (c : Dev nD) : W5 m c (Proc.devRef .tc main_arg5) = W0 m c (Proc.devRef .tc main_arg5) :=
  (W5_of_ne m c main_arg5 (by decide)).trans (W4_keeps m c main_arg5 (by decide) (by decide) (by decide) (by decide))
theorem W5_arg6 (c : Dev nD) : W5 m c (Proc.devRef .tc main_arg6) = W0 m c (Proc.devRef .tc main_arg6) :=
  (W5_of_ne m c main_arg6 (by decide)).trans (W4_keeps m c main_arg6 (by decide) (by decide) (by decide) (by decide))
theorem W5_arg7 (c : Dev nD) : W5 m c (Proc.devRef .tc main_arg7) = W0 m c (Proc.devRef .tc main_arg7) :=
  (W5_of_ne m c main_arg7 (by decide)).trans (W4_keeps m c main_arg7 (by decide) (by decide) (by decide) (by decide))

/-! ## What the second pipeline is entered with -/

/-- Its right operand: the two weight blocks side by side. -/
theorem W4_v15 (c : Dev nD) :
    W4 m c (Proc.devRef .tc main_v15)
      = concatenate S32x32 1 [⟨S32x16, W0 m c (Proc.devRef .tc main_arg2)⟩, ⟨S32x16, W0 m c (Proc.devRef .tc main_arg3)⟩] concatenates_S32x16_S32x16_S32x32_d1 := by
  show StableHlo.after hostOps1_2 (W3 m c) (Proc.devRef .tc main_v15) = _
  after_results
  rw [W1_of_ne m c main_arg2 (by decide), W1_of_ne m c main_arg3 (by decide)]

/-- Its left operand: the rectified first aggregation of what the first pipeline left. -/
theorem W4_v14 (c : Dev nD) :
    W4 m c (Proc.devRef .tc main_v14)
      = maximumf (spmm32 (W0 m c (Proc.devRef .tc main_arg4)) (W0 m c (Proc.devRef .tc main_arg6)) (W0 m c (Proc.devRef .tc main_arg7))
            (W1 m c (Proc.devRef .tc main_v0)))
          (broadcastInDim S10000x32 ![] bcast_S_S10000x32 (constant S_ .f32 0x00000000#32)) := by
  show StableHlo.after hostOps1_2 (StableHlo.after hostOps1_1 (StableHlo.after hostOps1 (W1 m c))) (Proc.devRef .tc main_v14) = _
  after_results
  rw [W1_arg4, W1_arg6, W1_arg7]
  rfl

/-! ## What the second aggregation leaves, and what the third pipeline is entered with -/

/-- The means: columns 0…15 of the second aggregation. -/
theorem W7_v30 (c : Dev nD) :
    W7 m c (Proc.devRef .tc main_v30)
      = extractStridedSlice S10000x16 ![0, 0]
          (spmm32 (W0 m c (Proc.devRef .tc main_arg4)) (W0 m c (Proc.devRef .tc main_arg6)) (W0 m c (Proc.devRef .tc main_arg7))
            (W5 m c (Proc.devRef .tc main_v16))) slices_S10000x32_S10000x16_0_0 := by
  show StableHlo.after hostOps2_1 (StableHlo.after hostOps2 (W5 m c)) (Proc.devRef .tc main_v30) = _
  after_results
  rw [W5_arg4, W5_arg6, W5_arg7]
  rfl

/-- The log-deviations: columns 16…31 of it. -/
theorem W7_v31 (c : Dev nD) :
    W7 m c (Proc.devRef .tc main_v31)
      = extractStridedSlice S10000x16 ![0, 16]
          (spmm32 (W0 m c (Proc.devRef .tc main_arg4)) (W0 m c (Proc.devRef .tc main_arg6)) (W0 m c (Proc.devRef .tc main_arg7))
            (W5 m c (Proc.devRef .tc main_v16))) slices_S10000x32_S10000x16_0_16 := by
  show StableHlo.after hostOps2_1 (StableHlo.after hostOps2 (W5 m c)) (Proc.devRef .tc main_v31) = _
  after_results
  rw [W5_arg4, W5_arg6, W5_arg7]
  rfl

/-- The padded latent matrix. -/
theorem W7_v35 (c : Dev nD) :
    W7 m c (Proc.devRef .tc main_v35)
      = pad S10240x16 ![0, 0] ![240, 0] ![0, 0]
          (addf (W7 m c (Proc.devRef .tc main_v30)) (mulf (W0 m c (Proc.devRef .tc main_arg5)) (Host.exp (W7 m c (Proc.devRef .tc main_v31)))))
          (sitofp .f32 (constantI S_ 32 0#32)) pads_S10000x16_S10240x16_02400_000 h_S_ := by
  show StableHlo.after hostOps2_1 (StableHlo.after hostOps2 (W5 m c)) (Proc.devRef .tc main_v35)
      = pad S10240x16 ![0, 0] ![240, 0] ![0, 0]
          (addf (StableHlo.after hostOps2_1 (StableHlo.after hostOps2 (W5 m c)) (Proc.devRef .tc main_v30))
            (mulf (W0 m c (Proc.devRef .tc main_arg5))
              (Host.exp (StableHlo.after hostOps2_1 (StableHlo.after hostOps2 (W5 m c)) (Proc.devRef .tc main_v31)))))
          (sitofp .f32 (constantI S_ 32 0#32)) pads_S10000x16_S10240x16_02400_000 h_S_
  after_results_simp
  rw [W5_arg5]
  rfl

/-! ## The results -/

theorem W9_v30 (c : Dev nD) : W9 m c (Proc.devRef .tc main_v30) = W7 m c (Proc.devRef .tc main_v30) :=
  (StableHlo.after_of_writes_sub hostOps3 _ hostOps3_writes (r := main_v30) (by decide)).trans (W8_of_ne m c main_v30 (by decide))
theorem W9_v31 (c : Dev nD) : W9 m c (Proc.devRef .tc main_v31) = W7 m c (Proc.devRef .tc main_v31) :=
  (StableHlo.after_of_writes_sub hostOps3 _ hostOps3_writes (r := main_v31) (by decide)).trans (W8_of_ne m c main_v31 (by decide))
/-- The flattened crop of the tiled product. -/
theorem W9_v38 (c : Dev nD) :
    W9 m c (Proc.devRef .tc main_v38)
      = shapeCast S100000000 (extractStridedSlice S10000x10000 ![0, 0] ((dat2 (R7 m) c).arrAt 2 cfg2.N) slices_S10240x10240_S10000x10000_0_0)
          shapeCasts_S10000x10000_S100000000 := by
  show StableHlo.after hostOps3 (W8 m c) (Proc.devRef .tc main_v38) = _
  after_results
  rw [W8_out]
  rfl

end Cert.KernelIdeal.Hand

end
-- ==== Proof.KiFin0.lean ====
/-
  The first projection's result as a whole array. The grid walks the rows of the left matrix a thousand at a time;
  at each point the body multiplies a 1000 × 512 row block by the whole 512 × 32 right matrix and the product is
  written to the same thousand rows of the result. Two facts are joined here. Inside a block, entry (p, q) of the
  product is the sum over the 512 shared positions k of (row p of the block at k) times (the right matrix at (k, q)):
  no rounding on the extended reals, so the change of float format before the multiplication is the identity and
  the accumulator starts at zero. Across blocks, row i of the array lies in block i / 1000 at local row i % 1000,
  and the block's local row p at point t is row 1000·t + p of the left matrix; hence entry (i, j) of the result is
  the sum over k of left(i, k) · right(k, j), for every one of the 10000 rows.
-/
import proofs.«419466_j70042326663889_1_alg».proof.Proof.KiReg0
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## One block: the product at an entry -/

/-- The left operand's row coordinate is the output's row coordinate: axis 0 of the left operand is neither a batch
    axis nor the contracted one. -/
theorem lhs_blk0_0 (i : S1000x32.Idx) (q : dot_S1000x512_S512x32_S1000x32_1_0_0_1_n_n.contr.Idx) :
    (dot_S1000x512_S512x32_S1000x32_1_0_0_1_n_n.lhsIdx i q 0).val = (i 0).val := by
  unfold DotDims.lhsIdx
  rw [dif_neg (show ¬(0 : Fin S1000x512.rank) ∈ dot_S1000x512_S512x32_S1000x32_1_0_0_1_n_n.lhsBatch by decide), dif_pos (show (0 : Fin S1000x512.rank) ∈ dot_S1000x512_S512x32_S1000x32_1_0_0_1_n_n.lhsNonContracting by decide)]
  rfl
/-- The left operand's column coordinate is the contraction position. -/
theorem lhs_blk0_1 (i : S1000x32.Idx) (q : dot_S1000x512_S512x32_S1000x32_1_0_0_1_n_n.contr.Idx) :
    (dot_S1000x512_S512x32_S1000x32_1_0_0_1_n_n.lhsIdx i q 1).val = (q ⟨0, by decide⟩).val :=
  dot_S1000x512_S512x32_S1000x32_1_0_0_1_n_n.lhsIdx_val_of_single rfl i q
/-- The right operand's row coordinate is the contraction position. -/
theorem rhs_blk0_0 (i : S1000x32.Idx) (q : dot_S1000x512_S512x32_S1000x32_1_0_0_1_n_n.contr.Idx) :
    (dot_S1000x512_S512x32_S1000x32_1_0_0_1_n_n.rhsIdx i q 0).val = (q ⟨0, by decide⟩).val :=
  dot_S1000x512_S512x32_S1000x32_1_0_0_1_n_n.rhsIdx_val_of_single rfl i q
/-- The right operand's column coordinate is the output's column coordinate. -/
theorem rhs_blk0_1 (i : S1000x32.Idx) (q : dot_S1000x512_S512x32_S1000x32_1_0_0_1_n_n.contr.Idx) :
    (dot_S1000x512_S512x32_S1000x32_1_0_0_1_n_n.rhsIdx i q 1).val = (i 1).val := by
  unfold DotDims.rhsIdx
  rw [dif_neg (show ¬(1 : Fin S512x32.rank) ∈ dot_S1000x512_S512x32_S1000x32_1_0_0_1_n_n.rhsBatch by decide), dif_pos (show (1 : Fin S512x32.rank) ∈ dot_S1000x512_S512x32_S1000x32_1_0_0_1_n_n.rhsNonContracting by decide)]
  rfl

/-- Entry (p, q) of the block product: the sum over the 512 shared positions of left (p, k) times right (k, q). -/
theorem pay0_apply (x0 : Vec Ideal S1000x512 .f32) (x1 : Vec Ideal S512x32 .f32) (p : Fin 1000) (q : Fin 32) :
    k0_pay1 (F := Ideal) x0 x1 (ValueIdx.ix2 p q) = ∑ k : Fin 512, x0 (ValueIdx.ix2 p k) * x1 (ValueIdx.ix2 k q) := by
  unfold k0_pay1
  simp only [matmul]
  rw [Ideal.matmul_constant_zero_apply, ← Equiv.sum_comp (ValueIdx.contrEquiv1 dot_S1000x512_S512x32_S1000x32_1_0_0_1_n_n 512 rfl rfl).symm]
  refine Finset.sum_congr rfl fun k _ => ?_
  have hk := ValueIdx.contrEquiv1_symm_val dot_S1000x512_S512x32_S1000x32_1_0_0_1_n_n 512 rfl rfl k
  have el : dot_S1000x512_S512x32_S1000x32_1_0_0_1_n_n.lhsIdx (ValueIdx.ix2 p q) ((ValueIdx.contrEquiv1 dot_S1000x512_S512x32_S1000x32_1_0_0_1_n_n 512 rfl rfl).symm k) = ValueIdx.ix2 p k := funext fun a => Fin.ext (by
    match a with
    | ⟨0, _⟩ => exact lhs_blk0_0 _ _
    | ⟨1, _⟩ => exact (lhs_blk0_1 _ _).trans hk)
  have er : dot_S1000x512_S512x32_S1000x32_1_0_0_1_n_n.rhsIdx (ValueIdx.ix2 p q) ((ValueIdx.contrEquiv1 dot_S1000x512_S512x32_S1000x32_1_0_0_1_n_n 512 rfl rfl).symm k) = ValueIdx.ix2 k q := funext fun a => Fin.ext (by
    match a with
    | ⟨0, _⟩ => exact (rhs_blk0_0 _ _).trans hk
    | ⟨1, _⟩ => exact rhs_blk0_1 _ _)
  rw [truncf_apply, truncf_apply, el, er]

/-! ## All ten blocks: the whole array -/

variable (V : (c : Dev nD) → (b : Ref sig .tc) → Buf (Elt Ideal) ((c : Thread nD τ).loc b))

/-- The body's rectangles start at the origin, however the zeros are spelt. -/
theorem origin0 : (![0, 0] : Fin 2 → Nat) = fun _ => 0 := funext fun a => by fin_cases a <;> rfl

/-- The left matrix as the region finds it, 10000 × 512. -/
abbrev left0 (c : Dev nD) : Vec Ideal S10000x512 .f32 := V c main_arg0
/-- The right matrix as the region finds it, 512 × 32. -/
abbrev right0 (c : Dev nD) : Vec Ideal S512x32 .f32 := V c main_arg1

/-- The product of a 10000 × 512 matrix and a 512 × 32 one, entry by entry. -/
def prod0 (a : Vec Ideal S10000x512 .f32) (b : Vec Ideal S512x32 .f32) : Vec Ideal S10000x32 .f32 :=
  fun i => ∑ k : Fin 512, a (ValueIdx.ix2 (⟨(i 0).val, (i 0).isLt⟩ : Fin 10000) k) * b (ValueIdx.ix2 k (⟨(i 1).val, (i 1).isLt⟩ : Fin 32))

/-- Where the blocks sit: at point t the left and the result window are at row block t, column block 0; the right
    window is always at block (0, 0). -/
theorem where0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the left block at point t is entry (1000·t + p, k) of the left matrix. -/
theorem left_blk0 (c : Dev nD) (t : Fin cfg0.N) (p : Fin 1000) (k : Fin 512) (i : Fin 10000) (hi : i.val = 1000 * t.val + p.val) :
    (iblk0 V c 0 t : Vec Ideal S1000x512 .f32) (ValueIdx.ix2 p k) = left0 V c (ValueIdx.ix2 i k) := by
  obtain ⟨e0, e1, -⟩ := where0 t
  unfold iblk0
  rw [View.read_apply]
  show V c main_arg0 _ = V c main_arg0 _
  congr 1
  funext a
  apply Fin.ext
  match a with
  | ⟨0, _⟩ => show win0_0.index t (0 : Fin 2) * 1000 + 1 * p.val = i.val; rw [e0, hi]; omega
  | ⟨1, _⟩ => show win0_0.index t (1 : Fin 2) * 512 + 1 * k.val = k.val; rw [e1]; omega

/-- The right block at any point is the right matrix. -/
theorem right_blk0 (c : Dev nD) (t : Fin cfg0.N) (k : Fin 512) (q : Fin 32) :
    (iblk0 V c 1 t : Vec Ideal S512x32 .f32) (ValueIdx.ix2 k q) = right0 V c (ValueIdx.ix2 k q) := by
  obtain ⟨-, -, e0, e1, -⟩ := where0 t
  unfold iblk0
  rw [View.read_apply]
  show V c main_arg1 _ = V c main_arg1 _
  congr 1
  funext a
  apply Fin.ext
  match a with
  | ⟨0, _⟩ => show win0_1.index t (0 : Fin 2) * 512 + 1 * k.val = k.val; rw [e0]; omega
  | ⟨1, _⟩ => show win0_1.index t (1 : Fin 2) * 32 + 1 * q.val = q.val; rw [e1]; omega

/-- What point t writes back is block t of the product of the whole matrices. -/
theorem flushed0_eq (c : Dev nD) (t : Fin cfg0.N) :
    (dat0 V c).flushed 2 t = ((cfg0.win 2).blk t).view.read (Elt Ideal) (prod0 (left0 V c) (right0 V c)) := by
  show (cfg0.win 2).cut (grid0.coords t) ((dat0 V c).after 2 t) = _
  rw [after0_2]
  unfold out0_2
  rw [View.canon_unit_zero origin0]
  simp only [View.ld_unit_zero (S := S1000x512) origin0, View.ld_unit_zero (S := S512x32) origin0]
  obtain ⟨-, -, -, -, e0, e1⟩ := where0 t
  funext y
  obtain ⟨p, q, rfl⟩ : ∃ (p : Fin 1000) (q : Fin 32), y = ValueIdx.ix2 p q := ⟨y 0, y 1, ValueIdx.eq_ix2 y⟩
  have ht : t.val < 10 := t.isLt
  have hp : p.val < 1000 := p.isLt
  refine (pay0_apply (iblk0 V c 0 t) (iblk0 V c 1 t) p q).trans ?_
  rw [View.read_apply]
  unfold prod0
  refine Finset.sum_congr rfl fun k _ => ?_
  rw [left_blk0 V c t p k ⟨1000 * t.val + p.val, by omega⟩ rfl, right_blk0 V c t k q]
  have r0 : ((((cfg0.win 2).blk t).view.emb (ValueIdx.ix2 p q)) 0).val = 1000 * t.val + p.val := by
    show win0_2.index t (0 : Fin 2) * 1000 + 1 * p.val = _; rw [e0]; omega
  have r1 : ((((cfg0.win 2).blk t).view.emb (ValueIdx.ix2 p q)) 1).val = q.val := by
    show win0_2.index t (1 : Fin 2) * 32 + 1 * q.val = _; rw [e1]; omega
  exact congrArg₂ (· * ·)
    (congrArg (fun r : Fin 10000 => left0 V c (ValueIdx.ix2 r k)) (Fin.ext r0.symm))
    (congrArg (fun r : Fin 32 => right0 V c (ValueIdx.ix2 k r)) (Fin.ext r1.symm))

/-- An index of the result lies in point t's block exactly when each coordinate lies in the block's range. -/
theorem mem_blk0 (t : Fin cfg0.N) (i : S10000x32.Idx) :
    i ∈ ((cfg0.win 2).blk t).view.set ↔ ∀ a : Fin 2, win0_2.index t a * S1000x32.size a ≤ (i a).val ∧ (i a).val < win0_2.index t a * S1000x32.size a + S1000x32.size a := by
  show i ∈ ((View.whole main_v0).slice (win0_2.rect t)).set ↔ _
  rw [View.set_slice_whole, Rect.mem_set_unit]
  exact Iff.rfl

/-- Every row of the result is written: row r belongs to the block of point r / 1000, and every point writes back. -/
theorem cover0 (i : S10000x32.Idx) : ∃ t : Fin cfg0.N, (cfg0.win 2).flush t = true ∧ i ∈ ((cfg0.win 2).blk t).view.set := by
  have hi0 : (i 0).val < 10000 := (i 0).isLt
  have hi1 : (i 1).val < 32 := (i 1).isLt
  have hN : grid0.N = 10 := N_0
  refine ⟨⟨(i 0).val / 1000, by show (i 0).val / 1000 < grid0.N; omega⟩, flush0_2 _, ?_⟩
  obtain ⟨-, -, -, -, e0, e1⟩ := where0 ⟨(i 0).val / 1000, by show (i 0).val / 1000 < grid0.N; omega⟩
  rw [mem_blk0]
  intro a
  match a with
  | ⟨0, _⟩ =>
    show win0_2.index _ (0 : Fin 2) * 1000 ≤ (i 0).val ∧ (i 0).val < win0_2.index _ (0 : Fin 2) * 1000 + 1000
    rw [e0]; show (i 0).val / 1000 * 1000 ≤ (i 0).val ∧ (i 0).val < (i 0).val / 1000 * 1000 + 1000; omega
  | ⟨1, _⟩ =>
    show win0_2.index _ (1 : Fin 2) * 32 ≤ (i 1).val ∧ (i 1).val < win0_2.index _ (1 : Fin 2) * 32 + 32
    rw [e1]; omega

/-- The result array after the ten points: the product of the two matrices as the region found them. -/
theorem final0_arr (c : Dev nD) : (dat0 V c).arrAt 2 cfg0.N = prod0 (left0 V c) (right0 V c) :=
  (dat0 V c).arrAt_eq_of_cover 2 (prod0 (left0 V c) (right0 V c)) (fun t _ => flushed0_eq V c t) cover0

/-- The result array after the ten points, 10000 × 32. -/
abbrev arr0_out (c : Dev nD) : Vec Ideal S10000x32 .f32 := (dat0 (F := Ideal) V c).arrAt 2 cfg0.N

/-- Entry (i, j) of the result: the sum over the 512 shared positions of left (i, k) times right (k, j). -/
theorem final0 (c : Dev nD) (i : Fin 10000) (j : Fin 32) :
    arr0_out V c (ValueIdx.ix2 i j) = ∑ k : Fin 512, left0 V c (ValueIdx.ix2 i k) * right0 V c (ValueIdx.ix2 k j) := by
  show (dat0 (F := Ideal) V c).arrAt 2 cfg0.N (ValueIdx.ix2 i j) = _
  rw [final0_arr]
  rfl

end Cert.KernelIdeal.Hand

end
-- ==== Proof.KiFin1.lean ====
/-
  The second projection as a whole-array fact. The body of this pipeline multiplies a 2000 × 32 block of rows by a
  32 × 32 matrix; over the extended reals, where narrowing to the sixteen-bit format changes nothing and the matrix
  unit adds exact products into an accumulator that starts at zero, entry (p, q) of what it stores is the plain sum
  over k of (row p of the block at k) times (the matrix at (k, q)). The five blocks of rows tile the 10000 rows, so the
  result array, read at (i, j), is the sum over k of the activation at (i, k) times the weight at (k, j).
-/
import proofs.«419466_j70042326663889_1_alg».proof.Proof.KiReg1
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

/-! ## The product's operand indices

  For a rows-by-columns product with no batch axis, output index (p, q) and contraction index k read the left
  operand at (p, k) and the right operand at (k, q). One fact per operand and axis. -/

theorem lhs_k1_0 (i : S2000x32.Idx) (q : dot_S2000x32_S32x32_S2000x32_1_0_0_1_n_n.contr.Idx) :
    (dot_S2000x32_S32x32_S2000x32_1_0_0_1_n_n.lhsIdx i q 0).val = (i 0).val := by
  unfold DotDims.lhsIdx
  rw [dif_neg (show ¬(0 : Fin S2000x32.rank) ∈ dot_S2000x32_S32x32_S2000x32_1_0_0_1_n_n.lhsBatch by decide), dif_pos (show (0 : Fin S2000x32.rank) ∈ dot_S2000x32_S32x32_S2000x32_1_0_0_1_n_n.lhsNonContracting by decide)]
  rfl
theorem lhs_k1_1 (i : S2000x32.Idx) (q : dot_S2000x32_S32x32_S2000x32_1_0_0_1_n_n.contr.Idx) :
    (dot_S2000x32_S32x32_S2000x32_1_0_0_1_n_n.lhsIdx i q 1).val = (q ⟨0, by decide⟩).val :=
  dot_S2000x32_S32x32_S2000x32_1_0_0_1_n_n.lhsIdx_val_of_single rfl i q
theorem rhs_k1_0 (i : S2000x32.Idx) (q : dot_S2000x32_S32x32_S2000x32_1_0_0_1_n_n.contr.Idx) :
    (dot_S2000x32_S32x32_S2000x32_1_0_0_1_n_n.rhsIdx i q 0).val = (q ⟨0, by decide⟩).val :=
  dot_S2000x32_S32x32_S2000x32_1_0_0_1_n_n.rhsIdx_val_of_single rfl i q
theorem rhs_k1_1 (i : S2000x32.Idx) (q : dot_S2000x32_S32x32_S2000x32_1_0_0_1_n_n.contr.Idx) :
    (dot_S2000x32_S32x32_S2000x32_1_0_0_1_n_n.rhsIdx i q 1).val = (i 1).val := by
  unfold DotDims.rhsIdx
  rw [dif_neg (show ¬(1 : Fin S32x32.rank) ∈ dot_S2000x32_S32x32_S2000x32_1_0_0_1_n_n.rhsBatch by decide), dif_pos (show (1 : Fin S32x32.rank) ∈ dot_S2000x32_S32x32_S2000x32_1_0_0_1_n_n.rhsNonContracting by decide)]
  rfl

/-! ## The body's stored value at an index -/

/-- Entry (p, q) of the block product: the two reshapes are to the shape already there, the two narrowings are the
    identity on extended reals, and the product into a zero accumulator is the sum of the 32 products along the
    shared axis. -/
theorem pay1_apply (x0 : Vec Ideal S2000x32 .f32) (x1 : Vec Ideal S32x32 .f32) (p : Fin 2000) (q : Fin 32) :
    k1_pay1 (F := Ideal) x0 x1 (ValueIdx.ix2 p q) = ∑ k : Fin 32, x0 (ValueIdx.ix2 p k) * x1 (ValueIdx.ix2 k q) := by
  unfold k1_pay1
  simp only [shapeCast_self, matmul]
  rw [Ideal.matmul_constant_zero_apply, ← Equiv.sum_comp (ValueIdx.contrEquiv1 dot_S2000x32_S32x32_S2000x32_1_0_0_1_n_n 32 rfl rfl).symm]
  refine Finset.sum_congr rfl fun k _ => ?_
  have hk := ValueIdx.contrEquiv1_symm_val dot_S2000x32_S32x32_S2000x32_1_0_0_1_n_n 32 rfl rfl k
  have el : dot_S2000x32_S32x32_S2000x32_1_0_0_1_n_n.lhsIdx (ValueIdx.ix2 p q) ((ValueIdx.contrEquiv1 dot_S2000x32_S32x32_S2000x32_1_0_0_1_n_n 32 rfl rfl).symm k) = ValueIdx.ix2 p k := funext fun a => Fin.ext (by
    match a with
    | ⟨0, _⟩ => exact lhs_k1_0 _ _
    | ⟨1, _⟩ => exact (lhs_k1_1 _ _).trans hk)
  have er : dot_S2000x32_S32x32_S2000x32_1_0_0_1_n_n.rhsIdx (ValueIdx.ix2 p q) ((ValueIdx.contrEquiv1 dot_S2000x32_S32x32_S2000x32_1_0_0_1_n_n 32 rfl rfl).symm k) = ValueIdx.ix2 k q := funext fun a => Fin.ext (by
    match a with
    | ⟨0, _⟩ => exact (rhs_k1_0 _ _).trans hk
    | ⟨1, _⟩ => exact rhs_k1_1 _ _)
  rw [el, er]
  rfl

/-! ## The whole product, and a block of it -/

/-- The 10000 × 32 product of a 10000 × 32 matrix with a 32 × 32 one, entry by entry. -/
def prod1 (X : Vec Ideal S10000x32 .f32) (W : Vec Ideal S32x32 .f32) : Vec Ideal S10000x32 .f32 :=
  fun i => ∑ k : Fin 32, X (ValueIdx.ix2 (i 0) k) * W (ValueIdx.ix2 k (i 1))

/-- If row (y 0) of a 2000-row block x0 is row (i 0) of the big matrix X, and column (y 1) of the small matrix x1 is
    column (i 1) of W, then the block product at y is the whole product at i. -/
theorem blk1_at (x0 : Vec Ideal S2000x32 .f32) (x1 : Vec Ideal S32x32 .f32) (X : Vec Ideal S10000x32 .f32) (W : Vec Ideal S32x32 .f32)
    (y : S2000x32.Idx) (i : S10000x32.Idx)
    (hx0 : ∀ k : Fin 32, x0 (ValueIdx.ix2 (y 0) k) = X (ValueIdx.ix2 (i 0) k))
    (hx1 : ∀ k : Fin 32, x1 (ValueIdx.ix2 k (y 1)) = W (ValueIdx.ix2 k (i 1))) :
    k1_pay1 (F := Ideal) x0 x1 y = prod1 X W i := by
  obtain ⟨p, q, rfl⟩ : ∃ (p : Fin 2000) (q : Fin 32), y = ValueIdx.ix2 p q := ⟨y 0, y 1, ValueIdx.eq_ix2 y⟩
  rw [pay1_apply]
  unfold prod1
  exact Finset.sum_congr rfl fun k _ => congr (congrArg _ (hx0 k)) (hx1 k)

/-! ## The windows' blocks inside their arrays -/

variable (V : (c : Dev nD) → (b : Ref sig .tc) → Buf (Elt Ideal) ((c : Thread nD τ).loc b))

theorem hz1 : (![0, 0] : Fin 2 → Nat) = fun _ => 0 := funext fun a => by fin_cases a <;> rfl

/-- The block indices of the three windows at point t, decided over the five points: the activations' and the
    result's windows sit on row block t, column block 0; the weights' window never leaves block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry y of the activations' block at point t is entry (2000·t + y 0, y 1) of the activation matrix. -/
theorem iblk1_0_apply (c : Dev nD) (t : Fin cfg1.N) (y : S2000x32.Idx) (i : S10000x32.Idx)
    (h0 : (i 0).val = 2000 * t.val + (y 0).val) (h1 : (i 1).val = (y 1).val) :
    (iblk1 V c 0 t : Vec Ideal S2000x32 .f32) y = (V c main_v14 : Vec Ideal S10000x32 .f32) i := by
  obtain ⟨e0, e1, -⟩ := idx1 t
  unfold iblk1
  rw [View.read_apply]
  show V c main_v14 _ = V c main_v14 _
  congr 1
  funext a
  apply Fin.ext
  match a with
  | ⟨0, _⟩ => show win1_0.index t (0 : Fin 2) * 2000 + 1 * (y 0).val = (i 0).val; rw [e0, h0]; omega
  | ⟨1, _⟩ => show win1_0.index t (1 : Fin 2) * 32 + 1 * (y 1).val = (i 1).val; rw [e1, h1]; omega

/-- The weights' block at any point is the weight matrix. -/
theorem iblk1_1_apply (c : Dev nD) (t : Fin cfg1.N) (y : S32x32.Idx) (i : S32x32.Idx)
    (h0 : (i 0).val = (y 0).val) (h1 : (i 1).val = (y 1).val) :
    (iblk1 V c 1 t : Vec Ideal S32x32 .f32) y = (V c main_v15 : Vec Ideal S32x32 .f32) i := by
  obtain ⟨-, -, e2, e3, -⟩ := idx1 t
  unfold iblk1
  rw [View.read_apply]
  show V c main_v15 _ = V c main_v15 _
  congr 1
  funext a
  apply Fin.ext
  match a with
  | ⟨0, _⟩ => show win1_1.index t (0 : Fin 2) * 32 + 1 * (y 0).val = (i 0).val; rw [e2, h0]; omega
  | ⟨1, _⟩ => show win1_1.index t (1 : Fin 2) * 32 + 1 * (y 1).val = (i 1).val; rw [e3, h1]; omega

/-! ## From the blocks to the array -/

/-- What point t writes back is block t of the whole product of the two arrays as the region finds them. -/
theorem flushed1_eq (c : Dev nD) (t : Fin cfg1.N) :
    (dat1 (F := Ideal) V c).flushed 2 t
      = ((cfg1.win 2).blk t).view.read (Elt Ideal) (prod1 (V c main_v14) (V c main_v15)) := by
  show (cfg1.win 2).cut (grid1.coords t) ((dat1 (F := Ideal) V c).after 2 t) = _
  rw [after1_2]
  unfold out1_2
  rw [View.canon_unit_zero hz1]
  simp only [View.ld_unit_zero (S := S2000x32) hz1, View.ld_unit_zero (S := S32x32) hz1]
  obtain ⟨-, -, -, -, e4, e5⟩ := idx1 t
  funext y
  show k1_pay1 (F := Ideal) (iblk1 V c 0 t) (iblk1 V c 1 t) y
    = prod1 (V c main_v14) (V c main_v15) (((cfg1.win 2).blk t).view.emb y)
  refine blk1_at _ _ _ _ y _ (fun k => ?_) (fun k => ?_)
  · refine iblk1_0_apply V c t _ _ ?_ rfl
    show win1_2.index t (0 : Fin 2) * 2000 + 1 * (y 0).val = 2000 * t.val + (y 0).val
    rw [e4]; omega
  · refine iblk1_1_apply V c t _ _ rfl ?_
    show win1_2.index t (1 : Fin 2) * 32 + 1 * (y 1).val = (y 1).val
    rw [e5]; omega

/-- An index of the result lies in point t's block exactly when each coordinate lies in the block's range. -/
theorem mem_blk1 (t : Fin cfg1.N) (i : S10000x32.Idx) :
    i ∈ ((cfg1.win 2).blk t).view.set ↔ ∀ a : Fin 2, win1_2.index t a * S2000x32.size a ≤ (i a).val ∧ (i a).val < win1_2.index t a * S2000x32.size a + S2000x32.size a := by
  show i ∈ ((View.whole main_v16).slice (win1_2.rect t)).set ↔ _
  rw [View.set_slice_whole, Rect.mem_set_unit]
  exact Iff.rfl

/-- Row r of the result is written by point r / 2000: the five row blocks tile the 10000 rows. -/
theorem cover1 (i : S10000x32.Idx) :
    ∃ t : Fin cfg1.N, (cfg1.win 2).flush t = true ∧ i ∈ ((cfg1.win 2).blk t).view.set := by
  have hi0 : (i 0).val < 10000 := (i 0).isLt
  have hi1 : (i 1).val < 32 := (i 1).isLt
  have hN : cfg1.N = 5 := N_1
  obtain ⟨t, ht⟩ : ∃ t : Fin cfg1.N, t.val = (i 0).val / 2000 := ⟨⟨(i 0).val / 2000, by rw [hN]; omega⟩, rfl⟩
  obtain ⟨-, -, -, -, e4, e5⟩ := idx1 t
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; rw [e4, ht]; omega
  | ⟨1, _⟩ => show win1_2.index t (1 : Fin 2) * 32 ≤ (i 1).val ∧ (i 1).val < win1_2.index t (1 : Fin 2) * 32 + 32; rw [e5]; omega

/-- So after the five points the result array is the whole product. -/
theorem out1_eq (c : Dev nD) :
    (dat1 (F := Ideal) V c).arrAt 2 cfg1.N = prod1 (V c main_v14) (V c main_v15) :=
  (dat1 (F := Ideal) V c).arrAt_eq_of_cover 2 (prod1 (V c main_v14) (V c main_v15)) (fun t _ => flushed1_eq V c t) cover1

/-- The three arrays of this pipeline under their literal types: the result after the last point, and the two inputs
    as the region finds them. -/
abbrev arr1_out (c : Dev nD) : Vec Ideal S10000x32 .f32 := (dat1 (F := Ideal) V c).arrAt 2 cfg1.N
abbrev arr1_act (c : Dev nD) : Vec Ideal S10000x32 .f32 := V c main_v14
abbrev arr1_wt (c : Dev nD) : Vec Ideal S32x32 .f32 := V c main_v15

/-- The result at (i, j) is the sum over k of the activation at (i, k) times the weight at (k, j). -/
theorem final1 (c : Dev nD) (i : Fin 10000) (j : Fin 32) :
    arr1_out V c (ValueIdx.ix2 i j) = ∑ k : Fin 32, arr1_act V c (ValueIdx.ix2 i k) * arr1_wt V c (ValueIdx.ix2 k j) :=
  congrFun (out1_eq V c) (ValueIdx.ix2 i j)

end Cert.KernelIdeal.Hand

end
-- ==== Proof.KiFin2.lean ====
/-
  The decoder's result, entry by entry. The third pipeline walks a 10 × 10 grid of 1024 × 1024 tiles of the
  10240 × 10240 result; at grid point (a, b) the body multiplies rows 1024·a … 1024·a + 1023 of the latent matrix Z
  (10240 rows of 16) by the transpose of rows 1024·b … 1024·b + 1023 of the same matrix. With exact arithmetic the
  product of a 1024 × 16 block X by the transpose of a 1024 × 16 block Y has entry (p, q) equal to Σ_k X[p, k] · Y[q, k];
  entry (p, q) of tile (a, b) is entry (1024·a + p, 1024·b + q) of the result, and rows p of block a and q of block b are
  rows 1024·a + p and 1024·b + q of Z. So every tile is the matching tile of ONE function of Z, the Gram matrix
  G[i, j] = Σ_k Z[i, k] · Z[j, k], the tiles cover the result, and the result array ends holding G.
-/
import proofs.«419466_j70042326663889_1_alg».proof.Proof.KiReg2
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

/-! ## One tile: the product of a row block with the transpose of another, at an entry -/

/-- The contraction's left operand is read at the result's row … -/
theorem lhs_tile_0 (i : S1024x1024.Idx) (q : dot_S1024x16_S16x1024_S1024x1024_1_0_0_1_n_n.contr.Idx) :
    (dot_S1024x16_S16x1024_S1024x1024_1_0_0_1_n_n.lhsIdx i q 0).val = (i 0).val := by
  unfold DotDims.lhsIdx
  rw [dif_neg (show ¬(0 : Fin S1024x16.rank) ∈ dot_S1024x16_S16x1024_S1024x1024_1_0_0_1_n_n.lhsBatch by decide), dif_pos (show (0 : Fin S1024x16.rank) ∈ dot_S1024x16_S16x1024_S1024x1024_1_0_0_1_n_n.lhsNonContracting by decide)]
  rfl
/-- … and the contracted column; -/
theorem lhs_tile_1 (i : S1024x1024.Idx) (q : dot_S1024x16_S16x1024_S1024x1024_1_0_0_1_n_n.contr.Idx) :
    (dot_S1024x16_S16x1024_S1024x1024_1_0_0_1_n_n.lhsIdx i q 1).val = (q ⟨0, by decide⟩).val :=
  dot_S1024x16_S16x1024_S1024x1024_1_0_0_1_n_n.lhsIdx_val_of_single rfl i q
/-- the right operand at the contracted row … -/
theorem rhs_tile_0 (i : S1024x1024.Idx) (q : dot_S1024x16_S16x1024_S1024x1024_1_0_0_1_n_n.contr.Idx) :
    (dot_S1024x16_S16x1024_S1024x1024_1_0_0_1_n_n.rhsIdx i q 0).val = (q ⟨0, by decide⟩).val :=
  dot_S1024x16_S16x1024_S1024x1024_1_0_0_1_n_n.rhsIdx_val_of_single rfl i q
/-- … and the result's column. -/
theorem rhs_tile_1 (i : S1024x1024.Idx) (q : dot_S1024x16_S16x1024_S1024x1024_1_0_0_1_n_n.contr.Idx) :
    (dot_S1024x16_S16x1024_S1024x1024_1_0_0_1_n_n.rhsIdx i q 1).val = (i 1).val := by
  unfold DotDims.rhsIdx
  rw [dif_neg (show ¬(1 : Fin S16x1024.rank) ∈ dot_S1024x16_S16x1024_S1024x1024_1_0_0_1_n_n.rhsBatch by decide), dif_pos (show (1 : Fin S16x1024.rank) ∈ dot_S1024x16_S16x1024_S1024x1024_1_0_0_1_n_n.rhsNonContracting by decide)]
  rfl

/-- Entry (p, q) of the body's tile: the shape casts and the narrowing are the identity on exact values, the
    transposed second block read at (k, q) is the block at (q, k), and the product into zero is the sum over the 16
    columns: Σ_k X[p, k] · Y[q, k]. -/
theorem pay2_apply (x0 x1 : Vec Ideal S1024x16 .f32) (p q : Fin 1024) :
    k2_pay1 (F := Ideal) x0 x1 (ValueIdx.ix2 p q) = ∑ k : Fin 16, x0 (ValueIdx.ix2 p k) * x1 (ValueIdx.ix2 q k) := by
  unfold k2_pay1
  simp only [shapeCast_self, matmul]
  rw [Ideal.matmul_constant_zero_apply, ← Equiv.sum_comp (ValueIdx.contrEquiv1 dot_S1024x16_S16x1024_S1024x1024_1_0_0_1_n_n 16 rfl rfl).symm]
  refine Finset.sum_congr rfl fun k _ => ?_
  have hk := ValueIdx.contrEquiv1_symm_val dot_S1024x16_S16x1024_S1024x1024_1_0_0_1_n_n 16 rfl rfl k
  have el : dot_S1024x16_S16x1024_S1024x1024_1_0_0_1_n_n.lhsIdx (ValueIdx.ix2 p q) ((ValueIdx.contrEquiv1 dot_S1024x16_S16x1024_S1024x1024_1_0_0_1_n_n 16 rfl rfl).symm k) = ValueIdx.ix2 p k := funext fun a => Fin.ext (by
    match a with
    | ⟨0, _⟩ => exact lhs_tile_0 _ _
    | ⟨1, _⟩ => exact (lhs_tile_1 _ _).trans hk)
  have er : dot_S1024x16_S16x1024_S1024x1024_1_0_0_1_n_n.rhsIdx (ValueIdx.ix2 p q) ((ValueIdx.contrEquiv1 dot_S1024x16_S16x1024_S1024x1024_1_0_0_1_n_n 16 rfl rfl).symm k) = ValueIdx.ix2 k q := funext fun a => Fin.ext (by
    match a with
    | ⟨0, _⟩ => exact (rhs_tile_0 _ _).trans hk
    | ⟨1, _⟩ => exact rhs_tile_1 _ _)
  rw [el, er, ValueIdx.truncf_apply]
  rw [transpose_apply [1, 0] _ transposes_S1024x16_p1_0_S16x1024 (ValueIdx.ix2 k q) (ValueIdx.ix2 q k) (fun b => match b with
    | ⟨0, _⟩ => rfl
    | ⟨1, _⟩ => rfl)]
  rfl

/-- The same at any index of the tile, its two coordinates taken as numbers below 1024. -/
theorem pay2_at (x0 x1 : Vec Ideal S1024x16 .f32) (z : S1024x1024.Idx) :
    k2_pay1 (F := Ideal) x0 x1 z = ∑ k : Fin 16, x0 (ValueIdx.ix2 (n0 := 1024) ⟨(z 0).val, (z 0).isLt⟩ k) * x1 (ValueIdx.ix2 (n0 := 1024) ⟨(z 1).val, (z 1).isLt⟩ k) := by
  obtain ⟨p, q, rfl⟩ : ∃ (p q : Fin 1024), z = ValueIdx.ix2 p q := ⟨z 0, z 1, ValueIdx.eq_ix2 z⟩
  exact pay2_apply x0 x1 p q

/-! ## From tiles to the array -/

variable (V : (c : Dev nD) → (b : Ref sig .tc) → Buf (Elt Ideal) ((c : Thread nD τ).loc b))

/-- The latent matrix Z as the region finds it on core c, at its literal type. -/
abbrev lat2 (c : Dev nD) : Vec Ideal S10240x16 .f32 := V c main_v35

/-- The result array after the pipeline's last point, at its literal type. -/
abbrev arr2_out (c : Dev nD) : Vec Ideal S10240x10240 .f32 := (dat2 V c).arrAt 2 cfg2.N

/-- Its Gram matrix: G[i, j] = Σ_k Z[i, k] · Z[j, k]. -/
def gram2 (c : Dev nD) : Vec Ideal S10240x10240 .f32 := fun y =>
  ∑ k : Fin 16, lat2 V c (ValueIdx.ix2 (n0 := 10240) ⟨(y 0).val, (y 0).isLt⟩ k) * lat2 V c (ValueIdx.ix2 (n0 := 10240) ⟨(y 1).val, (y 1).isLt⟩ k)

theorem hz2 : (![0, 0] : Fin 2 → Nat) = fun _ => 0 := funext fun a => by fin_cases a <;> rfl

/-- The block indices over the grid, in closed form: point t is (a, b) = (t / 10, t % 10); the first window is on row
    block a, the second on row block b, the result's on tile (a, b). -/
theorem idx2 : ∀ t : Fin cfg2.N, win2_0.index t (0 : Fin 2) = t.val / 10 ∧ win2_0.index t (1 : Fin 2) = 0
    ∧ win2_1.index t (0 : Fin 2) = t.val % 10 ∧ win2_1.index t (1 : Fin 2) = 0
    ∧ win2_2.index t (0 : Fin 2) = t.val / 10 ∧ win2_2.index t (1 : Fin 2) = t.val % 10 :=
  (by decide +kernel : ∀ t : Fin grid2.N, _)

/-- Row z of the first window's block at point t is row 1024·(t / 10) + z of Z. -/
theorem rows2_0 (c : Dev nD) (t : Fin cfg2.N) (z : S1024x16.Idx) (r : S10240x16.Idx)
    (h0 : (r 0).val = t.val / 10 * 1024 + (z 0).val) (h1 : (r 1).val = (z 1).val) :
    (iblk2 V c 0 t : Vec Ideal S1024x16 .f32) z = lat2 V c r := by
  obtain ⟨e0, e1, -⟩ := idx2 t
  unfold iblk2
  rw [View.read_apply]
  show V c main_v35 _ = V c main_v35 _
  congr 1
  funext a
  apply Fin.ext
  match a with
  | ⟨0, _⟩ => show win2_0.index t (0 : Fin 2) * 1024 + 1 * (z 0).val = (r 0).val; omega
  | ⟨1, _⟩ => show win2_0.index t (1 : Fin 2) * 16 + 1 * (z 1).val = (r 1).val; omega

/-- Row z of the second window's block at point t is row 1024·(t % 10) + z of Z. -/
theorem rows2_1 (c : Dev nD) (t : Fin cfg2.N) (z : S1024x16.Idx) (r : S10240x16.Idx)
    (h0 : (r 0).val = t.val % 10 * 1024 + (z 0).val) (h1 : (r 1).val = (z 1).val) :
    (iblk2 V c 1 t : Vec Ideal S1024x16 .f32) z = lat2 V c r := by
  obtain ⟨-, -, e2, e3, -⟩ := idx2 t
  unfold iblk2
  rw [View.read_apply]
  show V c main_v35 _ = V c main_v35 _
  congr 1
  funext a
  apply Fin.ext
  match a with
  | ⟨0, _⟩ => show win2_1.index t (0 : Fin 2) * 1024 + 1 * (z 0).val = (r 0).val; omega
  | ⟨1, _⟩ => show win2_1.index t (1 : Fin 2) * 16 + 1 * (z 1).val = (r 1).val; omega

/-- What point t writes back is tile t of the Gram matrix. -/
theorem flushed2_tile (c : Dev nD) (t : Fin cfg2.N) :
    (dat2 V c).flushed 2 t = ((cfg2.win 2).blk t).view.read (Elt Ideal) (gram2 V c) := by
  show (cfg2.win 2).cut (grid2.coords t) ((dat2 V c).after 2 t) = _
  rw [after2_2]
  unfold out2_2
  rw [View.canon_unit_zero hz2]
  simp only [View.ld_unit_zero (S := S1024x16) hz2]
  obtain ⟨-, -, -, -, e4, e5⟩ := idx2 t
  funext y
  rw [View.read_apply]
  refine (pay2_at (iblk2 V c 0 t) (iblk2 V c 1 t) ((cfg2.win 2).xinj (grid2.coords t) y)).trans ?_
  show _ = gram2 V c (((cfg2.win 2).blk t).view.emb y)
  unfold gram2
  refine Finset.sum_congr rfl fun k _ => ?_
  have hy0 : (y 0).val < 1024 := (y 0).isLt
  have hy1 : (y 1).val < 1024 := (y 1).isLt
  refine congrArg₂ (· * ·) (rows2_0 V c t _ _ ?_ rfl) (rows2_1 V c t _ _ ?_ rfl)
  · show win2_2.index t (0 : Fin 2) * 1024 + 1 * (y 0).val = t.val / 10 * 1024 + (y 0).val; omega
  · show win2_2.index t (1 : Fin 2) * 1024 + 1 * (y 1).val = t.val % 10 * 1024 + (y 1).val; omega

/-- An index of the result is in point t's tile iff each coordinate is in the tile's range on its axis. -/
theorem mem_tile2 (t : Fin cfg2.N) (i : S10240x10240.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v36).slice (win2_2.rect t)).set ↔ _
  rw [View.set_slice_whole, Rect.mem_set_unit]
  exact Iff.rfl

/-- The tiles cover the result: entry (i, j) is in the tile of point 10·(i / 1024) + j / 1024. -/
theorem cover2 (i : S10240x10240.Idx) : ∃ t : Fin cfg2.N, (cfg2.win 2).flush t = true ∧ i ∈ ((cfg2.win 2).blk t).view.set := by
  have h0 : (i 0).val < 10240 := (i 0).isLt
  have h1 : (i 1).val < 10240 := (i 1).isLt
  have hN : grid2.N = 100 := N_2
  obtain ⟨t, tv⟩ : ∃ t : Fin cfg2.N, t.val = (i 0).val / 1024 * 10 + (i 1).val / 1024 :=
    ⟨⟨(i 0).val / 1024 * 10 + (i 1).val / 1024, by show _ < grid2.N; rw [hN]; omega⟩, rfl⟩
  obtain ⟨-, -, -, -, e4, e5⟩ := idx2 t
  refine ⟨t, flush2_2 t, ?_⟩
  rw [mem_tile2]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 1024 ≤ (i 1).val ∧ (i 1).val < win2_2.index t (1 : Fin 2) * 1024 + 1024; omega

/-- The result array after the pipeline is the Gram matrix of Z. -/
theorem arr2_eq (c : Dev nD) : (dat2 V c).arrAt 2 cfg2.N = gram2 V c :=
  (dat2 V c).arrAt_eq_of_cover 2 (gram2 V c) (fun t _ => flushed2_tile V c t) cover2

/-- Entry (i, j) of the result: Σ_k Z[i, k] · Z[j, k]. -/
theorem final2 (c : Dev nD) (i j : Fin 10240) :
    arr2_out V c (ValueIdx.ix2 i j) = ∑ k : Fin 16, lat2 V c (ValueIdx.ix2 i k) * lat2 V c (ValueIdx.ix2 j k) := by
  show (dat2 V c).arrAt 2 cfg2.N (ValueIdx.ix2 i j) = _
  rw [arr2_eq]
  rfl

end Cert.KernelIdeal.Hand

end
-- ==== Proof.LibGatherScatter.lean ====
/-
  The three index operations of one graph-convolution layer, READ AT AN INDEX, over generic extents: `N` rows (nodes),
  `E` start indices (edges), rows of width `D`.

  * the row gather `[N, D] → [E, D]` at a column `[E, 1]` of start indices (`gathD`): result `(e, q)` is the
    operand at `(row (idx (e, 0)), q)`;
  * the entry gather `[N] → [E]` at the same column (`gath1`): result `e` is the operand at `row (idx (e, 0))`;
    `row` is ONE function of the index word for both: the word read signed and clamped into `[0, N − 1]`;
  * the accumulating scatter `[E, D] → [N, D]` (`scatD`) and `[E] → [N]` (`scat1`) at a column of scatter indices:
    update `(e, q')` lands on `(i, q)` exactly when `q' = q` and the index word of `e`, read signed and NOT clamped,
    is `i`; hence at the ideal instance the scatter's value at `(i, q)` is the operand's plus the sum, over the edges
    `e` whose word is `i`, of the updates `(e, q)`.

  The dimension-number records are written out here with their well-formedness as an argument, so that a program's own
  record of the same fields is one of these by unfolding.
-/
import Idealize.ShloMosaic.PureOps.Ideal
import Idealize.ShloMosaic.Lib.ValueIdx

open scoped BigOperators

namespace Cert.Proof.GS

open Idealize.ShloMosaic Idealize.ShloMosaic.ValueIdx

/-! ## The records -/

/-- Row gather: operand `[N, D]`, start indices `[E, 1]`, result `[E, D]`; axis 0 collapsed and start-indexed, axis 1
    an offset axis of full width. -/
abbrev gathD (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry gather: operand `[N]`, start indices `[E, 1]`, result `[E]`; the one axis collapsed and start-indexed. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Row scatter: operand `[N, D]`, scatter indices `[E, 1]`, updates `[E, D]`; axis 0 inserted and scatter-indexed,
    axis 1 the window. -/
abbrev scatD (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Entry scatter: operand `[N]`, scatter indices `[E, 1]`, updates `[E]`; no window. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The gathers at an index -/

/-- The row a gather reads for an index word: the word as a signed integer, clamped into `[0, N − 1]` (a negative
    word reads row 0, a word past the end the last row). -/
def row {N : Nat} (hN : 0 < N) {w : Nat} (b : BitVec w) : Fin N := ⟨min b.toInt.toNat (N - 1), by omega⟩

/-- A word whose signed value is a row number is sent to that row: the clamp leaves it alone. -/
theorem row_of_toInt {N : Nat} (hN : 0 < N) {w : Nat} (b : BitVec w) (i : Fin N) (h : b.toInt = (i.val : Int)) :
    row hN b = i := by
  refine Fin.ext ?_
  show min b.toInt.toNat (N - 1) = i.val
  rw [h, Int.toNat_natCast]
  have := i.isLt
  omega

variable {α : Type}

/-- THE ROW GATHER AT `(e, q)`: the operand at row `row (idx (e, 0))`, column `q`. On axis 0 (collapsed, no batching)
    the operand coordinate is the clamped start; on axis 1 (not start-indexed) it is the offset coordinate `q`. -/
theorem gather_gathD_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (gathD N E D wf) x idx (ix2 e q) = x (ix2 (row hN (idx (ix2 e (0 : Fin 1)))) q) := by
  unfold Host.gather
  congr 1
  funext a
  refine Fin.ext ?_
  match a with
  | ⟨0, _⟩ =>
    show (gathD N E D wf).start (ix2 e q) idx 0 + (gathD N E D wf).batchCoord (ix2 e q) 0
      + (gathD N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gathD N E D wf).startIndexMap from List.mem_singleton.mpr rfl)]
    show min (idx _).toInt.toNat (N - 1) = min (idx (ix2 e (0 : Fin 1))).toInt.toNat (N - 1)
    congr 3
    congr 1
    funext b
    refine Fin.ext ?_
    match b with
    | ⟨0, _⟩ => rfl
    | ⟨1, _⟩ => rfl
  | ⟨1, _⟩ =>
    show (gathD N E D wf).start (ix2 e q) idx 1 + (gathD N E D wf).batchCoord (ix2 e q) 1
      + (gathD N E D wf).offCoord (ix2 e q) 1 = q.val
    rw [GatherDims.batchCoord_eq_zero _ _ _ List.not_mem_nil]
    have h1 : (1 : Fin 2) ∉ (gathD N E D wf).startIndexMap :=
      show (1 : Fin 2) ∉ ([0] : List (Fin 2)) by decide
    have hk : (1 : Fin 2) ∈ (gathD N E D wf).sKept :=
      (GatherDims.mem_sKept _ _).mpr ⟨show (1 : Fin 2) ∉ ([0] : List (Fin 2)) by decide, List.not_mem_nil⟩
    unfold GatherDims.start GatherDims.offCoord
    rw [dif_neg h1, dif_pos hk]
    simp only [Nat.zero_add]
    rfl

/-- THE ENTRY GATHER AT `e`: the operand at `row (idx (e, 0))`, the same row the row gather reads for that edge. -/
theorem gather_gath1_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (gath1 N E wf) v idx (ix1 e) = v (ix1 (row hN (idx (ix2 e (0 : Fin 1))))) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ (gath1 N E wf).startIndexMap from List.mem_singleton.mpr rfl)]
  show min (idx _).toInt.toNat (N - 1) = min (idx (ix2 e (0 : Fin 1))).toInt.toNat (N - 1)
  congr 3
  congr 1
  funext b
  refine Fin.ext ?_
  match b with
  | ⟨0, _⟩ => rfl
  | ⟨1, _⟩ => rfl

/-! ## Where a scattered update lands -/

/-- For any scatter: an update lands on operand index `r` exactly when, on every axis, its signed start plus its
    window coordinate is `r`'s coordinate (if the sum leaves the operand on some axis the update is dropped, and no
    `r` has that coordinate). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro hh a
      have := congrFun (Option.some.inj hh) a
      rw [← this]
      exact (Int.toNat_of_nonneg (h a).1).symm
    · intro hall
      congr 1
      funext a
      refine Fin.ext ?_
      show (d.start j idx a + (d.window j a : Int)).toNat = (r a).val
      rw [hall a]; exact Int.toNat_natCast _
  · next h =>
    constructor
    · intro hh; cases hh
    · intro hall
      exfalso; apply h; intro a
      rw [hall a]
      exact ⟨Int.natCast_nonneg _, by exact_mod_cast (r a).isLt⟩

section ScatD
variable {N E D w : Nat} (wf : ScatterDims.WF ⟨2, ![N, D]⟩ ⟨2, ![E, 1]⟩ ⟨2, ![E, D]⟩ [1] [0] [0] 1)
  (idx : IVec ⟨2, ![E, 1]⟩ w) (e : Fin E) (q' : Fin D)

/-- Row scatter, axis 0: the start is the edge's index word read signed … -/
theorem scatD_start0 : (scatD N E D wf).start (ix2 e q') idx 0 = (idx (ix2 e (0 : Fin 1))).toInt := by
  unfold ScatterDims.start
  rw [dif_pos (show (0 : Fin 2) ∈ (scatD N E D wf).scatterDimsToOperandDims from List.mem_singleton.mpr rfl)]
  congr 2
  funext b
  refine Fin.ext ?_
  match b with
  | ⟨0, _⟩ => rfl
  | ⟨1, _⟩ => rfl

/-- … and there is no window coordinate (the axis is inserted). -/
theorem scatD_window0 : (scatD N E D wf).window (ix2 e q') 0 = 0 := by
  unfold ScatterDims.window
  rw [dif_neg]
  intro h
  have : (0 : Fin 2) ∉ ([0] : List (Fin 2)) := by
    simpa [ScatterDims.sKept, Shape.kept, List.mem_filter] using h
  exact this (List.mem_singleton.mpr rfl)

/-- Row scatter, axis 1: not scatter-indexed, start 0 … -/
theorem scatD_start1 : (scatD N E D wf).start (ix2 e q') idx 1 = 0 := by
  unfold ScatterDims.start
  rw [dif_neg (show (1 : Fin 2) ∉ ([0] : List (Fin 2)) by decide)]

/-- … and the window coordinate is the update's column. -/
theorem scatD_window1 : (scatD N E D wf).window (ix2 e q') 1 = q'.val := by
  unfold ScatterDims.window
  have hk : (1 : Fin 2) ∈ (scatD N E D wf).sKept := by
    simp [ScatterDims.sKept, Shape.kept, List.mem_filter]
  rw [dif_pos hk]
  rfl

/-- WHERE A ROW UPDATE LANDS: update `(e, q')` lands on `(i, q)` iff `q' = q` and the edge's index word, read signed,
    is `i`. -/
theorem scatD_resultIdx?_iff (i : Fin N) (q : Fin D) :
    (scatD N E D wf).resultIdx? (ix2 e q') idx = some (ix2 i q)
      ↔ q' = q ∧ (idx (ix2 e (0 : Fin 1))).toInt = (i.val : Int) := by
  rw [resultIdx?_eq_some_iff]
  constructor
  · intro h
    have h0 : (scatD N E D wf).start (ix2 e q') idx 0 + ((scatD N E D wf).window (ix2 e q') 0 : Int) = (i.val : Int) :=
      h 0
    have h1 : (scatD N E D wf).start (ix2 e q') idx 1 + ((scatD N E D wf).window (ix2 e q') 1 : Int) = (q.val : Int) :=
      h 1
    rw [scatD_start0, scatD_window0] at h0
    rw [scatD_start1, scatD_window1] at h1
    refine ⟨Fin.ext ?_, ?_⟩
    · have : ((q'.val : Int)) = (q.val : Int) := by simpa using h1
      exact_mod_cast this
    · simpa using h0
  · rintro ⟨rfl, ht⟩ a
    match a with
    | ⟨0, _⟩ =>
      show (scatD N E D wf).start (ix2 e q') idx 0 + ((scatD N E D wf).window (ix2 e q') 0 : Int) = (i.val : Int)
      rw [scatD_start0, scatD_window0, ht]; simp
    | ⟨1, _⟩ =>
      show (scatD N E D wf).start (ix2 e q') idx 1 + ((scatD N E D wf).window (ix2 e q') 1 : Int) = (q'.val : Int)
      rw [scatD_start1, scatD_window1]; simp

end ScatD

section Scat1
variable {N E w : Nat} (wf : ScatterDims.WF ⟨1, ![N]⟩ ⟨2, ![E, 1]⟩ ⟨1, ![E]⟩ [] [0] [0] 1)
  (idx : IVec ⟨2, ![E, 1]⟩ w) (e : Fin E)

/-- Entry scatter: the start is the edge's index word read signed … -/
theorem scat1_start0 : (scat1 N E wf).start (ix1 e) idx 0 = (idx (ix2 e (0 : Fin 1))).toInt := by
  unfold ScatterDims.start
  rw [dif_pos (show (0 : Fin 1) ∈ (scat1 N E wf).scatterDimsToOperandDims from List.mem_singleton.mpr rfl)]
  congr 2
  funext b
  refine Fin.ext ?_
  match b with
  | ⟨0, _⟩ => rfl
  | ⟨1, _⟩ => rfl

/-- … and there is no window. -/
theorem scat1_window0 : (scat1 N E wf).window (ix1 e) 0 = 0 := by
  unfold ScatterDims.window
  rw [dif_neg]
  intro h
  have : (0 : Fin 1) ∉ ([0] : List (Fin 1)) := by
    simpa [ScatterDims.sKept, Shape.kept, List.mem_filter] using h
  exact this (List.mem_singleton.mpr rfl)

/-- WHERE AN ENTRY UPDATE LANDS: update `e` lands on `i` iff the edge's index word, read signed, is `i`. -/
theorem scat1_resultIdx?_iff (i : Fin N) :
    (scat1 N E wf).resultIdx? (ix1 e) idx = some (ix1 i) ↔ (idx (ix2 e (0 : Fin 1))).toInt = (i.val : Int) := by
  rw [resultIdx?_eq_some_iff]
  constructor
  · intro h
    have h0 : (scat1 N E wf).start (ix1 e) idx 0 + ((scat1 N E wf).window (ix1 e) 0 : Int) = (i.val : Int) := h 0
    rw [scat1_start0, scat1_window0] at h0
    simpa using h0
  · intro ht a
    obtain rfl : a = 0 := Subsingleton.elim _ _
    show (scat1 N E wf).start (ix1 e) idx 0 + ((scat1 N E wf).window (ix1 e) 0 : Int) = (i.val : Int)
    rw [scat1_start0, scat1_window0, ht]; simp

end Scat1

/-! ## The accumulating scatter at an index, at the ideal instance -/

section ScatterAddAt
open Finset

/-- THE ROW SCATTER-ADD AT `(i, q)`: the operand's entry plus the sum, over the edges `e` whose index word read signed
    is `i`, of the update entries `(e, q)`. The updates that land on `(i, q)` are the `(e, q')` with `q' = q` and word
    `i`: the sum over the pairs collapses to the sum over the edges. -/
theorem scatterAdd_scatD_apply {N E D w : Nat} (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (i : Fin N) (q : Fin D) :
    Host.scatterAdd (scatD N E D wf) x idx upd (ix2 i q)
      = x (ix2 i q) + ∑ e ∈ univ.filter (fun e : Fin E => (idx (ix2 e (0 : Fin 1))).toInt = (i.val : Int)), upd (ix2 e q) := by
  classical
  show x (ix2 i q) + ∑ j ∈ univ.filter (fun j => (scatD N E D wf).resultIdx? j idx = some (ix2 i q)), upd j = _
  congr 1
  rw [Finset.sum_filter, sum_idx2, Finset.sum_filter]
  refine Finset.sum_congr rfl fun e _ => ?_
  simp only [scatD_resultIdx?_iff]
  by_cases ht : (idx (ix2 e (0 : Fin 1))).toInt = (i.val : Int)
  · simp [ht]
  · simp [ht]

/-- THE ENTRY SCATTER-ADD AT `i`: the operand's entry plus the sum, over the edges whose index word read signed is
    `i`, of their updates. -/
theorem scatterAdd_scat1_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (scat1 N E wf) x idx upd (ix1 i)
      = x (ix1 i) + ∑ e ∈ univ.filter (fun e : Fin E => (idx (ix2 e (0 : Fin 1))).toInt = (i.val : Int)), upd (ix1 e) := by
  classical
  show x (ix1 i) + ∑ j ∈ univ.filter (fun j => (scat1 N E wf).resultIdx? j idx = some (ix1 i)), upd j = _
  congr 1
  refine Finset.sum_bij' (fun j _ => (j 0 : Fin E)) (fun e _ => ix1 e) ?_ ?_ ?_ ?_ ?_
  · intro j hj
    have h2 := (Finset.mem_filter.mp hj).2
    rw [eq_ix1 j] at h2
    exact Finset.mem_filter.mpr ⟨Finset.mem_univ _, (scat1_resultIdx?_iff wf idx _ i).mp h2⟩
  · intro e he
    exact Finset.mem_filter.mpr ⟨Finset.mem_univ _, (scat1_resultIdx?_iff wf idx e i).mpr (Finset.mem_filter.mp he).2⟩
  · intro j _; exact (eq_ix1 j).symm
  · intro e _; rfl
  · intro j _; exact congrArg upd (eq_ix1 j)

end ScatterAddAt

end Cert.Proof.GS
-- ==== Proof.ColSplit.lean ====
/-
  A sparse-times-dense product acts on each COLUMN of the dense matrix by itself.

  The product is built from three index operations: gather the rows of the dense matrix `M` named by a column index,
  scale each gathered row by its edge's weight, and add the scaled rows into the rows named by a row index. At the
  entry `(i, q)` the result is

      z0 + ∑ (over the edges e whose row index is i) a e * M (row (col e), q),

  and column `q` of `M` is the only column of `M` this mentions. Hence the product of a 32-wide matrix, read on its
  columns 0 … 15 (resp. 16 … 31), is the product of the 16-wide matrix made of those columns.
-/
import Idealize.ShloMosaic.PureOps.Ideal
import Idealize.ShloMosaic.Lib.ValueIdx
import Idealize.ShloMosaic.Lib.Pipeline.Value
import proofs.«419466_j70042326663889_1_alg».proof.Proof.LibGatherScatter

open scoped BigOperators

namespace Cert.Proof.ColSplit

open Idealize.ShloMosaic Idealize.ShloMosaic.ValueIdx Cert.Proof.GS

/-- THE PRODUCT AT AN ENTRY, for any width `D`: with a constant start value `z0` and the weight `a e` repeated along
    every row of the scaling matrix, entry `(i, q)` is `z0` plus the sum, over the edges whose row index is `i`, of
    the weight times the dense matrix at the gathered row and the SAME column `q`. -/
theorem spmm_apply {N E D w : Nat} (hN : 0 < N)
    (wfS : ScatterDims.WF ⟨2, ![N, D]⟩ ⟨2, ![E, 1]⟩ ⟨2, ![E, D]⟩ [1] [0] [0] 1)
    (wfG : GatherDims.WF ⟨2, ![N, D]⟩ ⟨2, ![E, 1]⟩ ⟨2, ![E, D]⟩ [1] [0] [] [0] [] 1 ![1, D])
    (z : FVec Ideal ⟨2, ![N, D]⟩ .f32) (z0 : EReal) (hz : ∀ i j, z (ix2 i j) = z0)
    (ri ci : IVec ⟨2, ![E, 1]⟩ w)
    (v : FVec Ideal ⟨2, ![E, D]⟩ .f32) (a : Fin E → EReal) (hv : ∀ e j, v (ix2 e j) = a e)
    (X : FVec Ideal ⟨2, ![N, D]⟩ .f32) (i : Fin N) (q : Fin D) :
    Host.scatterAdd (scatD N E D wfS) z ri (mulf v (Host.gather (gathD N E D wfG) X ci)) (ix2 i q)
      = z0 + ∑ e ∈ Finset.univ.filter (fun e : Fin E => (ri (ix2 e (0 : Fin 1))).toInt = (i.val : Int)),
          a e * X (ix2 (row hN (ci (ix2 e (0 : Fin 1)))) q) := by
  rw [scatterAdd_scatD_apply, hz]
  congr 1
  refine Finset.sum_congr rfl fun e _ => ?_
  rw [mulf_apply, hv, gather_gathD_apply hN]

/-- COLUMNS 0 … 15: the 32-wide product read on its first sixteen columns is the product of the 16-wide matrix `P` of
    those columns of `M`. -/
theorem slice_spmm_lo {N E w : Nat} (hN : 0 < N)
    (wfS32 : ScatterDims.WF ⟨2, ![N, 32]⟩ ⟨2, ![E, 1]⟩ ⟨2, ![E, 32]⟩ [1] [0] [0] 1)
    (wfS16 : ScatterDims.WF ⟨2, ![N, 16]⟩ ⟨2, ![E, 1]⟩ ⟨2, ![E, 16]⟩ [1] [0] [0] 1)
    (wfG32 : GatherDims.WF ⟨2, ![N, 32]⟩ ⟨2, ![E, 1]⟩ ⟨2, ![E, 32]⟩ [1] [0] [] [0] [] 1 ![1, 32])
    (wfG16 : GatherDims.WF ⟨2, ![N, 16]⟩ ⟨2, ![E, 1]⟩ ⟨2, ![E, 16]⟩ [1] [0] [] [0] [] 1 ![1, 16])
    (hs : (⟨2, ![N, 32]⟩ : Shape).Slices ![0, 0] ⟨2, ![N, 16]⟩)
    (z32 : FVec Ideal ⟨2, ![N, 32]⟩ .f32) (z16 : FVec Ideal ⟨2, ![N, 16]⟩ .f32) (z0 : EReal)
    (hz32 : ∀ i j, z32 (ix2 i j) = z0) (hz16 : ∀ i q, z16 (ix2 i q) = z0)
    (ri ci : IVec ⟨2, ![E, 1]⟩ w)
    (v32 : FVec Ideal ⟨2, ![E, 32]⟩ .f32) (v16 : FVec Ideal ⟨2, ![E, 16]⟩ .f32) (a : Fin E → EReal)
    (hv32 : ∀ e j, v32 (ix2 e j) = a e) (hv16 : ∀ e q, v16 (ix2 e q) = a e)
    (M : FVec Ideal ⟨2, ![N, 32]⟩ .f32) (P : FVec Ideal ⟨2, ![N, 16]⟩ .f32)
    (hMP : ∀ (i : Fin N) (q : Fin 16), M (ix2 i (⟨q.val, by omega⟩ : Fin 32)) = P (ix2 i q)) :
    extractStridedSlice ⟨2, ![N, 16]⟩ ![0, 0]
        (Host.scatterAdd (scatD N E 32 wfS32) z32 ri (mulf v32 (Host.gather (gathD N E 32 wfG32) M ci))) hs
      = Host.scatterAdd (scatD N E 16 wfS16) z16 ri (mulf v16 (Host.gather (gathD N E 16 wfG16) P ci)) := by
  funext j
  obtain ⟨i, q, rfl⟩ : ∃ (i : Fin N) (q : Fin 16), j = ix2 i q := ⟨j 0, j 1, eq_ix2 j⟩
  -- the slice at `(i, q)` is the 32-wide product at `(i, q)`
  rw [extractStridedSlice_apply _ _ hs (ix2 i q) (ix2 i (⟨q.val, by omega⟩ : Fin 32)) (fun b =>
    match b with
    | ⟨0, _⟩ => by show i.val = 0 + i.val; omega
    | ⟨1, _⟩ => by show q.val = 0 + q.val; omega)]
  rw [spmm_apply hN wfS32 wfG32 z32 z0 hz32 ri ci v32 a hv32 M,
    spmm_apply hN wfS16 wfG16 z16 z0 hz16 ri ci v16 a hv16 P]
  congr 1
  exact Finset.sum_congr rfl fun e _ => by rw [hMP]

/-- COLUMNS 16 … 31: the 32-wide product read on its last sixteen columns is the product of the 16-wide matrix `P` of
    those columns of `M`. -/
theorem slice_spmm_hi {N E w : Nat} (hN : 0 < N)
    (wfS32 : ScatterDims.WF ⟨2, ![N, 32]⟩ ⟨2, ![E, 1]⟩ ⟨2, ![E, 32]⟩ [1] [0] [0] 1)
    (wfS16 : ScatterDims.WF ⟨2, ![N, 16]⟩ ⟨2, ![E, 1]⟩ ⟨2, ![E, 16]⟩ [1] [0] [0] 1)
    (wfG32 : GatherDims.WF ⟨2, ![N, 32]⟩ ⟨2, ![E, 1]⟩ ⟨2, ![E, 32]⟩ [1] [0] [] [0] [] 1 ![1, 32])
    (wfG16 : GatherDims.WF ⟨2, ![N, 16]⟩ ⟨2, ![E, 1]⟩ ⟨2, ![E, 16]⟩ [1] [0] [] [0] [] 1 ![1, 16])
    (hs : (⟨2, ![N, 32]⟩ : Shape).Slices ![0, 16] ⟨2, ![N, 16]⟩)
    (z32 : FVec Ideal ⟨2, ![N, 32]⟩ .f32) (z16 : FVec Ideal ⟨2, ![N, 16]⟩ .f32) (z0 : EReal)
    (hz32 : ∀ i j, z32 (ix2 i j) = z0) (hz16 : ∀ i q, z16 (ix2 i q) = z0)
    (ri ci : IVec ⟨2, ![E, 1]⟩ w)
    (v32 : FVec Ideal ⟨2, ![E, 32]⟩ .f32) (v16 : FVec Ideal ⟨2, ![E, 16]⟩ .f32) (a : Fin E → EReal)
    (hv32 : ∀ e j, v32 (ix2 e j) = a e) (hv16 : ∀ e q, v16 (ix2 e q) = a e)
    (M : FVec Ideal ⟨2, ![N, 32]⟩ .f32) (P : FVec Ideal ⟨2, ![N, 16]⟩ .f32)
    (hMP : ∀ (i : Fin N) (q : Fin 16), M (ix2 i (⟨q.val + 16, by omega⟩ : Fin 32)) = P (ix2 i q)) :
    extractStridedSlice ⟨2, ![N, 16]⟩ ![0, 16]
        (Host.scatterAdd (scatD N E 32 wfS32) z32 ri (mulf v32 (Host.gather (gathD N E 32 wfG32) M ci))) hs
      = Host.scatterAdd (scatD N E 16 wfS16) z16 ri (mulf v16 (Host.gather (gathD N E 16 wfG16) P ci)) := by
  funext j
  obtain ⟨i, q, rfl⟩ : ∃ (i : Fin N) (q : Fin 16), j = ix2 i q := ⟨j 0, j 1, eq_ix2 j⟩
  -- the slice at `(i, q)` is the 32-wide product at `(i, q + 16)`
  rw [extractStridedSlice_apply _ _ hs (ix2 i q) (ix2 i (⟨q.val + 16, by omega⟩ : Fin 32)) (fun b =>
    match b with
    | ⟨0, _⟩ => by show i.val = 0 + i.val; omega
    | ⟨1, _⟩ => by show q.val + 16 = 16 + q.val; omega)]
  rw [spmm_apply hN wfS32 wfG32 z32 z0 hz32 ri ci v32 a hv32 M,
    spmm_apply hN wfS16 wfG16 z16 z0 hz16 ri ci v16 a hv16 P]
  congr 1
  exact Finset.sum_congr rfl fun e _ => by rw [hMP]

end Cert.Proof.ColSplit
-- ==== Proof.IdxReads.lean ====
/-
  Layout and contraction operations of the two idealized programs, each read at one index given by its
  coordinates.

  A two-piece concatenation along the column axis reads its first piece on the low columns and its second piece on
  the high columns; a padding with rows added after the last row reads the operand on every row of the operand; a
  slice at offset zero reads the operand at the same coordinates; a product of two matrices, contracted over the
  left operand's columns and the right operand's rows, is at the extended reals the finite sum of the products; and
  the product of a matrix with its own transpose is the sum, over the shared axis, of the products of two rows'
  entries.
-/
import proofs.«419466_j70042326663889_1_alg».proof.Proof.Gen.ReferenceIdeal.Read
import proofs.«419466_j70042326663889_1_alg».proof.KernelIdeal
import proofs.«419466_j70042326663889_1_alg».proof.Proof.Gen.KernelIdeal
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

noncomputable section

open scoped BigOperators

namespace Cert.Proof.IdxReads

open Idealize.ShloMosaic Idealize.ShloMosaic.ValueIdx

/-! ## The kernel side's layout operations -/

section KernelSide

open Cert.KernelIdeal Cert.KernelIdeal.Facts₀

/-- The concatenation of two 32×16 matrices along the columns, on a column below 16, is the first matrix. -/
theorem cat_lo (a b : FVec Ideal Cert.KernelIdeal.S32x16 .f32) (k : Fin 32) (q : Fin 16) :
    concatenate Cert.KernelIdeal.S32x32 1 [⟨Cert.KernelIdeal.S32x16, a⟩, ⟨Cert.KernelIdeal.S32x16, b⟩]
        concatenates_S32x16_S32x16_S32x32_d1 (ix2 k (⟨q.val, by omega⟩ : Fin 32)) = a (ix2 k q) :=
  concatenate_pair_apply_left (t := Cert.KernelIdeal.S32x32) (s₁ := Cert.KernelIdeal.S32x16)
    (s₂ := Cert.KernelIdeal.S32x16) (1 : Fin 2) a b concatenates_S32x16_S32x16_S32x32_d1 _ rfl (ix2 k q) (by
      intro c
      match c with
      | ⟨0, _⟩ => rfl
      | ⟨1, _⟩ => rfl)

/-- On column 16 + q it is the second matrix at column q. -/
theorem cat_hi (a b : FVec Ideal Cert.KernelIdeal.S32x16 .f32) (k : Fin 32) (q : Fin 16) :
    concatenate Cert.KernelIdeal.S32x32 1 [⟨Cert.KernelIdeal.S32x16, a⟩, ⟨Cert.KernelIdeal.S32x16, b⟩]
        concatenates_S32x16_S32x16_S32x32_d1 (ix2 k (⟨q.val + 16, by omega⟩ : Fin 32)) = b (ix2 k q) :=
  concatenate_pair_apply_right (t := Cert.KernelIdeal.S32x32) (s₁ := Cert.KernelIdeal.S32x16)
    (s₂ := Cert.KernelIdeal.S32x16) (1 : Fin 2) a b concatenates_S32x16_S32x16_S32x32_d1 _ rfl rfl (ix2 k q) (by
      intro c hc
      match c with
      | ⟨0, _⟩ => rfl
      | ⟨1, _⟩ => exact absurd rfl hc) rfl

/-- Padding 240 rows after the last of 10000 rows leaves every one of the 10000 rows as it was. -/
theorem pad_inside (x : FVec Ideal Cert.KernelIdeal.S10000x16 .f32) (v : FVec Ideal Cert.KernelIdeal.S_ .f32)
    (i : Fin 10000) (k : Fin 16) :
    pad Cert.KernelIdeal.S10240x16 ![0, 0] ![240, 0] ![0, 0] x v pads_S10000x16_S10240x16_02400_000 h_S_
        (ix2 (⟨i.val, by omega⟩ : Fin 10240) k) = x (ix2 i k) :=
  pad_apply_of_inside _ _ _ x v pads_S10000x16_S10240x16_02400_000 h_S_ _ (ix2 i k) (by
    intro c
    match c with
    | ⟨0, _⟩ => show i.val = 0 + i.val * (0 + 1); omega
    | ⟨1, _⟩ => show k.val = 0 + k.val * (0 + 1); omega)

/-- The leading 10000×10000 corner of a 10240×10240 matrix reads the matrix at the same coordinates. -/
theorem slice_gram (X : FVec Ideal Cert.KernelIdeal.S10240x10240 .f32) (i j : Fin 10000) :
    extractStridedSlice Cert.KernelIdeal.S10000x10000 ![0, 0] X slices_S10240x10240_S10000x10000_0_0 (ix2 i j)
      = X (ix2 (⟨i.val, by omega⟩ : Fin 10240) (⟨j.val, by omega⟩ : Fin 10240)) :=
  extractStridedSlice_apply _ X slices_S10240x10240_S10000x10000_0_0 _ _ (by
    intro c
    match c with
    | ⟨0, _⟩ => show i.val = 0 + i.val; omega
    | ⟨1, _⟩ => show j.val = 0 + j.val; omega)

end KernelSide

/-! ## The reference side's products -/

section ReferenceSide

open Cert.ReferenceIdeal Cert.ReferenceIdeal.Facts₀

/-- The 10000×512 by 512×32 product at (i, j) is the sum over the 512 shared coordinates. -/
theorem dot0_apply (x : FVec Ideal Cert.ReferenceIdeal.S10000x512 .f32) (w : FVec Ideal Cert.ReferenceIdeal.S512x32 .f32)
    (i : Fin 10000) (j : Fin 32) :
    Host.dotGeneral (F := Ideal) dot_S10000x512_S512x32_S10000x32_1_0_0_1_n_n none x w (ix2 i j)
      = ∑ k : Fin 512, x (ix2 i k) * w (ix2 k j) := by
  simp only [Host.dotGeneral]
  rw [Ideal.dotGeneral_apply, ← Equiv.sum_comp (contrEquiv1 dot_S10000x512_S512x32_S10000x32_1_0_0_1_n_n 512 rfl rfl).symm]
  refine Finset.sum_congr rfl fun k _ => ?_
  have hk := contrEquiv1_symm_val dot_S10000x512_S512x32_S10000x32_1_0_0_1_n_n 512 rfl rfl k
  have el : dot_S10000x512_S512x32_S10000x32_1_0_0_1_n_n.lhsIdx (ix2 i j)
      ((contrEquiv1 dot_S10000x512_S512x32_S10000x32_1_0_0_1_n_n 512 rfl rfl).symm k) = ix2 i k :=
    funext fun a => Fin.ext (by
      match a with
      | ⟨0, _⟩ => exact Read.lhs_main_v0_0 _ _
      | ⟨1, _⟩ => exact (Read.lhs_main_v0_1 _ _).trans hk)
  have er : dot_S10000x512_S512x32_S10000x32_1_0_0_1_n_n.rhsIdx (ix2 i j)
      ((contrEquiv1 dot_S10000x512_S512x32_S10000x32_1_0_0_1_n_n 512 rfl rfl).symm k) = ix2 k j :=
    funext fun a => Fin.ext (by
      match a with
      | ⟨0, _⟩ => exact (Read.rhs_main_v0_0 _ _).trans hk
      | ⟨1, _⟩ => exact Read.rhs_main_v0_1 _ _)
  rw [el, er]

/-- The 10000×32 by 32×16 product at (i, q) is the sum over the 32 shared coordinates. -/
theorem dot16_apply (h : FVec Ideal Cert.ReferenceIdeal.S10000x32 .f32) (w : FVec Ideal Cert.ReferenceIdeal.S32x16 .f32)
    (i : Fin 10000) (q : Fin 16) :
    Host.dotGeneral (F := Ideal) dot_S10000x32_S32x16_S10000x16_1_0_0_1_n_n none h w (ix2 i q)
      = ∑ k : Fin 32, h (ix2 i k) * w (ix2 k q) := by
  simp only [Host.dotGeneral]
  rw [Ideal.dotGeneral_apply, ← Equiv.sum_comp (contrEquiv1 dot_S10000x32_S32x16_S10000x16_1_0_0_1_n_n 32 rfl rfl).symm]
  refine Finset.sum_congr rfl fun k _ => ?_
  have hk := contrEquiv1_symm_val dot_S10000x32_S32x16_S10000x16_1_0_0_1_n_n 32 rfl rfl k
  have el : dot_S10000x32_S32x16_S10000x16_1_0_0_1_n_n.lhsIdx (ix2 i q)
      ((contrEquiv1 dot_S10000x32_S32x16_S10000x16_1_0_0_1_n_n 32 rfl rfl).symm k) = ix2 i k :=
    funext fun a => Fin.ext (by
      match a with
      | ⟨0, _⟩ => exact Read.lhs_main_v15_0 _ _
      | ⟨1, _⟩ => exact (Read.lhs_main_v15_1 _ _).trans hk)
  have er : dot_S10000x32_S32x16_S10000x16_1_0_0_1_n_n.rhsIdx (ix2 i q)
      ((contrEquiv1 dot_S10000x32_S32x16_S10000x16_1_0_0_1_n_n 32 rfl rfl).symm k) = ix2 k q :=
    funext fun a => Fin.ext (by
      match a with
      | ⟨0, _⟩ => exact (Read.rhs_main_v15_0 _ _).trans hk
      | ⟨1, _⟩ => exact Read.rhs_main_v15_1 _ _)
  rw [el, er]

/-- The product of a 10000×16 matrix with its own transpose, at (i, j), is the sum over the 16 columns of the
    products of row i's and row j's entries. -/
theorem gram_apply (z : FVec Ideal Cert.ReferenceIdeal.S10000x16 .f32) (i j : Fin 10000) :
    Host.dotGeneral (F := Ideal) dot_S10000x16_S16x10000_S10000x10000_1_0_0_1_n_n none z
        (transpose Cert.ReferenceIdeal.S16x10000 [1, 0] z transposes_S10000x16_S16x10000_1_0) (ix2 i j)
      = ∑ k : Fin 16, z (ix2 i k) * z (ix2 j k) := by
  simp only [Host.dotGeneral]
  rw [Ideal.dotGeneral_apply, ← Equiv.sum_comp (contrEquiv1 dot_S10000x16_S16x10000_S10000x10000_1_0_0_1_n_n 16 rfl rfl).symm]
  refine Finset.sum_congr rfl fun k _ => ?_
  have hk := contrEquiv1_symm_val dot_S10000x16_S16x10000_S10000x10000_1_0_0_1_n_n 16 rfl rfl k
  have el : dot_S10000x16_S16x10000_S10000x10000_1_0_0_1_n_n.lhsIdx (ix2 i j)
      ((contrEquiv1 dot_S10000x16_S16x10000_S10000x10000_1_0_0_1_n_n 16 rfl rfl).symm k) = ix2 i k :=
    funext fun a => Fin.ext (by
      match a with
      | ⟨0, _⟩ => exact Read.lhs_main_v47_0 _ _
      | ⟨1, _⟩ => exact (Read.lhs_main_v47_1 _ _).trans hk)
  have er : dot_S10000x16_S16x10000_S10000x10000_1_0_0_1_n_n.rhsIdx (ix2 i j)
      ((contrEquiv1 dot_S10000x16_S16x10000_S10000x10000_1_0_0_1_n_n 16 rfl rfl).symm k) = ix2 k j :=
    funext fun a => Fin.ext (by
      match a with
      | ⟨0, _⟩ => exact (Read.rhs_main_v47_0 _ _).trans hk
      | ⟨1, _⟩ => exact Read.rhs_main_v47_1 _ _)
  rw [el, er, transpose_ix2_apply z transposes_S10000x16_S16x10000_1_0 k j]

end ReferenceSide

end Cert.Proof.IdxReads

end
-- ==== Proof.RefRead.lean ====
/-
  The reference program's run and its operations read at an index: this module only gathers the two
  generated modules so that the later modules on the reference side have one import.
-/
import proofs.«419466_j70042326663889_1_alg».proof.Proof.Gen.ReferenceIdeal.Run
import proofs.«419466_j70042326663889_1_alg».proof.Proof.Gen.ReferenceIdeal.Read
-- ==== Proof.Bridge.lean ====
/-
  The kernel's three results are the reference's. At the ideal instance both programs compute, from the same inputs,
    h      = max(A·(x·w₀), 0)                      (A the sparse matrix of the edge list)
    means  = A·(h·w_mean),   logdev = A·(h·w_std)
    z      = means + noise · exp(logdev)
    out    = flatten(z·zᵀ).
  The kernel differs in three places, none of which changes a value on the extended reals:
  it forms x·w₀ row block by row block (each entry is the same sum over the 512 columns);
  it multiplies h by the two weight blocks set side by side and aggregates the 32-wide product once — column q < 16 of that
  product is column q of h·w_mean, column 16 + q is column q of h·w_std, and an aggregation acts on each column by itself;
  and it multiplies the latent matrix, padded with 240 zero rows, by its own transpose tile by tile and keeps only the
  entries (i, j) with i, j < 10000, which never see a padding row.
  No law of arithmetic beyond reading sums at an index is used, so the inputs' finiteness is not needed.
-/
import proofs.«419466_j70042326663889_1_alg».proof.Proof.KiHost
import proofs.«419466_j70042326663889_1_alg».proof.Proof.KiFin0
import proofs.«419466_j70042326663889_1_alg».proof.Proof.KiFin1
import proofs.«419466_j70042326663889_1_alg».proof.Proof.KiFin2
import proofs.«419466_j70042326663889_1_alg».proof.Proof.ColSplit
import proofs.«419466_j70042326663889_1_alg».proof.Proof.IdxReads
import proofs.«419466_j70042326663889_1_alg».proof.Proof.RefRead

set_option maxRecDepth 16384

noncomputable section

namespace Cert.Proof.Bridge

open Idealize.ShloMosaic Idealize.ShloMosaic.TcCoe Idealize.ShloMosaic.ValueIdx Idealize.SL.Sem
open Cert.KernelIdeal Cert.KernelIdeal.Gen Cert.KernelIdeal.Hand
open Cert.Proof.IdxReads Cert.Proof.ColSplit

variable (m : (ℓ : Loc nD τ sig) → Buf (Elt Ideal) ℓ) (c : Dev nD)

/-! ## The inputs, and the reference's stages at them -/

abbrev a0 : FVec Ideal S10000x512 .f32 := W0 m c (Proc.devRef .tc main_arg0)
abbrev a1 : FVec Ideal S512x32 .f32 := W0 m c (Proc.devRef .tc main_arg1)
abbrev a2 : FVec Ideal S32x16 .f32 := W0 m c (Proc.devRef .tc main_arg2)
abbrev a3 : FVec Ideal S32x16 .f32 := W0 m c (Proc.devRef .tc main_arg3)
abbrev a4 : FVec Ideal S320000 .f32 := W0 m c (Proc.devRef .tc main_arg4)
abbrev a5 : FVec Ideal S10000x16 .f32 := W0 m c (Proc.devRef .tc main_arg5)
abbrev a6 : IVec S320000 32 := W0 m c (Proc.devRef .tc main_arg6)
abbrev a7 : IVec S320000 32 := W0 m c (Proc.devRef .tc main_arg7)

/-- x·w₀ -/
abbrev rv0 : FVec Ideal S10000x32 .f32 := Cert.ReferenceIdeal.Read.val_main_v0 (F := Ideal) (a0 m c) (a1 m c)
/-- h -/
abbrev rh : FVec Ideal S10000x32 .f32 := Cert.ReferenceIdeal.Read.val_main_v14 (F := Ideal) (a0 m c) (a1 m c) (a4 m c) (a6 m c) (a7 m c)
/-- h·w_mean and h·w_std -/
abbrev rp2 : FVec Ideal S10000x16 .f32 := Cert.ReferenceIdeal.Read.val_main_v15 (F := Ideal) (a0 m c) (a1 m c) (a2 m c) (a4 m c) (a6 m c) (a7 m c)
abbrev rp3 : FVec Ideal S10000x16 .f32 := Cert.ReferenceIdeal.Read.val_main_v29 (F := Ideal) (a0 m c) (a1 m c) (a3 m c) (a4 m c) (a6 m c) (a7 m c)
/-- the means and the log-deviations -/
abbrev rmean : FVec Ideal S10000x16 .f32 := Cert.ReferenceIdeal.Read.val_main_v28 (F := Ideal) (a0 m c) (a1 m c) (a2 m c) (a4 m c) (a6 m c) (a7 m c)
abbrev rstd : FVec Ideal S10000x16 .f32 := Cert.ReferenceIdeal.Read.val_main_v42 (F := Ideal) (a0 m c) (a1 m c) (a3 m c) (a4 m c) (a6 m c) (a7 m c)
/-- z -/
abbrev rz : FVec Ideal S10000x16 .f32 := Cert.ReferenceIdeal.Read.val_main_v45 (F := Ideal) (a0 m c) (a1 m c) (a2 m c) (a3 m c) (a4 m c) (a5 m c) (a6 m c) (a7 m c)
/-- the flattened z·zᵀ -/
abbrev rout : FVec Ideal S100000000 .f32 := Cert.ReferenceIdeal.Read.val_main_v48 (F := Ideal) (a0 m c) (a1 m c) (a2 m c) (a3 m c) (a4 m c) (a5 m c) (a6 m c) (a7 m c)

/-- What the second pipeline leaves, and the padded latent matrix, as functions of an index. -/
abbrev w5out : FVec Ideal S10000x32 .f32 := W5 m c (Proc.devRef .tc main_v16)
abbrev w7pad : FVec Ideal S10240x16 .f32 := W7 m c (Proc.devRef .tc main_v35)

/-! ## The first projection and the rectified first aggregation -/

/-- Row block by row block, the first pipeline leaves x·w₀. -/
theorem first_proj : (W1 m c (Proc.devRef .tc main_v0) : FVec Ideal S10000x32 .f32) = rv0 m c := by
  refine (W1_arr m c 2).trans ?_
  refine (final0_arr (R0 m) c).trans ?_
  funext idx
  obtain ⟨i, j, rfl⟩ : ∃ (i : Fin 10000) (j : Fin 32), idx = ix2 i j := ⟨idx 0, idx 1, eq_ix2 idx⟩
  refine Eq.trans ?_ (dot0_apply (a0 m c) (a1 m c) i j).symm
  rfl

/-- The same host operations applied to the same matrix: the second pipeline's left operand is h. -/
theorem rect_agg : (W4 m c (Proc.devRef .tc main_v14) : FVec Ideal S10000x32 .f32) = rh m c := by
  rw [W4_v14, first_proj]
  rfl

/-! ## The second projection, column by column -/

/-- The second pipeline leaves h times the two weight blocks side by side. -/
theorem second_proj (i : Fin 10000) (j : Fin 32) :
    w5out m c (ix2 i j)
      = ∑ k : Fin 32, rh m c (ix2 i k)
          * concatenate S32x32 1 [⟨S32x16, a2 m c⟩, ⟨S32x16, a3 m c⟩] Cert.KernelIdeal.Facts₀.concatenates_S32x16_S32x16_S32x32_d1 (ix2 k j) := by
  have h1 : w5out m c = arr1_out (R4 m) c := W5_arr m c 2
  have hA : arr1_act (R4 m) c = rh m c := rect_agg m c
  have hW : arr1_wt (R4 m) c
      = concatenate S32x32 1 [⟨S32x16, a2 m c⟩, ⟨S32x16, a3 m c⟩] Cert.KernelIdeal.Facts₀.concatenates_S32x16_S32x16_S32x32_d1 := W4_v15 m c
  rw [h1, final1 (R4 m) c i j, hA, hW]

/-- Its columns 0…15 are h·w_mean, -/
theorem second_proj_lo (i : Fin 10000) (q : Fin 16) :
    w5out m c (ix2 i (⟨q.val, by omega⟩ : Fin 32)) = rp2 m c (ix2 i q) := by
  rw [second_proj]
  refine (Finset.sum_congr rfl fun k _ => by rw [cat_lo]).trans ?_
  exact (dot16_apply (rh m c) (a2 m c) i q).symm

/-- and its columns 16…31 are h·w_std. -/
theorem second_proj_hi (i : Fin 10000) (q : Fin 16) :
    w5out m c (ix2 i (⟨q.val + 16, by omega⟩ : Fin 32)) = rp3 m c (ix2 i q) := by
  rw [second_proj]
  refine (Finset.sum_congr rfl fun k _ => by rw [cat_hi]).trans ?_
  exact (dot16_apply (rh m c) (a3 m c) i q).symm

/-! ## The second aggregation: one 32-wide pass is the two 16-wide passes -/

/-- The means: columns 0…15 of the 32-wide aggregation are the aggregation of the first weight block's product. -/
theorem means_eq : (W7 m c (Proc.devRef .tc main_v30) : FVec Ideal S10000x16 .f32) = rmean m c := by
  rw [W7_v30]
  have key := slice_spmm_lo (N := 10000) (E := 320000) (w := 32) (by decide)
    Cert.ReferenceIdeal.Facts₀.scatter_S10000x32_S320000x1_S320000x32_1_0_0_1_wf Cert.ReferenceIdeal.Facts₀.scatter_S10000x16_S320000x1_S320000x16_1_0_0_1_wf
    Cert.ReferenceIdeal.Facts₀.gather_S10000x32_S320000x1_S320000x32_1_0_n_n_0_1_132_wf Cert.ReferenceIdeal.Facts₀.gather_S10000x16_S320000x1_S320000x16_1_0_n_n_0_1_116_wf
    Cert.KernelIdeal.Facts₀.slices_S10000x32_S10000x16_0_0
    (Cert.ReferenceIdeal.Read.val_main_v11 (F := Ideal)) (Cert.ReferenceIdeal.Read.val_main_v26 (F := Ideal)) (FloatOps.ofBits (F := Ideal) .f32 0x00000000#32)
    (fun i j => by rw [Cert.ReferenceIdeal.Read.val_main_v11_apply, Cert.ReferenceIdeal.Read.val_main_cst_apply])
    (fun i q => by rw [Cert.ReferenceIdeal.Read.val_main_v26_apply, Cert.ReferenceIdeal.Read.val_main_cst_3_apply])
    (Cert.ReferenceIdeal.Read.val_main_v27 (F := Ideal) (a6 m c)) (Cert.ReferenceIdeal.Read.val_main_v22 (F := Ideal) (a7 m c))
    (Cert.ReferenceIdeal.Read.val_main_v9 (F := Ideal) (a4 m c)) (Cert.ReferenceIdeal.Read.val_main_v24 (F := Ideal) (a4 m c)) (fun e => a4 m c (ix1 e))
    (fun e j => by
      rw [Cert.ReferenceIdeal.Read.val_main_v9_apply, Cert.ReferenceIdeal.Read.val_main_v1_apply]
      exact congrArg (a4 m c) (funext fun a => Fin.ext (by match a with | ⟨0, _⟩ => rfl)))
    (fun e q => by
      rw [Cert.ReferenceIdeal.Read.val_main_v24_apply, Cert.ReferenceIdeal.Read.val_main_v16_apply]
      exact congrArg (a4 m c) (funext fun a => Fin.ext (by match a with | ⟨0, _⟩ => rfl)))
    (w5out m c) (rp2 m c) (second_proj_lo m c)
  exact key

/-- The log-deviations: columns 16…31 of it are the aggregation of the second weight block's product. -/
theorem stds_eq : (W7 m c (Proc.devRef .tc main_v31) : FVec Ideal S10000x16 .f32) = rstd m c := by
  rw [W7_v31]
  have key := slice_spmm_hi (N := 10000) (E := 320000) (w := 32) (by decide)
    Cert.ReferenceIdeal.Facts₀.scatter_S10000x32_S320000x1_S320000x32_1_0_0_1_wf Cert.ReferenceIdeal.Facts₀.scatter_S10000x16_S320000x1_S320000x16_1_0_0_1_wf
    Cert.ReferenceIdeal.Facts₀.gather_S10000x32_S320000x1_S320000x32_1_0_n_n_0_1_132_wf Cert.ReferenceIdeal.Facts₀.gather_S10000x16_S320000x1_S320000x16_1_0_n_n_0_1_116_wf
    Cert.KernelIdeal.Facts₀.slices_S10000x32_S10000x16_0_16
    (Cert.ReferenceIdeal.Read.val_main_v11 (F := Ideal)) (Cert.ReferenceIdeal.Read.val_main_v40 (F := Ideal)) (FloatOps.ofBits (F := Ideal) .f32 0x00000000#32)
    (fun i j => by rw [Cert.ReferenceIdeal.Read.val_main_v11_apply, Cert.ReferenceIdeal.Read.val_main_cst_apply])
    (fun i q => by rw [Cert.ReferenceIdeal.Read.val_main_v40_apply, Cert.ReferenceIdeal.Read.val_main_cst_6_apply])
    (Cert.ReferenceIdeal.Read.val_main_v41 (F := Ideal) (a6 m c)) (Cert.ReferenceIdeal.Read.val_main_v36 (F := Ideal) (a7 m c))
    (Cert.ReferenceIdeal.Read.val_main_v9 (F := Ideal) (a4 m c)) (Cert.ReferenceIdeal.Read.val_main_v38 (F := Ideal) (a4 m c)) (fun e => a4 m c (ix1 e))
    (fun e j => by
      rw [Cert.ReferenceIdeal.Read.val_main_v9_apply, Cert.ReferenceIdeal.Read.val_main_v1_apply]
      exact congrArg (a4 m c) (funext fun a => Fin.ext (by match a with | ⟨0, _⟩ => rfl)))
    (fun e q => by
      rw [Cert.ReferenceIdeal.Read.val_main_v38_apply, Cert.ReferenceIdeal.Read.val_main_v30_apply]
      exact congrArg (a4 m c) (funext fun a => Fin.ext (by match a with | ⟨0, _⟩ => rfl)))
    (w5out m c) (rp3 m c) (second_proj_hi m c)
  exact key

/-- The latent matrix. -/
theorem latent_eq :
    addf (W7 m c (Proc.devRef .tc main_v30) : FVec Ideal S10000x16 .f32)
        (mulf (W0 m c (Proc.devRef .tc main_arg5)) (Host.exp (W7 m c (Proc.devRef .tc main_v31) : FVec Ideal S10000x16 .f32)))
      = rz m c := by
  rw [means_eq, stds_eq]
  rfl

/-! ## The tiled product of the padded latent matrix with its transpose, cropped -/

/-- A row below 10000 of the padded matrix is that row of z. -/
theorem padded_row (i : Fin 10000) (k : Fin 16) :
    w7pad m c (ix2 (⟨i.val, by omega⟩ : Fin 10240) k) = rz m c (ix2 i k) := by
  have h : w7pad m c = pad S10240x16 ![0, 0] ![240, 0] ![0, 0] (rz m c) (sitofp .f32 (constantI S_ 32 0#32))
      Cert.KernelIdeal.Facts₀.pads_S10000x16_S10240x16_02400_000 Cert.KernelIdeal.Facts₀.h_S_ := by
    refine (W7_v35 m c).trans ?_
    rw [latent_eq]
  rw [h, pad_inside]

/-- The cropped product is z·zᵀ. -/
theorem gram_eq :
    extractStridedSlice S10000x10000 ![0, 0] ((dat2 (R7 m) c).arrAt 2 cfg2.N) Cert.KernelIdeal.Facts₀.slices_S10240x10240_S10000x10000_0_0
      = Cert.ReferenceIdeal.Read.val_main_v47 (F := Ideal) (a0 m c) (a1 m c) (a2 m c) (a3 m c) (a4 m c) (a5 m c) (a6 m c) (a7 m c) := by
  funext idx
  obtain ⟨i, j, rfl⟩ : ∃ (i j : Fin 10000), idx = ix2 i j := ⟨idx 0, idx 1, eq_ix2 idx⟩
  refine (slice_gram (arr2_out (R7 m) c) i j).trans ?_
  rw [final2 (R7 m) c]
  refine (Finset.sum_congr rfl fun k _ => ?_).trans (gram_apply (rz m c) i j).symm
  exact congrArg₂ (· * ·) (padded_row m c i k) (padded_row m c j k)

/-- The first result. -/
theorem out_eq : (W9 m c (Proc.devRef .tc main_v38) : FVec Ideal S100000000 .f32) = rout m c := by
  rw [W9_v38, gram_eq]
  rfl

/-! ## The kernel's run with its results named -/

theorem kernel_vals (ρ : Dev nD → PrngReg) :
    θ_run defs (onTc (τ := τ) (main (F := Ideal))) ⟨m, fun _ => 0, ρ⟩ (fun r => ∀ c : Dev nD,
      r.2.mem ((c.tc : Thread nD τ).loc main_v38) = rout m c
      ∧ r.2.mem ((c.tc : Thread nD τ).loc main_v30) = rmean m c
      ∧ r.2.mem ((c.tc : Thread nD τ).loc main_v31) = rstd m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_v38 (by decide))).trans (out_eq m c),
     (h c _ (mem_uc main_v30 (by decide))).trans ((W9_v30 m c).trans (means_eq m c)),
     (h c _ (mem_uc main_v31 (by decide))).trans ((W9_v31 m c).trans (stds_eq m c)),
     (h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c),
     (h c _ (mem_uc main_arg7 (by decide))).trans (W9_main_arg7 m c)⟩) (run_all m ρ)

end Cert.Proof.Bridge

end
-- ==== Proof.lean ====
/-
  A graph variational auto-encoder's forward pass — two graph-convolution layers (a dense projection followed by a
  sparse aggregation over the edge list), the reparameterisation z = means + noise · exp(log-deviations), and the
  decoder z·zᵀ flattened — as a program of three tiled matrix-product kernels with host operations between them,
  against the same computation written with plain dense products.

  The three frames: the kernel program, read at the machine's words and read at the extended reals, runs to the end
  from any memory, faults nowhere and leaves its eight inputs as they were — its run is a chain of nine segments, each
  kernel a pipeline over its grid whose body loads its two blocks whole, multiplies them and stores the product whole
  (the third kernel reads ONE array through two windows, each holding half of the array's share); the reference is a
  straight line of host operations. The idealization rewrote nothing, so that conjunct is trivial. The values: at the
  extended reals the kernel's three results are the reference's, because each block product is the plain sum of
  products, the 32-wide second layer is the two 16-wide ones column by column, and the cropped product of the
  zero-padded latent matrix never reads a padding row.
-/
import proofs.«419466_j70042326663889_1_alg».proof.Defs
import proofs.«419466_j70042326663889_1_alg».proof.Proof.Gen.Kernel
import proofs.«419466_j70042326663889_1_alg».proof.Proof.Gen.KernelIdeal
import proofs.«419466_j70042326663889_1_alg».proof.Proof.Gen.ReferenceIdeal
import proofs.«419466_j70042326663889_1_alg».proof.Proof.Gen.Pre_finite_inputs
import proofs.«419466_j70042326663889_1_alg».proof.Proof.KbRun
import proofs.«419466_j70042326663889_1_alg».proof.Proof.Bridge
import Idealize.ShloMosaic.Adequacy
import Idealize.ShloMosaic.Init

noncomputable section

namespace Cert.Proof

open Idealize.ShloMosaic Idealize.SL.Sem

/-- The kernel program at the machine's words: its run, with the arguments read back at the end. -/
theorem frame_k : Cert.frame_Kernel := fun m ρ _ => Cert.Kernel.Hand.frame_all (F := Bits) m ρ

/-- The same program at the extended reals. -/
theorem frame_ki : Cert.frame_KernelIdeal := fun m ρ _ => Cert.KernelIdeal.Hand.frame_all (F := Ideal) m ρ

/-- The reference: its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- From memories that agree on the eight inputs both programs end with the same three results: the reference's
    stage functions of the inputs. -/
theorem algebraic : Cert.algebraic_KernelIdeal_ReferenceIdeal := by
  intro m ρ m' ρ' _ hagree
  refine ⟨fun c => Bridge.rout m c, fun c => Bridge.rmean m c, fun c => Bridge.rstd m c, Bridge.kernel_vals m ρ, ?_⟩
  refine (θ_run Cert.ReferenceIdeal.defs _ _).mono (fun _ h c => ?_) (Cert.ReferenceIdeal.Value.run (F := Ideal) m' ρ')
  obtain ⟨h48, h28, h42, hargs⟩ := h c
  obtain ⟨e0, e1, e2, e3, e4, e5, e6, e7⟩ := hagree c
  refine ⟨h48.trans ?_, h28.trans ?_, h42.trans ?_, hargs⟩
  · rw [Cert.ReferenceIdeal.Read.val_main_v48_eq, e0, e1, e2, e3, e4, e5, e6, e7]
  · rw [e0, e1, e2, e4, e6, e7]; rfl
  · rw [e0, e1, e3, e4, e6, e7]; rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
